-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_v13 : IVec S_ 1) (main_v15 : IVec S1600000 32) (main_v16 : IVec S1600000 32) : IVec S_ 1 :=
  let main_v17 : IVec S1600000 1 := cmpi .sge main_v15 main_v16
  let main_c_5 : IVec S_ 1 := constantI S_ 1 1#1
  let main_v18 : IVec S_ 1 := (fun x v => Host.reduce IntOp.andi x v reducesTo_S1600000_S_d0 h_S_) main_v17 main_c_5
  let main_v19 : IVec S_ 1 := andi main_v13 main_v18
  let main_v20 : IVec S1x1600000 32 := (extractStridedSlice S1x1600000 ![0, 0] · slices_S2x1600000_S1x1600000_0_0) main_arg1
  let main_v21 : IVec S1600000 32 := shapeCast S1600000 main_v20 shapeCasts_S1x1600000_S1600000
  let main_c_6 : IVec S_ 32 := constantI S_ 32 100000#32
  let main_v22 : IVec S1600000 32 := broadcastInDim S1600000 ![] bcast_S_S1600000 main_c_6
  let main_v23 : IVec S1600000 1 := cmpi .slt main_v21 main_v22
  let main_c_7 : IVec S_ 1 := constantI S_ 1 1#1
  let main_v24 : IVec S_ 1 := (fun x v => Host.reduce IntOp.andi x v reducesTo_S1600000_S_d0 h_S_) main_v23 main_c_7
  let main_v25 : IVec S_ 1 := andi main_v19 main_v24
  main_v25

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : IVec S1x1600000 32 := (extractStridedSlice S1x1600000 ![0, 0] · slices_S2x1600000_S1x1600000_0_0) main_arg1
  let main_v15 : IVec S1600000 32 := shapeCast S1600000 main_v14 shapeCasts_S1x1600000_S1600000
  let main_c_4 : IVec S_ 32 := constantI S_ 32 0#32
  let main_v16 : IVec S1600000 32 := broadcastInDim S1600000 ![] bcast_S_S1600000 main_c_4
  fn_part1 (F := F) main_arg1 main_v13 main_v15 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100352x128 : Shape := ⟨2, ![100352, 128]⟩
abbrev S2048x128 : Shape := ⟨2, ![2048, 128]⟩
abbrev S1701888 : Shape := ⟨1, ![1701888]⟩
abbrev S1x1701888 : Shape := ⟨2, ![1, 1701888]⟩
abbrev S1701888x128 : Shape := ⟨2, ![1701888, 128]⟩
abbrev S1x2048 : Shape := ⟨2, ![1, 2048]⟩
abbrev S2048 : Shape := ⟨1, ![2048]⟩
abbrev S2048x2048 : Shape := ⟨2, ![2048, 2048]⟩
abbrev S2048x1 : Shape := ⟨2, ![2048, 1]⟩
abbrev S1x128 : Shape := ⟨2, ![1, 128]⟩

abbrev nBuf : Space → Nat
  | .hbm => 67
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000, .i32⟩
  | .hbm, ⟨9, _⟩ => ⟨S1700000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S_, .f32⟩
  | .hbm, ⟨49, _⟩ => ⟨S100352x128, .f32⟩
  | .hbm, ⟨50, _⟩ => ⟨S100352x128, .bf16⟩
  | .hbm, ⟨51, _⟩ => ⟨S_, .i32⟩
  | .hbm, ⟨52, _⟩ => ⟨S_, .i32⟩
  | .hbm, ⟨53, _⟩ => ⟨S1701888, .i32⟩
  | .hbm, ⟨54, _⟩ => ⟨S1x1701888, .i32⟩
  | .hbm, ⟨55, _⟩ => ⟨S_, .i32⟩
  | .hbm, ⟨56, _⟩ => ⟨S_, .i32⟩
  | .hbm, ⟨57, _⟩ => ⟨S1701888, .i32⟩
  | .hbm, ⟨58, _⟩ => ⟨S1x1701888, .i32⟩
  | .hbm, ⟨59, _⟩ => ⟨S_, .i32⟩
  | .hbm, ⟨60, _⟩ => ⟨S_, .f32⟩
  | .hbm, ⟨61, _⟩ => ⟨S1701888, .f32⟩
  | .hbm, ⟨62, _⟩ => ⟨S1x1701888, .f32⟩
  | .hbm, ⟨63, _⟩ => ⟨S1701888x128, .f32⟩
  | .hbm, ⟨64, _⟩ => ⟨S1x128, .f32⟩
  | .hbm, ⟨65, _⟩ => ⟨S100352x128, .f32⟩
  | .hbm, ⟨66, _⟩ => ⟨S100000x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S1x2048, .i32⟩
  | .local _ .vmem, ⟨8, _⟩ => ⟨S1x2048, .i32⟩
  | .local _ .vmem, ⟨9, _⟩ => ⟨S1x2048, .f32⟩
  | .local _ .vmem, ⟨10, _⟩ => ⟨S1x2048, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S1x2048, .i32⟩
  | .local _ .vmem, ⟨17, _⟩ => ⟨S1x2048, .i32⟩
  | .local _ .vmem, ⟨18, _⟩ => ⟨S1x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_call1_v0 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_call2_v0 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_call3_v0 : Ref sig .tc := ⟨.hbm, 56, rfl⟩
abbrev main_v36 : Ref sig .tc := ⟨.hbm, 57, rfl⟩
abbrev main_v37 : Ref sig .tc := ⟨.hbm, 58, rfl⟩
abbrev main_c_10 : Ref sig .tc := ⟨.hbm, 59, rfl⟩
abbrev main_call4_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![831, 49], ![false, false]⟩

def k1_cond2 (i : grid1.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![49, 831], ![false, false]⟩

def k2_cond2 (i : grid2.Coords) : BitVec 1 :=
  let arg1 : BitVec 32 := BitVec.ofNat 32 (i 1).val
  let c830_i32 : BitVec 32 := 830#32
  let v24 : BitVec 1 := Scalar.cmpi .eq arg1 c830_i32
  let v25 : BitVec 32 := Scalar.extui v24
  let c0_i32_8 : BitVec 32 := 0#32
  let v26 : BitVec 1 := Scalar.cmpi .ne v25 c0_i32_8
  v26

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  pads_S100000x128_S100352x128_03520_000 : S100000x128.Pads (![0, 0] : Fin 2 → Nat) ![352, 0] ![0, 0] S100352x128
  h_S_ : 0 < S_.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  packedbf16_S2048x128_S2048x128_0_0 : (Rect.unit (s := S2048x128) ![0, 0] S2048x128.size inb_S2048x128_S2048x128_0_0).PackedRows (EltTy.packing .bf16)
  pads_S1700000_S1701888_018880 : S1700000.Pads (![0] : Fin 1 → Nat) ![1888] ![0] S1701888
  shapeCasts_S1701888_S1x1701888 : S1701888.ShapeCasts S1x1701888
  inb_S1x2048_S1x2048_0_0 : ∀ a, (![0, 0] : Fin 2 → Nat) a + S1x2048.size a ≤ S1x2048.size a
  h_S1x2048 : 0 < S1x2048.numel
  shapeCasts_S1x2048_S2048 : S1x2048.ShapeCasts S2048
  iota_S2048x2048_d1_w32 : S2048x2048.Iotas .tc 32 [1]
  shapeCasts_S2048_S2048x1 : S2048.ShapeCasts S2048x1
  broadcasts_S2048x1_S2048x2048 : S2048x1.Broadcasts S2048x2048
  natLt_1_32 : 1 < 32
  broadcasts_S2048x1_S2048x128 : S2048x1.Broadcasts S2048x128
  shapeCasts_S128_S1x128 : S128.ShapeCasts S1x128
  iota_S2048x2048_d0_w32 : S2048x2048.Iotas .tc 32 [0]
  shapeCasts_S2048_S1x2048 : S2048.ShapeCasts S1x2048
  broadcasts_S1x2048_S2048x2048 : S1x2048.Broadcasts S2048x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S100352x128_S100000x128_0_0 : S100352x128.Slices ![0, 0] S100000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2048x128_S128x128_S2048x128_1_0_0_1_n_n_wf : DotDims.WF S2048x128 S128x128 S2048x128 [1] [0] [0] [1] [] []
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S100352x128.size a
  hwx0_0 : ∀ i : grid0.Coords, EltTy.bits .f32 = 32 ∨ (Rect.block (s := S100352x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S100352x128.size a
  hwx0_2 : ∀ i : grid0.Coords, EltTy.bits .bf16 = 32 ∨ (Rect.block (s := S100352x128) S2048x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S100352x128.size a
  hwx1_0 : ∀ i : grid1.Coords, EltTy.bits .bf16 = 32 ∨ (Rect.block (s := S100352x128) S2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x1701888.size a
  hwx1_1 : ∀ i : grid1.Coords, EltTy.bits .i32 = 32 ∨ (Rect.block (s := S1x1701888) S1x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x1701888.size a
  hwx1_2 : ∀ i : grid1.Coords, EltTy.bits .f32 = 32 ∨ (Rect.block (s := S1x1701888) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S1701888x128.size a
  hwx1_3 : ∀ i : grid1.Coords, EltTy.bits .f32 = 32 ∨ (Rect.block (s := S1701888x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S1701888x128.size a
  hwx2_0 : ∀ i : grid2.Coords, EltTy.bits .f32 = 32 ∨ (Rect.block (s := S1701888x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x1701888.size a
  hwx2_1 : ∀ i : grid2.Coords, EltTy.bits .i32 = 32 ∨ (Rect.block (s := S1x1701888) S1x2048.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S100352x128.size a
  hwx2_3 : ∀ i : grid2.Coords, EltTy.bits .f32 = 32 ∨ (Rect.block (s := S100352x128) S2048x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_v32) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v40) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000, .i32⟩
  | .hbm, ⟨9, _⟩ => ⟨S1700000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S128x128, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call1_cst : Ref sig .tc := ⟨.hbm, 69, rfl⟩
abbrev main_call1_v0 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.FrameK.Reg0.lean ====
/- Kernel region 0: one grid point per block of 2048 rows of the padded node features. The body
   multiplies the block by the transposed weight matrix (both operands narrowed to bf16 on the way into
   the matrix unit, the product accumulated from zero) and stores the product, narrowed, as the block of
   the transformed features. Nothing is kept between points. Stated at the buffer contents `V` the
   region is entered from. -/
import proofs.«423641_j4861902979196_1_alg».proof.Proof.Gen.Kernel.Launch
import proofs.«423641_j4861902979196_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The schedule: where each window's buffer is at a point, the body as the pipeline calls it, the write-backs -/

/-- The staging buffer each window is on at point `t`. -/
abbrev stg0_0 (t : Fin cfg0.N) := (cfg0.win 0).stage (cfg0.slots t 0)
abbrev stg0_1 (t : Fin cfg0.N) := (cfg0.win 1).stage (cfg0.slots t 1)
abbrev stg0_2 (t : Fin cfg0.N) := (cfg0.win 2).stage (cfg0.slots t 2)

/-- The body as the pipeline calls it at point `t`: on the point's coordinates and the windows' current buffers. -/
abbrev pointBody0 (t : Fin cfg0.N) : Prog (TpuEff nD τ sig (Elt F) Λ₀ .tc) PUnit :=
  cc0__matmul_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))

/-- The product block is written back at every point. -/
theorem flush0_2 : ∀ t : Fin cfg0.N, (cfg0.win 2).flush t = true :=
  (by decide +kernel : ∀ t : Fin grid0.N, win0_2.flush t = true)

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds the point's block of rows, whichever proof data name the array `V`'s. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: fetched at the first, its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of the three buffers whole -/

abbrev rX0 : Rect S2048x128 := Rect.unit (s := S2048x128) ![0, 0] S2048x128.size inb_S2048x128_S2048x128_0_0
abbrev rW0 : Rect S128x128 := Rect.unit (s := S128x128) ![0, 0] S128x128.size inb_S128x128_S128x128_0_0

/-- The product block the body leaves in the output's staging buffer, from the two input blocks: its one store. -/
def prod0 (x0 : Vec F S2048x128 .f32) (x1 : Vec F S128x128 .f32) : Vec F S2048x128 .bf16 :=
  View.canon [⟨rX0, k0_pay1 (View.ld x0 rX0) (View.ld x1 rW0)⟩]

/-- The one store covers the buffer. -/
theorem cover_prod0 (p0 : Vec F S2048x128 .bf16) (y : S2048x128.Idx) :
    ∃ pc ∈ ([⟨rX0, p0⟩] : List (View.Piece (Elt F) S2048x128 .bf16)), y ∈ pc.1.set :=
  View.cover_of_tiled [⟨rX0, p0⟩] S2048x128.size (by rfl) y

/-! ## The body's triple -/

set_option maxHeartbeats 1000000 in
/-- On whole staging buffers, the inputs at `x0`, `x1` and the output at anything, the body runs to the
    continuation with the inputs as they were and the output at the product block. -/
theorem sound_kernel0 (c : Dev nD) (E : Set ℕ) (i : grid0.Coords) (arg1 : Memref sig .tc .vmem S2048x128 .f32) (harg1 : arg1.IsWhole)
    (arg2 : Memref sig .tc .vmem S128x128 .f32) (harg2 : arg2.IsWhole) (arg3 : Memref sig .tc .vmem S2048x128 .bf16) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_prod0 _)

/-! ## The proof data -/

/-- The arrays as the region finds them; after the body each input's buffer at its block and the output's at
    the product block; nothing carried between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prod0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = prod0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (stg0_0 t) fullShare ((dat0 V c).after 0 t)
    ∗ owns (c : Thread nD τ) (stg0_1 t) fullShare ((dat0 V c).after 1 t)
    ∗ owns (c : Thread nD τ) (stg0_2 t) fullShare ((dat0 V c).after 2 t))

/-- The body at any point: the inputs' buffers hold their blocks, the triple applies, the invariant and what
    the core owes pass through unread. -/
theorem sound_body0 (c : Dev nD) (t : Fin cfg0.N) :
    bodyPre0 V c t ⊢ wp frame (wpE (defs₀ (F := F)) Variants.none c none) Set.univ (pointBody0 t) (fun _ => bodyPost0 V c t) := by
  unfold bodyPre0 bodyPost0 pointBody0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameK.Reg1Facts.lean ====
import proofs.«423641_j4861902979196_1_alg».proof.Proof.Gen.Kernel.Launch
import proofs.«423641_j4861902979196_1_alg».proof.Proof.Gen.Kernel.Skeleton

noncomputable section

namespace Cert.Kernel.Hand

open Idealize.ShloMosaic Idealize.ShloMosaic.TcCoe
open Idealize.SL Idealize.SL.Sem
open Cert.Kernel Cert.Kernel.Gen

/-! # Kernel region 1: the body's two conditions and the output's write-back, over the grid

Grid point `t` of the 831 × 49 grid is the pair (edge tile `t / 49`, row tile `t % 49`). The body branches twice on
the row-tile coordinate: "first row tile of the run" (reset the accumulator) and "last row tile of the run" (store
the output block). Their closed forms over the 40719 points, the points at which the pipeline writes the output
block back, and where the output window is idle, are stated here once. -/

/-- A point's row-tile coordinate is its position modulo 49. -/
theorem rowTile1 (t : Fin cfg1.N) : ((grid1.coords t) 1).val = t.val % 49 := by
  show t.val / grid1.stride 1 % 49 = t.val % 49
  rw [show grid1.stride 1 = 1 from by decide, Nat.div_one]

/-- A point's edge-tile coordinate is its position divided by 49. -/
theorem edgeTile1 (t : Fin cfg1.N) : ((grid1.coords t) 0).val = t.val / 49 := by
  have ht : t.val < 40719 := lt_of_lt_of_eq t.isLt N_1
  show t.val / grid1.stride 0 % 831 = t.val / 49
  rw [show grid1.stride 0 = 49 from by decide]
  omega

/-- "This is the first row tile of the run": the body's first conditional, as the kernel computes it from the
    row-tile coordinate. -/
abbrev cond1_0 (i : grid1.Coords) : Prop := (Scalar.cmpi .ne (Scalar.extui (Scalar.cmpi .eq (BitVec.ofNat 32 (i 1).val) 0#32)) 0#32) = 1#1
/-- It holds exactly at the points ≡ 0 (mod 49). -/
theorem hcond1_0 : ∀ t : Fin cfg1.N, cond1_0 (grid1.coords t) ↔ t.val % 49 = 0 := fun t => by
  have key : ∀ s : Fin 49, ((Scalar.cmpi .ne (Scalar.extui (Scalar.cmpi .eq (BitVec.ofNat 32 s.val) 0#32)) 0#32) = 1#1) ↔ s.val = 0 := by
    decide
  have h := key ⟨t.val % 49, Nat.mod_lt _ (by decide)⟩
  show (Scalar.cmpi .ne (Scalar.extui (Scalar.cmpi .eq (BitVec.ofNat 32 ((grid1.coords t) 1).val) 0#32)) 0#32) = 1#1 ↔ _
  rw [rowTile1 t]
  exact h

/-- "This is the last row tile of the run": the body's second conditional. -/
abbrev cond1_1 (i : grid1.Coords) : Prop := k1_cond2 i = 1#1
/-- It holds exactly at the points ≡ 48 (mod 49). -/
theorem hcond1_1 : ∀ t : Fin cfg1.N, cond1_1 (grid1.coords t) ↔ t.val % 49 = 48 := fun t => by
  have key : ∀ s : Fin 49, ((Scalar.cmpi .ne (Scalar.extui (Scalar.cmpi .eq (BitVec.ofNat 32 s.val) 48#32)) 0#32) = 1#1) ↔ s.val = 48 := by
    decide
  have h := key ⟨t.val % 49, Nat.mod_lt _ (by decide)⟩
  show (Scalar.cmpi .ne (Scalar.extui (Scalar.cmpi .eq (BitVec.ofNat 32 ((grid1.coords t) 1).val) 48#32)) 0#32) = 1#1 ↔ _
  rw [rowTile1 t]
  exact h

/-- The output window's block index at a point: (edge tile, 0). -/
theorem outIndex1 (t : Fin cfg1.N) : win1_3.index t = ![t.val / 49, 0] := by
  have ht : t.val < 40719 := lt_of_lt_of_eq t.isLt N_1
  funext a
  match a with
  | ⟨0, _⟩ =>
    show (BitVec.ofNat 32 ((grid1.coords t) 0).val).toNat = t.val / 49
    rw [BitVec.toNat_ofNat, edgeTile1 t]
    omega
  | ⟨1, _⟩ => rfl

/-- The output window's block index is the edge tile, which moves after every 49th point: its block is written
    back at the points ≡ 48 (mod 49). -/
theorem flush1_3 : ∀ t : Fin cfg1.N, (cfg1.win 3).flush t = true ↔ t.val % 49 = 48 := fun t => by
  have ht : t.val < 40719 := lt_of_lt_of_eq t.isLt N_1
  have hN : grid1.N = 40719 := N_1
  show (true && (decide (t.val + 1 = grid1.N) || decide (∃ h : t.val + 1 < grid1.N, win1_3.index ⟨t.val + 1, h⟩ ≠ win1_3.index t))) = true ↔ _
  rw [Bool.true_and, Bool.or_eq_true, decide_eq_true_eq, decide_eq_true_eq]
  constructor
  · rintro (h | ⟨h, hne⟩)
    · omega
    · by_contra h48
      apply hne
      rw [outIndex1, outIndex1]
      have e : (t.val + 1) / 49 = t.val / 49 := by omega
      show ![(t.val + 1) / 49, 0] = ![t.val / 49, 0]
      rw [e]
  · intro h48
    by_cases hl : t.val + 1 = grid1.N
    · exact Or.inl hl
    · refine Or.inr ⟨by omega, fun he => ?_⟩
      rw [outIndex1, outIndex1] at he
      have e0 : (t.val + 1) / 49 = t.val / 49 := congrFun he 0
      omega

/-- The two conditions at point `t` read off the residue of `t` modulo 49. -/
theorem c0_of {t : Fin cfg1.N} (h : t.val % 49 = 0) : cond1_0 (grid1.coords t) := (hcond1_0 t).mpr h
theorem nc0_of {t : Fin cfg1.N} (h : ¬t.val % 49 = 0) : ¬cond1_0 (grid1.coords t) := fun h' => h ((hcond1_0 t).mp h')
theorem c1_of {t : Fin cfg1.N} (h : t.val % 49 = 48) : cond1_1 (grid1.coords t) := (hcond1_1 t).mpr h
theorem nc1_of {t : Fin cfg1.N} (h : ¬t.val % 49 = 48) : ¬cond1_1 (grid1.coords t) := fun h' => h ((hcond1_1 t).mp h')

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The output window is idle wherever the last-trip condition fails (the first trip of a run and the middle
    trips): the configuration's table for it is the negation of that very condition. -/
theorem idleAt1_3 : ∀ t : Fin cfg1.N, ¬cond1_1 (grid1.coords t) → cfg1.idle 3 (grid1.coords t) = true :=
  fun t h => by
    show (!(k1_cond2 (grid1.coords t) == 1#1)) = true
    rw [Bool.not_eq_true', beq_eq_false_iff_ne]; exact h
/-- Nor is its block written back there: the write-back points are those where the condition holds. -/
theorem noFlush1_3 : ∀ t : Fin cfg1.N, ¬cond1_1 (grid1.coords t) → (cfg1.win 3).flush t = false :=
  fun t h => Bool.eq_false_iff.mpr fun hf => h ((hcond1_1 t).mpr ((flush1_3 t).mp hf))
/-- At the last trip of a run the output window is live: the body stores its block. -/
theorem liveAt1_3 : ∀ t : Fin cfg1.N, cond1_1 (grid1.coords t) → cfg1.idle 3 (grid1.coords t) = false :=
  fun t h => by
    show (!(k1_cond2 (grid1.coords t) == 1#1)) = false
    rw [Bool.not_eq_false', beq_iff_eq]; exact h

end Cert.Kernel.Hand

end
-- ==== Proof.FrameK.Reg1Runs.lean ====
import proofs.«423641_j4861902979196_1_alg».proof.Proof.FrameK.Reg1Facts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Kernel region 1: the one-hot gather, accumulated over 49 row tiles

Grid point `t` is the pair (edge tile `t / 49`, row tile `t % 49`). Along the 49 row tiles of one edge tile the kernel
keeps a 2048×128 accumulator in its scratch: the first trip (`t % 49 = 0`) sets it to zeros, every trip adds the
product of the trip's one-hot matrix (edge `e` selects row `row[e] − 2048·(t % 49)` of the tile, if it lies in it) with
the row tile of `h`, and the last trip (`t % 49 = 48`) scales the finished accumulator row by row by the edge tile's
norm and stores it as the output block. Everything is stated at the contents `V` the region is entered with. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile of `h` (window 0) is in its current staging buffer at every point: it is fetched at every point,
    the body only loads it, the blocks tile the array and the window is never idle. For any proof data whose array
    is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The edge tile of row indices (window 1) is in its current staging buffer at every point: fetched at the first
    trip of a run of 49, it stays there for the other 48, whose block index is the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The edge tile of norms (window 2), likewise: fetched at the first trip of a run, in place for the rest of it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called with -/

/-- One staging buffer of the output window, through which its contents are stated (the choice does not matter). -/
abbrev VO1_3 : View sig .tc .vmem S2048x128 .f32 := (Memref.whole cc1_stg3_0 : Memref sig .tc .vmem S2048x128 .f32).view
/-- Each window's current staging memref at point `t`, as the pipeline passes it to the body, and its wholeness. -/
abbrev ms1_0 (t : Fin cfg1.N) : Memref sig .tc .vmem S2048x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S2048x128 .f32 := Memref.whole cc1_scratch0
/-- The same as a view: what the accumulator holds is stated through it. -/
abbrev VS1_0 : View sig .tc .vmem S2048x128 .f32 := scM1_0.view

/-- The kernel body at point `t` as the pipeline calls it: the kernel function at the point's coordinates, on each
    window's current staging memref and on the accumulator. -/
abbrev pointBody1 (t : Fin cfg1.N) : Prog (TpuEff nD τ sig (Elt F) Λ₀ .tc) PUnit :=
  cc1__gather_scale_kernel (grid1.coords t) (ms1_0 t) (hs1_0 t) (ms1_1 t) (hs1_1 t) (ms1_2 t) (hs1_2 t) (ms1_3 t) (hs1_3 t) scM1_0 (Memref.isWhole_whole _)

/-- The core's other scoped buffers that are no staging buffer of this kernel (the other two kernels' staging
    buffers and scratch), each at some contents: the body never touches them. -/
abbrev others1 (c : Dev nD) : sProp 𝕄 :=
  Pipeline.scopedRestBut (Ix := Unit) (Name := ℕ) (U := UR sig nD τ) (Lvl := ℕ) (Val := Elt F) spec1 c [cc1_scratch0]

/-- The region's invariant as the launch hands it over, with the accumulator as a memref owned at some contents,
    the other scoped buffers unopened, and the generator register at some state. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA
  rw [Pipeline.scopedRest_split_of_list spec1 c [cc1_scratch0] (by decide) (by decide)]
  simp only [scM1_0, owns_whole]; try rfl

/-! ## The body's run, case by case

Each run is the body's triple on ANY whole memrefs in that control case, found by executing the kernel's skeleton:
its witness is the list of pieces (stores, last first) the case leaves in the output's buffer and in the accumulator. -/

set_option maxHeartbeats 1000000 in
/-- CASE A, the first row tile of a run (reset taken, output store not taken). From the three inputs at their blocks,
    the output's buffer at contents `xi3` it hands back untouched, and the accumulator at ANYTHING, the body runs to
    the inputs as they were and the accumulator with two stores written: zeros, then zeros plus this trip's
    one-hot product. -/
noncomputable def kernelRun1_A (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x128 .bf16) (x1 : Vec F S1x2048 .i32) (x2 : Vec F S1x2048 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_scale_kernel i arg2 harg2 arg3 harg3 arg4 harg4 arg5 harg5 arg6 harg6) K } := by
  refine ⟨[], ?_, fun xi3 E K => ?run⟩
  case run =>
    simp only [cc1__gather_scale_kernel_eq_skeleton]; unfold cc1__gather_scale_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B, a middle row tile (neither taken). From the inputs at their blocks, the output's buffer at `xi3`
    handed back untouched, and the accumulator at what the trip before left (`xs0`), the body runs to the
    accumulator with one store written: `xs0` plus this trip's one-hot product. -/
noncomputable def kernelRun1_B (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x128 .bf16) (x1 : Vec F S1x2048 .i32) (x2 : Vec F S1x2048 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_scale_kernel i arg2 harg2 arg3 harg3 arg4 harg4 arg5 harg5 arg6 harg6) K } := by
  refine ⟨[], ?_, fun xi3 E K => ?run⟩
  case run =>
    simp only [cc1__gather_scale_kernel_eq_skeleton]; unfold cc1__gather_scale_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C, the last row tile of a run (reset not taken, output store taken). From the inputs at their blocks, the
    output's buffer at ANYTHING, and the accumulator at what the trip before left (`xs0`), the body runs to the
    accumulator with one store written (`xs0` plus the last one-hot product) and the output's buffer with one
    store written: the finished accumulator scaled row by row by the norms. -/
noncomputable def kernelRun1_C (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x128 .bf16) (x1 : Vec F S1x2048 .i32) (x2 : Vec F S1x2048 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gather_scale_kernel i arg2 harg2 arg3 harg3 arg4 harg4 arg5 harg5 arg6 harg6) K } := by
  refine ⟨?_, ?_, fun E K => ?run⟩
  case run =>
    simp only [cc1__gather_scale_kernel_eq_skeleton]; unfold cc1__gather_scale_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.FrameK.Reg1.lean ====
import proofs.«423641_j4861902979196_1_alg».proof.Proof.FrameK.Reg1Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Kernel region 1: what each point leaves, the invariant, the body obligation -/

/-! ## What each case leaves -/

/-- Case A stores nothing into the output window (it is idle at the first trip of a run and not written back):
    no pieces; a placeholder nothing consults. -/
def out1_A_3 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x128 .bf16) (x1 : Vec F S1x2048 .i32) (x2 : Vec F S1x2048 .f32) : Vec F S2048x128 .f32 :=
  VO1_3.read (Elt F) (VO1_3.writes (Elt F) VO1_3.junk (kernelRun1_A c i arg2 harg2 arg3 harg3 arg4 harg4 arg5 harg5 arg6 harg6 hc0 hc1 x0 x1 x2).1)

/-- Case A's two stores into the accumulator (zeros, then the first partial sum) each span it whole, so they cover it. -/
theorem scover1_A_0 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x128 .bf16) (x1 : Vec F S1x2048 .i32) (x2 : Vec F S1x2048 .f32) (y : S2048x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x128.size (by sl_kernel_rfl) y

/-- What case A leaves in the accumulator: its stores read back. -/
def sout1_A_0 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x128 .bf16) (x1 : Vec F S1x2048 .i32) (x2 : Vec F S1x2048 .f32) : Vec F S2048x128 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output window either (a middle trip: idle, not written back). -/
def out1_B_3 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x128 .bf16) (x1 : Vec F S1x2048 .i32) (x2 : Vec F S1x2048 .f32) (xs0 : Vec F S2048x128 .f32) : Vec F S2048x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's one store into the accumulator spans it whole. -/
theorem scover1_B_0 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x128 .bf16) (x1 : Vec F S1x2048 .i32) (x2 : Vec F S1x2048 .f32) (xs0 : Vec F S2048x128 .f32) (y : S2048x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x128.size (by sl_kernel_rfl) y

/-- What case B leaves in the accumulator: what it found plus this trip's product. -/
def sout1_B_0 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x128 .bf16) (x1 : Vec F S1x2048 .i32) (x2 : Vec F S1x2048 .f32) (xs0 : Vec F S2048x128 .f32) : Vec F S2048x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store into the output window spans its block whole. -/
theorem cover1_C_3 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x128 .bf16) (x1 : Vec F S1x2048 .i32) (x2 : Vec F S1x2048 .f32) (xs0 : Vec F S2048x128 .f32) (y : S2048x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x128.size (by sl_kernel_rfl) y

/-- What case C leaves in the output window's buffer: the scaled finished accumulator. -/
def out1_C_3 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x128 .bf16) (x1 : Vec F S1x2048 .i32) (x2 : Vec F S1x2048 .f32) (xs0 : Vec F S2048x128 .f32) : Vec F S2048x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's one store into the accumulator spans it whole. -/
theorem scover1_C_0 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x128 .bf16) (x1 : Vec F S1x2048 .i32) (x2 : Vec F S1x2048 .f32) (xs0 : Vec F S2048x128 .f32) (y : S2048x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x128.size (by sl_kernel_rfl) y

/-- What case C leaves in the accumulator: the run's finished sum. -/
def sout1_C_0 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x128 .bf16) (x1 : Vec F S1x2048 .i32) (x2 : Vec F S1x2048 .f32) (xs0 : Vec F S2048x128 .f32) : Vec F S2048x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the accumulator hold after each point -/

/-- THE ACCUMULATION. After the body at position `n`: (the output window's staging buffer, the accumulator). The
    residue of `n` modulo 49 selects the case, run on the point's memrefs and input blocks; cases B and C start from
    the accumulator position `n - 1` left (the scratch is not touched between two points). No point is both first
    and last of its run. -/
def outsAt1 (c : Dev nD) : (n : ℕ) → n < cfg1.N → Vec F S2048x128 .f32 × Vec F S2048x128 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) (c0_of (t := ⟨0, hn⟩) (Nat.zero_mod _)) (nc1_of (t := ⟨0, hn⟩) (by (try dsimp only); omega)) (iblk1 V c 0 ⟨0, hn⟩) (iblk1 V c 1 ⟨0, hn⟩) (iblk1 V c 2 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) (c0_of (t := ⟨0, hn⟩) (Nat.zero_mod _)) (nc1_of (t := ⟨0, hn⟩) (by (try dsimp only); omega)) (iblk1 V c 0 ⟨0, hn⟩) (iblk1 V c 1 ⟨0, hn⟩) (iblk1 V c 2 ⟨0, hn⟩))
  | n + 1, hn =>
    if h0 : (n + 1) % 49 = 0 then
      if h1 : (n + 1) % 49 = 48 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (c0_of (t := ⟨n + 1, hn⟩) h0) (nc1_of (t := ⟨n + 1, hn⟩) h1) (iblk1 V c 0 ⟨n + 1, hn⟩) (iblk1 V c 1 ⟨n + 1, hn⟩) (iblk1 V c 2 ⟨n + 1, hn⟩),
         sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (c0_of (t := ⟨n + 1, hn⟩) h0) (nc1_of (t := ⟨n + 1, hn⟩) h1) (iblk1 V c 0 ⟨n + 1, hn⟩) (iblk1 V c 1 ⟨n + 1, hn⟩) (iblk1 V c 2 ⟨n + 1, hn⟩))
    else
      if h1 : (n + 1) % 49 = 48 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (nc0_of (t := ⟨n + 1, hn⟩) h0) (c1_of (t := ⟨n + 1, hn⟩) h1) (iblk1 V c 0 ⟨n + 1, hn⟩) (iblk1 V c 1 ⟨n + 1, hn⟩) (iblk1 V c 2 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (nc0_of (t := ⟨n + 1, hn⟩) h0) (c1_of (t := ⟨n + 1, hn⟩) h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (nc0_of (t := ⟨n + 1, hn⟩) h0) (nc1_of (t := ⟨n + 1, hn⟩) h1) (iblk1 V c 0 ⟨n + 1, hn⟩) (iblk1 V c 1 ⟨n + 1, hn⟩) (iblk1 V c 2 ⟨n + 1, hn⟩) (outsAt1 c n (Nat.lt_of_succ_lt hn)).2,
         sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (nc0_of (t := ⟨n + 1, hn⟩) h0) (nc1_of (t := ⟨n + 1, hn⟩) h1) (iblk1 V c 0 ⟨n + 1, hn⟩) (iblk1 V c 1 ⟨n + 1, hn⟩) (iblk1 V c 2 ⟨n + 1, hn⟩) (outsAt1 c n (Nat.lt_of_succ_lt hn)).2)

/-- The accumulator position `t - 1` left, as the case equations below name it. -/
abbrev prevAcc1 (c : Dev nD) (t : Fin cfg1.N) : Vec F S2048x128 .f32 :=
  (outsAt1 V c (t.val - 1) (Nat.lt_of_le_of_lt (Nat.sub_le _ _) t.isLt)).2

/-- `outsAt1` at a first trip (case A). -/
theorem outsAt1_A (c : Dev nD) (t : Fin cfg1.N) (h0 : t.val % 49 = 0) (h1 : ¬t.val % 49 = 48) :
    outsAt1 V c t.val t.isLt =
      (out1_A_3 c (grid1.coords t) (ms1_0 t) (hs1_0 t) (ms1_1 t) (hs1_1 t) (ms1_2 t) (hs1_2 t) (ms1_3 t) (hs1_3 t) scM1_0 (Memref.isWhole_whole _) (c0_of h0) (nc1_of h1) (iblk1 V c 0 t) (iblk1 V c 1 t) (iblk1 V c 2 t),
       sout1_A_0 c (grid1.coords t) (ms1_0 t) (hs1_0 t) (ms1_1 t) (hs1_1 t) (ms1_2 t) (hs1_2 t) (ms1_3 t) (hs1_3 t) scM1_0 (Memref.isWhole_whole _) (c0_of h0) (nc1_of h1) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle trip (case B): over what the point before left. -/
theorem outsAt1_B (c : Dev nD) (t : Fin cfg1.N) (h0 : ¬t.val % 49 = 0) (h1 : ¬t.val % 49 = 48) :
    outsAt1 V c t.val t.isLt =
      (out1_B_3 c (grid1.coords t) (ms1_0 t) (hs1_0 t) (ms1_1 t) (hs1_1 t) (ms1_2 t) (hs1_2 t) (ms1_3 t) (hs1_3 t) scM1_0 (Memref.isWhole_whole _) (nc0_of h0) (nc1_of h1) (iblk1 V c 0 t) (iblk1 V c 1 t) (iblk1 V c 2 t) (prevAcc1 V c t),
       sout1_B_0 c (grid1.coords t) (ms1_0 t) (hs1_0 t) (ms1_1 t) (hs1_1 t) (ms1_2 t) (hs1_2 t) (ms1_3 t) (hs1_3 t) scM1_0 (Memref.isWhole_whole _) (nc0_of h0) (nc1_of h1) (iblk1 V c 0 t) (iblk1 V c 1 t) (iblk1 V c 2 t) (prevAcc1 V c t)) := by
  obtain ⟨n, hn⟩ := t
  cases n with
  | zero => exact (by exfalso; (try dsimp only at h0); exact absurd (Nat.zero_mod _) h0)
  | succ n => exact (dif_neg h0).trans ((dif_neg h1).trans rfl)

/-- `outsAt1` at a last trip (case C): over what the point before left. -/
theorem outsAt1_C (c : Dev nD) (t : Fin cfg1.N) (h0 : ¬t.val % 49 = 0) (h1 : t.val % 49 = 48) :
    outsAt1 V c t.val t.isLt =
      (out1_C_3 c (grid1.coords t) (ms1_0 t) (hs1_0 t) (ms1_1 t) (hs1_1 t) (ms1_2 t) (hs1_2 t) (ms1_3 t) (hs1_3 t) scM1_0 (Memref.isWhole_whole _) (nc0_of h0) (c1_of h1) (iblk1 V c 0 t) (iblk1 V c 1 t) (iblk1 V c 2 t) (prevAcc1 V c t),
       sout1_C_0 c (grid1.coords t) (ms1_0 t) (hs1_0 t) (ms1_1 t) (hs1_1 t) (ms1_2 t) (hs1_2 t) (ms1_3 t) (hs1_3 t) scM1_0 (Memref.isWhole_whole _) (nc0_of h0) (c1_of h1) (iblk1 V c 0 t) (iblk1 V c 1 t) (iblk1 V c 2 t) (prevAcc1 V c t)) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`. Before the first point: what the launch hands over (every scoped
    buffer that is no staging buffer at anything, the generator register at some state). From then on the
    accumulator is NAMED: it holds what the point before left in it (`outsAt1`'s second component), which is how
    a partial sum reaches the next row tile; the other scoped buffers stay unopened. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The pipeline's proof data -/

/-- The proof data of this pipeline on core `c`: the arrays as the region finds them (`V`); after the body at point
    `t` each input's buffer still at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what the core owes, and the four windows' current
    staging buffers, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the residue of `t` modulo 49 says which case the
    point is in, and that case's run applies. The invariant hands the body the accumulator — at anything at the
    very first point, else at what the point before left — and takes it back at this point's contents (the case's
    stores cover it); the other scoped buffers, the generator register and what the core owes pass through unread.
    At a first or middle trip the output window is idle and its buffer goes back as it came; at a last trip it goes
    back at the stored block. -/
theorem sound_body1 (c : Dev nD) (t : Fin cfg1.N) :
    bodyPre1 V c t ⊢ wp frame (wpE (defs₀ (F := F)) Variants.none c none) Set.univ (pointBody1 t) (fun _ => bodyPost1 V c t) := by
  unfold bodyPre1 bodyPost1 pointBody1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  by_cases h0 : t.val % 49 = 0
  · by_cases h1 : t.val % 49 = 48
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (nc1_of h1)) (noFlush1_3 t (nc1_of h1))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ (c0_of h0) (nc1_of h1) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ (c0_of h0) (nc1_of h1) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 49 = 48
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t (c1_of h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_C c (grid1.coords t) _ _ _ _ _ _ _ _ _ _ (nc0_of h0) (c1_of h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (nc1_of h1)) (noFlush1_3 t (nc1_of h1))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_B c (grid1.coords t) _ _ _ _ _ _ _ _ _ _ (nc0_of h0) (nc1_of h1) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 40719 := N_1; omega)

end Cert.Kernel.Hand

end
-- ==== Proof.FrameK.Reg2Facts.lean ====
import proofs.«423641_j4861902979196_1_alg».proof.Proof.Gen.Kernel.Launch
import proofs.«423641_j4861902979196_1_alg».proof.Proof.Gen.Kernel.Skeleton

set_option maxRecDepth 16384

noncomputable section

namespace Cert.Kernel.Hand

open Idealize.ShloMosaic Idealize.ShloMosaic.TcCoe
open Idealize.SL Idealize.SL.Sem
open Cert.Kernel Cert.Kernel.Gen

/-! # Region 2 (the scatter-add kernel): the two conditions of its body over the grid, and where its windows are idle

The grid is 49 row tiles by 831 edge tiles, the edge-tile axis the inner one: a point's position modulo 831 is its
trip within the reduction run of its row tile. -/

/-- A point's edge-tile coordinate is its position modulo 831. -/
theorem edgeTile2 (t : Fin cfg2.N) : ((grid2.coords t) 1).val = t.val % 831 := by
  show t.val / grid2.stride 1 % 831 = t.val % 831
  rw [show grid2.stride 1 = 1 from by decide, Nat.div_one]

/-- A point's row-tile coordinate is its position divided by 831. -/
theorem rowTile2 (t : Fin cfg2.N) : ((grid2.coords t) 0).val = t.val / 831 := by
  have ht : t.val < 40719 := lt_of_lt_of_eq t.isLt N_2
  show t.val / grid2.stride 0 % 49 = t.val / 831
  rw [show grid2.stride 0 = 831 from by decide]
  omega

/-! ## The body's two conditions -/

/-- The first trip of a reduction run (edge-tile coordinate 0): the accumulator is reset to zeros. -/
abbrev cond2_0 (i : grid2.Coords) : Prop := (Scalar.cmpi .ne (Scalar.extui (Scalar.cmpi .eq (BitVec.ofNat 32 (i 1).val) 0#32)) 0#32) = 1#1
/-- It holds at the points ≡ 0 (mod 831). -/
theorem hcond2_0 : ∀ t : Fin cfg2.N, cond2_0 (grid2.coords t) ↔ t.val % 831 = 0 := fun t => by
  have key : ∀ s : Fin 831, ((Scalar.cmpi .ne (Scalar.extui (Scalar.cmpi .eq (BitVec.ofNat 32 s.val) 0#32)) 0#32) = 1#1) ↔ s.val = 0 := by
    decide +kernel
  have h := key ⟨t.val % 831, Nat.mod_lt _ (by decide)⟩
  show (Scalar.cmpi .ne (Scalar.extui (Scalar.cmpi .eq (BitVec.ofNat 32 ((grid2.coords t) 1).val) 0#32)) 0#32) = 1#1 ↔ _
  rw [edgeTile2 t]
  exact h

/-- The last trip of a reduction run (edge-tile coordinate 830): the output block is stored. -/
abbrev cond2_1 (i : grid2.Coords) : Prop := k2_cond2 i = 1#1
/-- It holds at the points ≡ 830 (mod 831). -/
theorem hcond2_1 : ∀ t : Fin cfg2.N, cond2_1 (grid2.coords t) ↔ t.val % 831 = 830 := fun t => by
  have key : ∀ s : Fin 831, ((Scalar.cmpi .ne (Scalar.extui (Scalar.cmpi .eq (BitVec.ofNat 32 s.val) 830#32)) 0#32) = 1#1) ↔ s.val = 830 := by
    decide +kernel
  have h := key ⟨t.val % 831, Nat.mod_lt _ (by decide)⟩
  show (Scalar.cmpi .ne (Scalar.extui (Scalar.cmpi .eq (BitVec.ofNat 32 ((grid2.coords t) 1).val) 830#32)) 0#32) = 1#1 ↔ _
  rw [edgeTile2 t]
  exact h

/-! ## When the output block is written back -/

/-- The output window's block index at a point: (row tile, 0). -/
theorem outIndex2 (t : Fin cfg2.N) : win2_3.index t = ![t.val / 831, 0] := by
  have ht : t.val < 40719 := lt_of_lt_of_eq t.isLt N_2
  funext a
  match a with
  | ⟨0, _⟩ =>
    show (BitVec.ofNat 32 ((grid2.coords t) 0).val).toNat = t.val / 831
    rw [BitVec.toNat_ofNat, rowTile2 t]
    omega
  | ⟨1, _⟩ => rfl

/-- The output window (the block of 2048 result rows of the point's row tile) is written back at the points
    ≡ 830 (mod 831): when its block index is about to move, at the last edge tile of the row tile. -/
theorem flush2_3 : ∀ t : Fin cfg2.N, (cfg2.win 3).flush t = true ↔ t.val % 831 = 830 := fun t => by
  have ht : t.val < 40719 := lt_of_lt_of_eq t.isLt N_2
  have hN : grid2.N = 40719 := N_2
  show (true && (decide (t.val + 1 = grid2.N) || decide (∃ h : t.val + 1 < grid2.N, win2_3.index ⟨t.val + 1, h⟩ ≠ win2_3.index t))) = true ↔ _
  rw [Bool.true_and, Bool.or_eq_true, decide_eq_true_eq, decide_eq_true_eq]
  constructor
  · rintro (h | ⟨h, hne⟩)
    · omega
    · by_contra h830
      apply hne
      rw [outIndex2, outIndex2]
      have e : (t.val + 1) / 831 = t.val / 831 := by omega
      show ![(t.val + 1) / 831, 0] = ![t.val / 831, 0]
      rw [e]
  · intro h830
    by_cases hl : t.val + 1 = grid2.N
    · exact Or.inl hl
    · refine Or.inr ⟨by omega, fun he => ?_⟩
      rw [outIndex2, outIndex2] at he
      have e0 : (t.val + 1) / 831 = t.val / 831 := congrFun he 0
      omega

/-! ## Where the windows are idle

The idle table marks the three inputs never idle and the output idle exactly where the last-trip condition fails, so
each fact below is that table read at the point. -/

/-- The three inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Off the last trip the output window is idle: nothing is stored into it, -/
theorem idleAt2_3 : ∀ t : Fin cfg2.N, ¬cond2_1 (grid2.coords t) → cfg2.idle 3 (grid2.coords t) = true := fun t h => by
  show (!(k2_cond2 (grid2.coords t) == 1#1)) = true
  rw [Bool.not_eq_true', beq_eq_false_iff_ne]
  exact h
/-- and its block is not written back: it is written back exactly at the points ≡ 830 (mod 831). -/
theorem noFlush2_3 : ∀ t : Fin cfg2.N, ¬cond2_1 (grid2.coords t) → (cfg2.win 3).flush t = false := fun t h =>
  Bool.eq_false_iff.mpr (fun hf => h ((hcond2_1 t).mpr ((flush2_3 t).mp hf)))
/-- At the last trip the output window is live. -/
theorem liveAt2_3 : ∀ t : Fin cfg2.N, cond2_1 (grid2.coords t) → cfg2.idle 3 (grid2.coords t) = false := fun t h => by
  show (!(k2_cond2 (grid2.coords t) == 1#1)) = false
  rw [show k2_cond2 (grid2.coords t) = 1#1 from h]
  rfl

end Cert.Kernel.Hand

end
-- ==== Proof.FrameK.Reg2Runs.lean ====
import proofs.«423641_j4861902979196_1_alg».proof.Proof.Gen.Kernel.Launch
import proofs.«423641_j4861902979196_1_alg».proof.Proof.Gen.Kernel.Skeleton
import proofs.«423641_j4861902979196_1_alg».proof.Proof.FrameK.Reg2Facts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the scatter-add kernel (one-hot products accumulated over the 831 edge tiles of each of the 49 row tiles) -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The message tile (window 0) in its current staging buffer is the block of its array at every point, fetched there
    or not, for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the tile of destination rows (window 1). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for the bias row (window 2), fetched once: its block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The memrefs the body is called with -/

/-- One staging buffer of the output window, through which its contents are stated. -/
abbrev VO2_3 : View sig .tc .vmem S2048x128 .f32 := (Memref.whole cc2_stg3_0 : Memref sig .tc .vmem S2048x128 .f32).view
/-- Each window's current staging memref at point `t`, and its wholeness. -/
abbrev ms2_0 (t : Fin cfg2.N) : Memref sig .tc .vmem S2048x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x128 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows and carried between points. -/
abbrev scM2_0 : Memref sig .tc .vmem S2048x128 .f32 := Memref.whole cc2_scratch0
/-- The same as a view: what the accumulator holds is stated through it. -/
abbrev VS2_0 : View sig .tc .vmem S2048x128 .f32 := scM2_0.view

/-- The body as the pipeline calls it at point `t`: the kernel at the point's coordinates, on each window's current
    staging buffer and on the accumulator. -/
abbrev pointBody2 (t : Fin cfg2.N) : Prog (TpuEff nD τ sig (Elt F) Λ₀ .tc) PUnit :=
  cc2__scatter_relu_kernel (grid2.coords t) (ms2_0 t) (hs2_0 t) (ms2_1 t) (hs2_1 t) (ms2_2 t) (hs2_2 t) (ms2_3 t) (hs2_3 t) scM2_0 (Memref.isWhole_whole _)

/-- The core's scoped buffers that are no staging buffer of this region — the other two regions' staging buffers and
    the gather kernel's accumulator, each whole at some contents — around this kernel's accumulator, which is `P`. -/
abbrev rest2 (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ P)

/-- The region's invariant with the scoped buffers that are no staging buffer of this region listed one by one, the
    accumulator last, each owned at some contents. -/
theorem PhiA2_eq (c : Dev nD) :
    (Pipeline.ΦA spec2 c : sProp 𝕄)
      = iprop(rest2 c iprop(∃ d, owns (c : Thread nD τ) scM2_0 fullShare d) ∗ (∃ r, prngReg c r)) := by
  unfold Pipeline.ΦA; rw [scopedRest2_eq]; simp only [rest2, scM2_0, owns_whole]; try rfl

set_option maxHeartbeats 1000000 in
/-- THE FIRST TRIP of a reduction run (edge-tile coordinate 0, which is not the last): the accumulator, found at
    anything, is reset to zeros and this tile's one-hot product is added into it; nothing is stored into the output
    block, whose buffer (at `xi3`) is handed back untouched. The pieces the accumulator ends with are `LS0` (the reset,
    then the update); the output gets none. -/
noncomputable def kernelRun2_A (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S2048x128 .f32) (x1 : Vec F S1x2048 .i32) (x2 : Vec F S1x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_relu_kernel i arg2 harg2 arg3 harg3 arg4 harg4 arg5 harg5 arg6 harg6) K } := by
  refine ⟨[], ?_, fun xi3 E K => ?run⟩
  case run =>
    simp only [cc2__scatter_relu_kernel_eq_skeleton]; unfold cc2__scatter_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- A MIDDLE TRIP (edge-tile coordinate neither 0 nor 830): this tile's one-hot product is added into the accumulator,
    found at what the trip before left (`xs0`); nothing is stored into the output block, whose buffer (at `xi3`) is
    handed back untouched. -/
noncomputable def kernelRun2_B (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S2048x128 .f32) (x1 : Vec F S1x2048 .i32) (x2 : Vec F S1x128 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_relu_kernel i arg2 harg2 arg3 harg3 arg4 harg4 arg5 harg5 arg6 harg6) K } := by
  refine ⟨[], ?_, fun xi3 E K => ?run⟩
  case run =>
    simp only [cc2__scatter_relu_kernel_eq_skeleton]; unfold cc2__scatter_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- THE LAST TRIP of a reduction run (edge-tile coordinate 830, which is not the first): this tile's one-hot product is
    added into the accumulator, found at what the trip before left (`xs0`), and the finished sum plus the bias row,
    clamped below at zero, is stored over the whole output block (pieces `L3`), whose buffer is found at anything. -/
noncomputable def kernelRun2_C (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S2048x128 .f32) (x1 : Vec F S1x2048 .i32) (x2 : Vec F S1x128 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_relu_kernel i arg2 harg2 arg3 harg3 arg4 harg4 arg5 harg5 arg6 harg6) K } := by
  refine ⟨?_, ?_, fun E K => ?run⟩
  case run =>
    simp only [cc2__scatter_relu_kernel_eq_skeleton]; unfold cc2__scatter_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.FrameK.Reg2.lean ====
import proofs.«423641_j4861902979196_1_alg».proof.Proof.FrameK.Reg2Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each trip leaves in the output block's buffer and in the accumulator -/

/-- The first trip stores nothing into the output block (idle there, not written back): no pieces — a placeholder
    (junk read back) that nothing consults. -/
def out2_A_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S2048x128 .f32) (x1 : Vec F S1x2048 .i32) (x2 : Vec F S1x128 .f32) : Vec F S2048x128 .f32 :=
  VO2_3.read (Elt F) (VO2_3.writes (Elt F) VO2_3.junk (kernelRun2_A c i arg2 harg2 arg3 harg3 arg4 harg4 arg5 harg5 arg6 harg6 hc0 hc1 x0 x1 x2).1)

/-- The first trip's two stores into the accumulator (the zeros, then the zeros plus this tile's product) each cover it. -/
theorem scover2_A_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S2048x128 .f32) (x1 : Vec F S1x2048 .i32) (x2 : Vec F S1x128 .f32) (y : S2048x128.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2048x128.size (by sl_kernel_rfl) y

/-- What the first trip leaves in the accumulator: its pieces read back over junk. -/
def sout2_A_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S2048x128 .f32) (x1 : Vec F S1x2048 .i32) (x2 : Vec F S1x128 .f32) : Vec F S2048x128 .f32 :=
  VS2_0.read (Elt F) (VS2_0.writes (Elt F) VS2_0.junk (kernelRun2_A c i arg2 harg2 arg3 harg3 arg4 harg4 arg5 harg5 arg6 harg6 hc0 hc1 x0 x1 x2).2.1)

/-- A middle trip stores nothing into the output block: a placeholder as at the first trip. -/
def out2_B_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S2048x128 .f32) (x1 : Vec F S1x2048 .i32) (x2 : Vec F S1x128 .f32) (xs0 : Vec F S2048x128 .f32) : Vec F S2048x128 .f32 :=
  VO2_3.read (Elt F) (VO2_3.writes (Elt F) VO2_3.junk (kernelRun2_B c i arg2 harg2 arg3 harg3 arg4 harg4 arg5 harg5 arg6 harg6 hc0 hc1 x0 x1 x2 xs0).1)

/-- A middle trip's one store into the accumulator covers it. -/
theorem scover2_B_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S2048x128 .f32) (x1 : Vec F S1x2048 .i32) (x2 : Vec F S1x128 .f32) (xs0 : Vec F S2048x128 .f32) (y : S2048x128.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S2048x128.size (by sl_kernel_rfl) y

/-- What a middle trip leaves in the accumulator. -/
def sout2_B_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S2048x128 .f32) (x1 : Vec F S1x2048 .i32) (x2 : Vec F S1x128 .f32) (xs0 : Vec F S2048x128 .f32) : Vec F S2048x128 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- The last trip's one store into the output block covers it. -/
theorem cover2_C_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S2048x128 .f32) (x1 : Vec F S1x2048 .i32) (x2 : Vec F S1x128 .f32) (xs0 : Vec F S2048x128 .f32) (y : S2048x128.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2048x128.size (by sl_kernel_rfl) y

/-- What the last trip leaves in the output block's buffer. -/
def out2_C_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S2048x128 .f32) (x1 : Vec F S1x2048 .i32) (x2 : Vec F S1x128 .f32) (xs0 : Vec F S2048x128 .f32) : Vec F S2048x128 .f32 :=
  VO2_3.read (Elt F) (VO2_3.writes (Elt F) VO2_3.junk (kernelRun2_C c i arg2 harg2 arg3 harg3 arg4 harg4 arg5 harg5 arg6 harg6 hc0 hc1 x0 x1 x2 xs0).1)

/-- The last trip's one store into the accumulator covers it. -/
theorem scover2_C_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S2048x128 .f32) (x1 : Vec F S1x2048 .i32) (x2 : Vec F S1x128 .f32) (xs0 : Vec F S2048x128 .f32) (y : S2048x128.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2048x128.size (by sl_kernel_rfl) y

/-- What the last trip leaves in the accumulator. -/
def sout2_C_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S2048x128 .f32) (x1 : Vec F S1x2048 .i32) (x2 : Vec F S1x128 .f32) (xs0 : Vec F S2048x128 .f32) : Vec F S2048x128 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output block's buffer and the accumulator hold after each point -/

/-- THE ACCUMULATION. After the body at position `n`: the output block's buffer (first component) and the accumulator
    (second). Which trip `n` is, is read off `n` modulo 831: 0 is a first trip (the accumulator restarts from zeros, whatever
    it held), 830 a last trip (the output block is stored), anything else a middle trip; off the first trip the
    accumulator is found at what position `n - 1` left. -/
def outsAt2 (c : Dev nD) : (n : ℕ) → n < cfg2.N → Vec F S2048x128 .f32 × Vec F S2048x128 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 831 = 0 then
      if h1 : (n + 1) % 831 = 830 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 831 = 830 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a first trip. -/
theorem outsAt2_A (c : Dev nD) (t : Fin cfg2.N) (h0 : t.val % 831 = 0) (h1 : ¬t.val % 831 = 830) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a middle trip: over what the point before left in the accumulator. -/
theorem outsAt2_B (c : Dev nD) (t : Fin cfg2.N) (h0 : ¬t.val % 831 = 0) (h1 : ¬t.val % 831 = 830) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a last trip: over what the point before left in the accumulator. -/
theorem outsAt2_C (c : Dev nD) (t : Fin cfg2.N) (h0 : ¬t.val % 831 = 0) (h1 : t.val % 831 = 830) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point, what the launch hands the region (every scoped buffer at anything);
    afterwards the same with the accumulator at what position `n - 1` left in it. -/
def PhiS2 (c : Dev nD) : (n : ℕ) → n ≤ cfg2.N → sProp 𝕄
  | 0, _ => Pipeline.ΦA spec2 c
  | n + 1, hn => iprop(rest2 c iprop(owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(rest2 c iprop(owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(rest2 c iprop(owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of this region on core `c`: the arrays as the region finds them (`V`); after the body at point `t`
    each input's buffer at its block, the output block's at `outsAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the point's position modulo 831 says which trip it is.
    At a first trip the invariant hands over the accumulator at anything (before the very first point) or at what the
    point before left (the last trip of the row tile before: forgotten, the accumulator restarts from zeros); at the
    other trips at what the point before left, which is what the trip adds to. The accumulator goes back at this
    point's contents. The output block's buffer is handed back untouched off the last trip, where it is idle and not
    written back, and at the last trip holds the stored block. The other regions' scoped buffers pass through. -/
theorem sound_body2 (c : Dev nD) (t : Fin cfg2.N) :
    bodyPre2 V c t ⊢ wp frame (wpE (defs₀ (F := F)) Variants.none c none) Set.univ (pointBody2 t) (fun _ => bodyPost2 V c t) := by
  unfold bodyPre2 bodyPost2 pointBody2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 40719 := lt_of_lt_of_eq t.isLt (show cfg2.N = 40719 from N_2)
  by_cases h0 : t.val % 831 = 0
  · by_cases h1 : t.val % 831 = 830
    · exfalso; omega
    · -- a first trip
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 R3 R4 R5 R6 R7 R8 R9 R10 R11 R12 R13 HS0 Hg]
        · isplitl [R0 R1 R2 R3 R4 R5 R6 R7 R8 R9 R10 R11 R12 R13 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [R0 R1 R2 R3 R4 R5 R6 R7 R8 R9 R10 R11 R12 R13 HS0 Hg]
        · isplitl [R0 R1 R2 R3 R4 R5 R6 R7 R8 R9 R10 R11 R12 R13 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 831 = 830
    · -- a last trip
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [R0 R1 R2 R3 R4 R5 R6 R7 R8 R9 R10 R11 R12 R13 HS0 Hg]
        · isplitl [R0 R1 R2 R3 R4 R5 R6 R7 R8 R9 R10 R11 R12 R13 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            unfold owns; iexists _; isplitr
            swap; · iexact HS0
            ipureintro; exact View.read_writes_of_cover _ _ _ _ _ (scover2_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · -- a middle trip
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 R3 R4 R5 R6 R7 R8 R9 R10 R11 R12 R13 HS0 Hg]
        · isplitl [R0 R1 R2 R3 R4 R5 R6 R7 R8 R9 R10 R11 R12 R13 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            unfold owns; iexists _; isplitr
            swap; · iexact HS0
            ipureintro; exact View.read_writes_of_cover _ _ _ _ _ (scover2_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's form back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨R0, R1, R2, R3, R4, R5, R6, R7, R8, R9, R10, R11, R12, R13, HS0⟩, Hg⟩
  isplitl [R0 R1 R2 R3 R4 R5 R6 R7 R8 R9 R10 R11 R12 R13 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 40719 := N_2; omega)

end Cert.Kernel.Hand

end
-- ==== Proof.FrameK.Stages.lean ====
/- The buffer contents between the items of @main, stage by stage. Between two items every unscoped buffer of the
   core is held at a named valuation: the launch memory, then each host stretch applied, then — after a kernel region —
   the region's output array at what its write-backs leave and every other buffer as it was. What a region leaves is
   defined from the proof data of that region at the contents it is entered from, so the stages are defined in order. -/
import proofs.«423641_j4861902979196_1_alg».proof.Proof.FrameK.Reg0
import proofs.«423641_j4861902979196_1_alg».proof.Proof.FrameK.Reg1
import proofs.«423641_j4861902979196_1_alg».proof.Proof.FrameK.Reg2
import proofs.«423641_j4861902979196_1_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region leaves, stage by stage -/

/-- Region 0 is entered with the buffers as the host stretches before it leave them. -/
abbrev In0 : (c : Dev nD) → (b : Ref sig .tc) → Buf (Elt F) ((c : Thread nD τ).loc b) := fun c b => Gen.V4 m c b
/-- The buffers after region 0: its arrays at what its write-backs leave. -/
def W5 (c : Dev nD) : Valuation τ sig (Elt F) :=
  Pipeline.withArrays spec0 c (Gen.V4 m c) fun w => (dat0 (In0 m) c).arrAt w cfg0.N
/-- What the regions leave, as far as region 0 is concerned. -/
def outsA : Gen.Outs (F := F) := fun _ r c => W5 m c r
/-- Region 1 is entered with region 0's result in place and the host stretches between applied. -/
abbrev In1 : (c : Dev nD) → (b : Ref sig .tc) → Buf (Elt F) ((c : Thread nD τ).loc b) := fun c b => Gen.V12 m (outsA m) c b
def W13 (c : Dev nD) : Valuation τ sig (Elt F) :=
  Pipeline.withArrays spec1 c (Gen.V12 m (outsA m) c) fun w => (dat1 (In1 m) c).arrAt w cfg1.N
/-- What the regions leave, as far as regions 0 and 1 are concerned. -/
def outsB : Gen.Outs (F := F) := fun n r c => if n = 13 then W13 m c r else W5 m c r
abbrev In2 : (c : Dev nD) → (b : Ref sig .tc) → Buf (Elt F) ((c : Thread nD τ).loc b) := fun c b => Gen.V14 m (outsB m) c b
def W15 (c : Dev nD) : Valuation τ sig (Elt F) :=
  Pipeline.withArrays spec2 c (Gen.V14 m (outsB m) c) fun w => (dat2 (In2 m) c).arrAt w cfg2.N
/-- What each region leaves in its output array. -/
def outs : Gen.Outs (F := F) := fun n r c => if n = 15 then W15 m c r else if n = 13 then W13 m c r else W5 m c r

theorem W5_out (c : Dev nD) : W5 m c (Proc.devRef .tc main_v33) = (dat0 (In0 m) c).arrAt 2 cfg0.N := by
  unfold W5; exact Pipeline.withArrays_arr spec0 launch0.win.arr_inj c _ _ 2
theorem W13_out (c : Dev nD) : W13 m c (Proc.devRef .tc main_v40) = (dat1 (In1 m) c).arrAt 3 cfg1.N := by
  unfold W13; exact Pipeline.withArrays_arr spec1 launch1.win.arr_inj c _ _ 3
theorem W15_out (c : Dev nD) : W15 m c (Proc.devRef .tc main_v42) = (dat2 (In2 m) c).arrAt 3 cfg2.N := by
  unfold W15; exact Pipeline.withArrays_arr spec2 launch2.win.arr_inj c _ _ 3

theorem outs_5 (c : Dev nD) : outs m 5 main_v33 c = (dat0 (In0 m) c).arrAt 2 cfg0.N := W5_out m c
theorem outsA_5 (c : Dev nD) : outsA m 5 main_v33 c = (dat0 (In0 m) c).arrAt 2 cfg0.N := W5_out m c
theorem outs_13 (c : Dev nD) : outs m 13 main_v40 c = (dat1 (In1 m) c).arrAt 3 cfg1.N := W13_out m c
theorem outsB_13 (c : Dev nD) : outsB m 13 main_v40 c = (dat1 (In1 m) c).arrAt 3 cfg1.N := W13_out m c
theorem outs_15 (c : Dev nD) : outs m 15 main_v42 c = (dat2 (In2 m) c).arrAt 3 cfg2.N := W15_out m c

/-- The later stages do not change what an earlier region is entered from. -/
theorem V5_outs (c : Dev nD) : Gen.V5 m (outs m) c = Gen.V5 m (outsA m) c := rfl
theorem V12_outs (c : Dev nD) : Gen.V12 m (outs m) c = Gen.V12 m (outsA m) c := by
  unfold Gen.V12 Gen.V11 Gen.V10 Gen.V9 Gen.V8 Gen.V7 Gen.V6
  rw [V5_outs]
theorem V5_outsB (c : Dev nD) : Gen.V5 m (outsB m) c = Gen.V5 m (outsA m) c := rfl
theorem V12_outsB (c : Dev nD) : Gen.V12 m (outsB m) c = Gen.V12 m (outsA m) c := by
  unfold Gen.V12 Gen.V11 Gen.V10 Gen.V9 Gen.V8 Gen.V7 Gen.V6
  rw [V5_outsB]
theorem V13_outs (c : Dev nD) : Gen.V13 m (outs m) c = Gen.V13 m (outsB m) c := by
  unfold Gen.V13
  rw [V12_outs m c, V12_outsB m c]
  rfl
theorem V14_outs (c : Dev nD) : Gen.V14 m (outs m) c = Gen.V14 m (outsB m) c := by
  unfold Gen.V14
  rw [V13_outs]

end Cert.Kernel.Hand

end
-- ==== Proof.FrameK.Run.lean ====
/- The run of the whole program: the three kernel regions as segments entered from and left at the stages' valuations,
   the host stretches between them, the launch; at the end every unscoped buffer holds the last stage's contents. -/
import proofs.«423641_j4861902979196_1_alg».proof.Proof.FrameK.Stages

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (In0 m) c
  | ⟨1, _⟩ => fun c => dat1 (In1 m) c
  | ⟨2, _⟩ => fun c => dat2 (In2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- The same at each of the four stretches between regions (a definition, so that rewriting under a product over the cores does not open it). -/
def E : Fin 4 → Dev nD → sProp 𝕄 := fun _ c => R c

/-- The buffers after each region, read at the TensorCore's references. -/
abbrev Out0 : (c : Dev nD) → (b : Ref sig .tc) → Buf (Elt F) ((c : Thread nD τ).loc b) := fun c b => Gen.V5 m (outs m) c b
abbrev Out1 : (c : Dev nD) → (b : Ref sig .tc) → Buf (Elt F) ((c : Thread nD τ).loc b) := fun c b => Gen.V13 m (outs m) c b
abbrev Out2 : (c : Dev nD) → (b : Ref sig .tc) → Buf (Elt F) ((c : Thread nD τ).loc b) := fun c b => Gen.V15 m (outs m) c b

/-- After region 0 each of its arrays holds what the pipeline leaves: the inputs as entered, the output at its write-backs. -/
theorem hF0 (c : Dev nD) (w : Fin cfg0.W) : (pdats m 0 c).arrAt w cfg0.N = Out0 m c (Pipeline.arrRef spec0 w) := by
  show (dat0 (In0 m) c).arrAt w cfg0.N = _
  fin_cases w
  · exact ((dat0 (In0 m) c).arrAt_in 0 rfl _).trans ((A_eq0 (In0 m) c 0).trans (Gen.V5_of m (outs m) c main_v32 (by decide)).symm)
  · exact ((dat0 (In0 m) c).arrAt_in 1 rfl _).trans ((A_eq0 (In0 m) c 1).trans (Gen.V5_of m (outs m) c main_arg2 (by decide)).symm)
  · refine (outs_5 m c).symm.trans ?_
    show outs m 5 main_v33 c = Function.update (Gen.V4 m c) (Proc.devRef .tc main_v33) (outs m 5 main_v33 c) (Proc.devRef .tc main_v33)
    rw [Function.update_self]
theorem hrest0 (c : Dev nD) : ∀ b, b ∉ Finset.univ.image (Pipeline.arrRef spec0) → Out0 m c b = In0 m c b := fun b hb =>
  Gen.V5_of m (outs m) c b (fun h => hb (Finset.mem_image.mpr ⟨2, Finset.mem_univ _, (List.mem_singleton.mp h).symm⟩))

theorem hF1 (c : Dev nD) (w : Fin cfg1.W) : (pdats m 1 c).arrAt w cfg1.N = Out1 m c (Pipeline.arrRef spec1 w) := by
  show (dat1 (In1 m) c).arrAt w cfg1.N = Gen.V13 m (outs m) c _
  rw [V13_outs]
  fin_cases w
  · exact ((dat1 (In1 m) c).arrAt_in 0 rfl _).trans ((A_eq1 (In1 m) c 0).trans (((Gen.V13_of m (outsB m) c main_v33 (by decide)).trans (congrFun (V12_outsB m c) _)).symm))
  · exact ((dat1 (In1 m) c).arrAt_in 1 rfl _).trans ((A_eq1 (In1 m) c 1).trans (((Gen.V13_of m (outsB m) c main_v35 (by decide)).trans (congrFun (V12_outsB m c) _)).symm))
  · exact ((dat1 (In1 m) c).arrAt_in 2 rfl _).trans ((A_eq1 (In1 m) c 2).trans (((Gen.V13_of m (outsB m) c main_v39 (by decide)).trans (congrFun (V12_outsB m c) _)).symm))
  · refine (outsB_13 m c).symm.trans ?_
    show outsB m 13 main_v40 c = Function.update (Gen.V12 m (outsB m) c) (Proc.devRef .tc main_v40) (outsB m 13 main_v40 c) (Proc.devRef .tc main_v40)
    rw [Function.update_self]
theorem hrest1 (c : Dev nD) : ∀ b, b ∉ Finset.univ.image (Pipeline.arrRef spec1) → Out1 m c b = In1 m c b := fun b hb =>
  (Gen.V13_of m (outs m) c b (fun h => hb (Finset.mem_image.mpr ⟨3, Finset.mem_univ _, (List.mem_singleton.mp h).symm⟩))).trans
    (congrFun (V12_outs m c) _)

theorem hF2 (c : Dev nD) (w : Fin cfg2.W) : (pdats m 2 c).arrAt w cfg2.N = Out2 m c (Pipeline.arrRef spec2 w) := by
  show (dat2 (In2 m) c).arrAt w cfg2.N = Gen.V15 m (outs m) c _
  fin_cases w
  · exact ((dat2 (In2 m) c).arrAt_in 0 rfl _).trans ((A_eq2 (In2 m) c 0).trans (((Gen.V15_of m (outs m) c main_v40 (by decide)).trans (congrFun (V14_outs m c) _)).symm))
  · exact ((dat2 (In2 m) c).arrAt_in 1 rfl _).trans ((A_eq2 (In2 m) c 1).trans (((Gen.V15_of m (outs m) c main_v37 (by decide)).trans (congrFun (V14_outs m c) _)).symm))
  · exact ((dat2 (In2 m) c).arrAt_in 2 rfl _).trans ((A_eq2 (In2 m) c 2).trans (((Gen.V15_of m (outs m) c main_v41 (by decide)).trans (congrFun (V14_outs m c) _)).symm))
  · refine (outs_15 m c).symm.trans ?_
    show outs m 15 main_v42 c = Function.update (Gen.V14 m (outs m) c) (Proc.devRef .tc main_v42) (outs m 15 main_v42 c) (Proc.devRef .tc main_v42)
    rw [Function.update_self]
theorem hrest2 (c : Dev nD) : ∀ b, b ∉ Finset.univ.image (Pipeline.arrRef spec2) → Out2 m c b = In2 m c b := fun b hb =>
  (Gen.V15_of m (outs m) c b (fun h => hb (Finset.mem_image.mpr ⟨3, Finset.mem_univ _, (List.mem_singleton.mp h).symm⟩))).trans
    (congrFun (V14_outs m c) _)

/-! ## The regions as segments -/

-- a library lemma stated over the pinned configuration unifies with the printed one only when unification may unfold
-- plain definitions in a metavariable's type
set_option backward.isDefEq.respectTransparency.types false in
/-- Kernel region 0 over the thread state: entered with every unscoped buffer at the contents before it, left with them at
    the contents after it — its arrays split out of the unscoped buffers and put back at what the write-backs leave; the
    generator register into the region's invariant and out; nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ L lv 0 fun _ _ => rfl
  pre c := iprop(StableHlo.held (c : Thread nD τ) (Pipeline.ucRefs τ sig) (Gen.V4 m c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (In0 m c) (Out0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Kernel region 1 over the thread state: entered with every unscoped buffer at the contents before it, left with them at
    the contents after it — its arrays split out of the unscoped buffers and put back at what the write-backs leave; the
    generator register into the region's invariant and out; nothing owed; no semaphore of the kernel's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ L lv 1 fun _ _ => rfl
  pre c := iprop(StableHlo.held (c : Thread nD τ) (Pipeline.ucRefs τ sig) (Gen.V12 m (outs m) c) ∗ R c)
  post c := iprop(StableHlo.held (c : Thread nD τ) (Pipeline.ucRefs τ sig) (Gen.V13 m (outs m) c) ∗ R c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (In1 m c) fun _ => rfl
    rw [Pipeline.unscopedBufs_held] at hsplit
    rw [V12_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (In1 m) c)
    unfold Pipeline.ΦA
    iintro ⟨Hp, -, Hr⟩
    isplitl [Hr]; · iexact Hr
    iexact Hp
  hout c := by
    rw [Pipeline.ownSems0_none]
    refine .trans (hout1 (In1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (In1 m c) (Out1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Kernel region 2 over the thread state: entered with every unscoped buffer at the contents before it, left with them at
    the contents after it — its arrays split out of the unscoped buffers and put back at what the write-backs leave; the
    generator register into the region's invariant and out; nothing owed; no semaphore of the kernel's own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (In2 m) c).loose
  hwaits := Pipeline.hwaits_of_owed_zero _ _ _ _ L lv 2 fun _ _ => rfl
  pre c := iprop(StableHlo.held (c : Thread nD τ) (Pipeline.ucRefs τ sig) (Gen.V14 m (outs m) c) ∗ R c)
  post c := iprop(StableHlo.held (c : Thread nD τ) (Pipeline.ucRefs τ sig) (Gen.V15 m (outs m) c) ∗ R c)
  X c := iprop(∃ r, prngReg c r)
  Y c := iprop(∃ r, prngReg c r)
  Z c := Pipeline.unscopedRest (Ix := Unit) (Name := ℕ) (U := UR sig nD τ) (Lvl := ℕ) spec2 c (In2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (In2 m c) fun _ => rfl
    rw [Pipeline.unscopedBufs_held] at hsplit
    rw [V14_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (In2 m) c)
    unfold Pipeline.ΦA
    iintro ⟨Hp, -, Hr⟩
    isplitl [Hr]; · iexact Hr
    iexact Hp
  hout c := by
    rw [Pipeline.ownSems0_none]
    refine .trans (hout2 (In2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (In2 m c) (Out2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the items' segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN. From any memory with zero counters every weakly fair execution of @main terminates, nothing faulting, and
    every final memory holds each unscoped buffer at the last valuation of the chain: the launch memory with every host
    stretch applied and each region's output array at what its write-backs leave. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V16 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m) (reg2 m))
    (fun c Q => by
      rewrite [main_chain c, Pipeline.Seg.run_eq_chain,
        show (Gen.segs m (outs m) 𝒱₀ L lv E () (pdats m) (reg0 m) (reg1 m) (reg2 m) c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V16 m (outs m) c))
    (hch := fun c => ⟨.rfl, .rfl, .rfl, .rfl, .rfl, .rfl, .rfl, .rfl, .rfl, .rfl, .rfl, .rfl, .rfl, .rfl, .rfl, .rfl,
      sep_mono .rfl (by show R (F := F) c ⊢ _; iintro ⟨-, H⟩; iexact H)⟩)
    (hinit := ?_) (QY := fun c s => ∀ b ∈ Pipeline.ucRefs τ sig, s.mem ((c : Thread nD τ).1, b) = Gen.V16 m (outs m) c b)
    (hfin := fun c s' => ?_) (hQ := fun _ h => h)
  · -- the launch: the unscoped buffers are held at the launch memory; the generator register and the empty debt ride along
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    have hride : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄)
        ⊢ bigSep Finset.univ (E (F := F) 0) :=
      bigSep_mono fun c _ => by
        show _ ⊢ R (F := F) c
        iintro ⟨-, HO, -, Hp, -⟩
        isplitl [Hp]; · iexists _; iexact Hp
        iexists ∅; iexact HO
    iintro ⟨H, -⟩
    ihave H' := hsplit $$ H
    icases H' with ⟨Hh, Hr⟩
    ihave HE := hride $$ Hr
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (Gen.V16 m (outs m) c) s') $$ [Hh HSI]
    · isplitl [Hh] <;> iassumption
    icases Hr with ⟨%h, HSI⟩
    imodintro
    isplitr
    · ipureintro; exact h
    · iexact HSI

/-- The frame: the four argument arrays end as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Gen.V16_main_arg0 m (outs m) c),
     (h c _ (mem_uc main_arg1 (by decide))).trans (Gen.V16_main_arg1 m (outs m) c),
     (h c _ (mem_uc main_arg2 (by decide))).trans (Gen.V16_main_arg2 m (outs m) c),
     (h c _ (mem_uc main_arg3 (by decide))).trans (Gen.V16_main_arg3 m (outs m) c)⟩) (run_all m ρ)

end Cert.Kernel.Hand

end
-- ==== Proof.FrameKI.Reg0.lean ====
/- Kernel region 0: one grid point per block of 2048 rows of the padded node features. The body
   multiplies the block by the transposed weight matrix (both operands narrowed to bf16 on the way into
   the matrix unit, the product accumulated from zero) and stores the product, narrowed, as the block of
   the transformed features. Nothing is kept between points. Stated at the buffer contents `V` the
   region is entered from. -/
import proofs.«423641_j4861902979196_1_alg».proof.Proof.Gen.KernelIdeal.Launch
import proofs.«423641_j4861902979196_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The schedule: where each window's buffer is at a point, the body as the pipeline calls it, the write-backs -/

/-- The staging buffer each window is on at point `t`. -/
abbrev stg0_0 (t : Fin cfg0.N) := (cfg0.win 0).stage (cfg0.slots t 0)
abbrev stg0_1 (t : Fin cfg0.N) := (cfg0.win 1).stage (cfg0.slots t 1)
abbrev stg0_2 (t : Fin cfg0.N) := (cfg0.win 2).stage (cfg0.slots t 2)

/-- The body as the pipeline calls it at point `t`: on the point's coordinates and the windows' current buffers. -/
abbrev pointBody0 (t : Fin cfg0.N) : Prog (TpuEff nD τ sig (Elt F) Λ₀ .tc) PUnit :=
  cc0__matmul_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))

/-- The product block is written back at every point. -/
theorem flush0_2 : ∀ t : Fin cfg0.N, (cfg0.win 2).flush t = true :=
  (by decide +kernel : ∀ t : Fin grid0.N, win0_2.flush t = true)

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds the point's block of rows, whichever proof data name the array `V`'s. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: fetched at the first, its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of the three buffers whole -/

abbrev rX0 : Rect S2048x128 := Rect.unit (s := S2048x128) ![0, 0] S2048x128.size inb_S2048x128_S2048x128_0_0
abbrev rW0 : Rect S128x128 := Rect.unit (s := S128x128) ![0, 0] S128x128.size inb_S128x128_S128x128_0_0

/-- The product block the body leaves in the output's staging buffer, from the two input blocks: its one store. -/
def prod0 (x0 : Vec F S2048x128 .f32) (x1 : Vec F S128x128 .f32) : Vec F S2048x128 .bf16 :=
  View.canon [⟨rX0, k0_pay1 (View.ld x0 rX0) (View.ld x1 rW0)⟩]

/-- The one store covers the buffer. -/
theorem cover_prod0 (p0 : Vec F S2048x128 .bf16) (y : S2048x128.Idx) :
    ∃ pc ∈ ([⟨rX0, p0⟩] : List (View.Piece (Elt F) S2048x128 .bf16)), y ∈ pc.1.set :=
  View.cover_of_tiled [⟨rX0, p0⟩] S2048x128.size (by rfl) y

/-! ## The body's triple -/

set_option maxHeartbeats 1000000 in
/-- On whole staging buffers, the inputs at `x0`, `x1` and the output at anything, the body runs to the
    continuation with the inputs as they were and the output at the product block. -/
theorem sound_kernel0 (c : Dev nD) (E : Set ℕ) (i : grid0.Coords) (arg1 : Memref sig .tc .vmem S2048x128 .f32) (harg1 : arg1.IsWhole)
    (arg2 : Memref sig .tc .vmem S128x128 .f32) (harg2 : arg2.IsWhole) (arg3 : Memref sig .tc .vmem S2048x128 .bf16) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_prod0 _)

/-! ## The proof data -/

/-- The arrays as the region finds them; after the body each input's buffer at its block and the output's at
    the product block; nothing carried between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prod0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = prod0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (stg0_0 t) fullShare ((dat0 V c).after 0 t)
    ∗ owns (c : Thread nD τ) (stg0_1 t) fullShare ((dat0 V c).after 1 t)
    ∗ owns (c : Thread nD τ) (stg0_2 t) fullShare ((dat0 V c).after 2 t))

/-- The body at any point: the inputs' buffers hold their blocks, the triple applies, the invariant and what
    the core owes pass through unread. -/
theorem sound_body0 (c : Dev nD) (t : Fin cfg0.N) :
    bodyPre0 V c t ⊢ wp frame (wpE (defs₀ (F := F)) Variants.none c none) Set.univ (pointBody0 t) (fun _ => bodyPost0 V c t) := by
  unfold bodyPre0 bodyPost0 pointBody0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameKI.Reg1Facts.lean ====
import proofs.«423641_j4861902979196_1_alg».proof.Proof.Gen.KernelIdeal.Launch
import proofs.«423641_j4861902979196_1_alg».proof.Proof.Gen.KernelIdeal.Skeleton

noncomputable section

namespace Cert.KernelIdeal.Hand

open Idealize.ShloMosaic Idealize.ShloMosaic.TcCoe
open Idealize.SL Idealize.SL.Sem
open Cert.KernelIdeal Cert.KernelIdeal.Gen

/-! # Kernel region 1: the body's two conditions and the output's write-back, over the grid

Grid point `t` of the 831 × 49 grid is the pair (edge tile `t / 49`, row tile `t % 49`). The body branches twice on
the row-tile coordinate: "first row tile of the run" (reset the accumulator) and "last row tile of the run" (store
the output block). Their closed forms over the 40719 points, the points at which the pipeline writes the output
block back, and where the output window is idle, are stated here once. -/

/-- A point's row-tile coordinate is its position modulo 49. -/
theorem rowTile1 (t : Fin cfg1.N) : ((grid1.coords t) 1).val = t.val % 49 := by
  show t.val / grid1.stride 1 % 49 = t.val % 49
  rw [show grid1.stride 1 = 1 from by decide, Nat.div_one]

/-- A point's edge-tile coordinate is its position divided by 49. -/
theorem edgeTile1 (t : Fin cfg1.N) : ((grid1.coords t) 0).val = t.val / 49 := by
  have ht : t.val < 40719 := lt_of_lt_of_eq t.isLt N_1
  show t.val / grid1.stride 0 % 831 = t.val / 49
  rw [show grid1.stride 0 = 49 from by decide]
  omega

/-- "This is the first row tile of the run": the body's first conditional, as the kernel computes it from the
    row-tile coordinate. -/
abbrev cond1_0 (i : grid1.Coords) : Prop := (Scalar.cmpi .ne (Scalar.extui (Scalar.cmpi .eq (BitVec.ofNat 32 (i 1).val) 0#32)) 0#32) = 1#1
/-- It holds exactly at the points ≡ 0 (mod 49). -/
theorem hcond1_0 : ∀ t : Fin cfg1.N, cond1_0 (grid1.coords t) ↔ t.val % 49 = 0 := fun t => by
  have key : ∀ s : Fin 49, ((Scalar.cmpi .ne (Scalar.extui (Scalar.cmpi .eq (BitVec.ofNat 32 s.val) 0#32)) 0#32) = 1#1) ↔ s.val = 0 := by
    decide
  have h := key ⟨t.val % 49, Nat.mod_lt _ (by decide)⟩
  show (Scalar.cmpi .ne (Scalar.extui (Scalar.cmpi .eq (BitVec.ofNat 32 ((grid1.coords t) 1).val) 0#32)) 0#32) = 1#1 ↔ _
  rw [rowTile1 t]
  exact h

/-- "This is the last row tile of the run": the body's second conditional. -/
abbrev cond1_1 (i : grid1.Coords) : Prop := k1_cond2 i = 1#1
/-- It holds exactly at the points ≡ 48 (mod 49). -/
theorem hcond1_1 : ∀ t : Fin cfg1.N, cond1_1 (grid1.coords t) ↔ t.val % 49 = 48 := fun t => by
  have key : ∀ s : Fin 49, ((Scalar.cmpi .ne (Scalar.extui (Scalar.cmpi .eq (BitVec.ofNat 32 s.val) 48#32)) 0#32) = 1#1) ↔ s.val = 48 := by
    decide
  have h := key ⟨t.val % 49, Nat.mod_lt _ (by decide)⟩
  show (Scalar.cmpi .ne (Scalar.extui (Scalar.cmpi .eq (BitVec.ofNat 32 ((grid1.coords t) 1).val) 48#32)) 0#32) = 1#1 ↔ _
  rw [rowTile1 t]
  exact h

/-- The output window's block index at a point: (edge tile, 0). -/
theorem outIndex1 (t : Fin cfg1.N) : win1_3.index t = ![t.val / 49, 0] := by
  have ht : t.val < 40719 := lt_of_lt_of_eq t.isLt N_1
  funext a
  match a with
  | ⟨0, _⟩ =>
    show (BitVec.ofNat 32 ((grid1.coords t) 0).val).toNat = t.val / 49
    rw [BitVec.toNat_ofNat, edgeTile1 t]
    omega
  | ⟨1, _⟩ => rfl

/-- The output window's block index is the edge tile, which moves after every 49th point: its block is written
    back at the points ≡ 48 (mod 49). -/
theorem flush1_3 : ∀ t : Fin cfg1.N, (cfg1.win 3).flush t = true ↔ t.val % 49 = 48 := fun t => by
  have ht : t.val < 40719 := lt_of_lt_of_eq t.isLt N_1
  have hN : grid1.N = 40719 := N_1
  show (true && (decide (t.val + 1 = grid1.N) || decide (∃ h : t.val + 1 < grid1.N, win1_3.index ⟨t.val + 1, h⟩ ≠ win1_3.index t))) = true ↔ _
  rw [Bool.true_and, Bool.or_eq_true, decide_eq_true_eq, decide_eq_true_eq]
  constructor
  · rintro (h | ⟨h, hne⟩)
    · omega
    · by_contra h48
      apply hne
      rw [outIndex1, outIndex1]
      have e : (t.val + 1) / 49 = t.val / 49 := by omega
      show ![(t.val + 1) / 49, 0] = ![t.val / 49, 0]
      rw [e]
  · intro h48
    by_cases hl : t.val + 1 = grid1.N
    · exact Or.inl hl
    · refine Or.inr ⟨by omega, fun he => ?_⟩
      rw [outIndex1, outIndex1] at he
      have e0 : (t.val + 1) / 49 = t.val / 49 := congrFun he 0
      omega

/-- The two conditions at point `t` read off the residue of `t` modulo 49. -/
theorem c0_of {t : Fin cfg1.N} (h : t.val % 49 = 0) : cond1_0 (grid1.coords t) := (hcond1_0 t).mpr h
theorem nc0_of {t : Fin cfg1.N} (h : ¬t.val % 49 = 0) : ¬cond1_0 (grid1.coords t) := fun h' => h ((hcond1_0 t).mp h')
theorem c1_of {t : Fin cfg1.N} (h : t.val % 49 = 48) : cond1_1 (grid1.coords t) := (hcond1_1 t).mpr h
theorem nc1_of {t : Fin cfg1.N} (h : ¬t.val % 49 = 48) : ¬cond1_1 (grid1.coords t) := fun h' => h ((hcond1_1 t).mp h')

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The output window is idle wherever the last-trip condition fails (the first trip of a run and the middle
    trips): the configuration's table for it is the negation of that very condition. -/
theorem idleAt1_3 : ∀ t : Fin cfg1.N, ¬cond1_1 (grid1.coords t) → cfg1.idle 3 (grid1.coords t) = true :=
  fun t h => by
    show (!(k1_cond2 (grid1.coords t) == 1#1)) = true
    rw [Bool.not_eq_true', beq_eq_false_iff_ne]; exact h
/-- Nor is its block written back there: the write-back points are those where the condition holds. -/
theorem noFlush1_3 : ∀ t : Fin cfg1.N, ¬cond1_1 (grid1.coords t) → (cfg1.win 3).flush t = false :=
  fun t h => Bool.eq_false_iff.mpr fun hf => h ((hcond1_1 t).mpr ((flush1_3 t).mp hf))
/-- At the last trip of a run the output window is live: the body stores its block. -/
theorem liveAt1_3 : ∀ t : Fin cfg1.N, cond1_1 (grid1.coords t) → cfg1.idle 3 (grid1.coords t) = false :=
  fun t h => by
    show (!(k1_cond2 (grid1.coords t) == 1#1)) = false
    rw [Bool.not_eq_false', beq_iff_eq]; exact h

end Cert.KernelIdeal.Hand

end
-- ==== Proof.FrameKI.Reg1Runs.lean ====
import proofs.«423641_j4861902979196_1_alg».proof.Proof.FrameKI.Reg1Facts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Kernel region 1: the one-hot gather, accumulated over 49 row tiles

Grid point `t` is the pair (edge tile `t / 49`, row tile `t % 49`). Along the 49 row tiles of one edge tile the kernel
keeps a 2048×128 accumulator in its scratch: the first trip (`t % 49 = 0`) sets it to zeros, every trip adds the
product of the trip's one-hot matrix (edge `e` selects row `row[e] − 2048·(t % 49)` of the tile, if it lies in it) with
the row tile of `h`, and the last trip (`t % 49 = 48`) scales the finished accumulator row by row by the edge tile's
norm and stores it as the output block. Everything is stated at the contents `V` the region is entered with. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile of `h` (window 0) is in its current staging buffer at every point: it is fetched at every point,
    the body only loads it, the blocks tile the array and the window is never idle. For any proof data whose array
    is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The edge tile of row indices (window 1) is in its current staging buffer at every point: fetched at the first
    trip of a run of 49, it stays there for the other 48, whose block index is the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The edge tile of norms (window 2), likewise: fetched at the first trip of a run, in place for the rest of it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called with -/

/-- One staging buffer of the output window, through which its contents are stated (the choice does not matter). -/
abbrev VO1_3 : View sig .tc .vmem S2048x128 .f32 := (Memref.whole cc1_stg3_0 : Memref sig .tc .vmem S2048x128 .f32).view
/-- Each window's current staging memref at point `t`, as the pipeline passes it to the body, and its wholeness. -/
abbrev ms1_0 (t : Fin cfg1.N) : Memref sig .tc .vmem S2048x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S2048x128 .f32 := Memref.whole cc1_scratch0
/-- The same as a view: what the accumulator holds is stated through it. -/
abbrev VS1_0 : View sig .tc .vmem S2048x128 .f32 := scM1_0.view

/-- The kernel body at point `t` as the pipeline calls it: the kernel function at the point's coordinates, on each
    window's current staging memref and on the accumulator. -/
abbrev pointBody1 (t : Fin cfg1.N) : Prog (TpuEff nD τ sig (Elt F) Λ₀ .tc) PUnit :=
  cc1__gather_scale_kernel (grid1.coords t) (ms1_0 t) (hs1_0 t) (ms1_1 t) (hs1_1 t) (ms1_2 t) (hs1_2 t) (ms1_3 t) (hs1_3 t) scM1_0 (Memref.isWhole_whole _)

/-- The core's other scoped buffers that are no staging buffer of this kernel (the other two kernels' staging
    buffers and scratch), each at some contents: the body never touches them. -/
abbrev others1 (c : Dev nD) : sProp 𝕄 :=
  Pipeline.scopedRestBut (Ix := Unit) (Name := ℕ) (U := UR sig nD τ) (Lvl := ℕ) (Val := Elt F) spec1 c [cc1_scratch0]

/-- The region's invariant as the launch hands it over, with the accumulator as a memref owned at some contents,
    the other scoped buffers unopened, and the generator register at some state. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA
  rw [Pipeline.scopedRest_split_of_list spec1 c [cc1_scratch0] (by decide) (by decide)]
  simp only [scM1_0, owns_whole]; try rfl

/-! ## The body's run, case by case

Each run is the body's triple on ANY whole memrefs in that control case, found by executing the kernel's skeleton:
its witness is the list of pieces (stores, last first) the case leaves in the output's buffer and in the accumulator. -/

set_option maxHeartbeats 1000000 in
/-- CASE A, the first row tile of a run (reset taken, output store not taken). From the three inputs at their blocks,
    the output's buffer at contents `xi3` it hands back untouched, and the accumulator at ANYTHING, the body runs to
    the inputs as they were and the accumulator with two stores written: zeros, then zeros plus this trip's
    one-hot product. -/
noncomputable def kernelRun1_A (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x128 .bf16) (x1 : Vec F S1x2048 .i32) (x2 : Vec F S1x2048 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_scale_kernel i arg2 harg2 arg3 harg3 arg4 harg4 arg5 harg5 arg6 harg6) K } := by
  refine ⟨[], ?_, fun xi3 E K => ?run⟩
  case run =>
    simp only [cc1__gather_scale_kernel_eq_skeleton]; unfold cc1__gather_scale_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B, a middle row tile (neither taken). From the inputs at their blocks, the output's buffer at `xi3`
    handed back untouched, and the accumulator at what the trip before left (`xs0`), the body runs to the
    accumulator with one store written: `xs0` plus this trip's one-hot product. -/
noncomputable def kernelRun1_B (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x128 .bf16) (x1 : Vec F S1x2048 .i32) (x2 : Vec F S1x2048 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_scale_kernel i arg2 harg2 arg3 harg3 arg4 harg4 arg5 harg5 arg6 harg6) K } := by
  refine ⟨[], ?_, fun xi3 E K => ?run⟩
  case run =>
    simp only [cc1__gather_scale_kernel_eq_skeleton]; unfold cc1__gather_scale_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C, the last row tile of a run (reset not taken, output store taken). From the inputs at their blocks, the
    output's buffer at ANYTHING, and the accumulator at what the trip before left (`xs0`), the body runs to the
    accumulator with one store written (`xs0` plus the last one-hot product) and the output's buffer with one
    store written: the finished accumulator scaled row by row by the norms. -/
noncomputable def kernelRun1_C (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x128 .bf16) (x1 : Vec F S1x2048 .i32) (x2 : Vec F S1x2048 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gather_scale_kernel i arg2 harg2 arg3 harg3 arg4 harg4 arg5 harg5 arg6 harg6) K } := by
  refine ⟨?_, ?_, fun E K => ?run⟩
  case run =>
    simp only [cc1__gather_scale_kernel_eq_skeleton]; unfold cc1__gather_scale_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.FrameKI.Reg1.lean ====
import proofs.«423641_j4861902979196_1_alg».proof.Proof.FrameKI.Reg1Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Kernel region 1: what each point leaves, the invariant, the body obligation -/

/-! ## What each case leaves -/

/-- Case A stores nothing into the output window (it is idle at the first trip of a run and not written back):
    no pieces; a placeholder nothing consults. -/
def out1_A_3 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x128 .bf16) (x1 : Vec F S1x2048 .i32) (x2 : Vec F S1x2048 .f32) : Vec F S2048x128 .f32 :=
  VO1_3.read (Elt F) (VO1_3.writes (Elt F) VO1_3.junk (kernelRun1_A c i arg2 harg2 arg3 harg3 arg4 harg4 arg5 harg5 arg6 harg6 hc0 hc1 x0 x1 x2).1)

/-- Case A's two stores into the accumulator (zeros, then the first partial sum) each span it whole, so they cover it. -/
theorem scover1_A_0 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x128 .bf16) (x1 : Vec F S1x2048 .i32) (x2 : Vec F S1x2048 .f32) (y : S2048x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x128.size (by sl_kernel_rfl) y

/-- What case A leaves in the accumulator: its stores read back. -/
def sout1_A_0 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x128 .bf16) (x1 : Vec F S1x2048 .i32) (x2 : Vec F S1x2048 .f32) : Vec F S2048x128 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output window either (a middle trip: idle, not written back). -/
def out1_B_3 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x128 .bf16) (x1 : Vec F S1x2048 .i32) (x2 : Vec F S1x2048 .f32) (xs0 : Vec F S2048x128 .f32) : Vec F S2048x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's one store into the accumulator spans it whole. -/
theorem scover1_B_0 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x128 .bf16) (x1 : Vec F S1x2048 .i32) (x2 : Vec F S1x2048 .f32) (xs0 : Vec F S2048x128 .f32) (y : S2048x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x128.size (by sl_kernel_rfl) y

/-- What case B leaves in the accumulator: what it found plus this trip's product. -/
def sout1_B_0 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x128 .bf16) (x1 : Vec F S1x2048 .i32) (x2 : Vec F S1x2048 .f32) (xs0 : Vec F S2048x128 .f32) : Vec F S2048x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store into the output window spans its block whole. -/
theorem cover1_C_3 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x128 .bf16) (x1 : Vec F S1x2048 .i32) (x2 : Vec F S1x2048 .f32) (xs0 : Vec F S2048x128 .f32) (y : S2048x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x128.size (by sl_kernel_rfl) y

/-- What case C leaves in the output window's buffer: the scaled finished accumulator. -/
def out1_C_3 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x128 .bf16) (x1 : Vec F S1x2048 .i32) (x2 : Vec F S1x2048 .f32) (xs0 : Vec F S2048x128 .f32) : Vec F S2048x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's one store into the accumulator spans it whole. -/
theorem scover1_C_0 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x128 .bf16) (x1 : Vec F S1x2048 .i32) (x2 : Vec F S1x2048 .f32) (xs0 : Vec F S2048x128 .f32) (y : S2048x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x128.size (by sl_kernel_rfl) y

/-- What case C leaves in the accumulator: the run's finished sum. -/
def sout1_C_0 (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x128 .bf16) (x1 : Vec F S1x2048 .i32) (x2 : Vec F S1x2048 .f32) (xs0 : Vec F S2048x128 .f32) : Vec F S2048x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the accumulator hold after each point -/

/-- THE ACCUMULATION. After the body at position `n`: (the output window's staging buffer, the accumulator). The
    residue of `n` modulo 49 selects the case, run on the point's memrefs and input blocks; cases B and C start from
    the accumulator position `n - 1` left (the scratch is not touched between two points). No point is both first
    and last of its run. -/
def outsAt1 (c : Dev nD) : (n : ℕ) → n < cfg1.N → Vec F S2048x128 .f32 × Vec F S2048x128 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) (c0_of (t := ⟨0, hn⟩) (Nat.zero_mod _)) (nc1_of (t := ⟨0, hn⟩) (by (try dsimp only); omega)) (iblk1 V c 0 ⟨0, hn⟩) (iblk1 V c 1 ⟨0, hn⟩) (iblk1 V c 2 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) (c0_of (t := ⟨0, hn⟩) (Nat.zero_mod _)) (nc1_of (t := ⟨0, hn⟩) (by (try dsimp only); omega)) (iblk1 V c 0 ⟨0, hn⟩) (iblk1 V c 1 ⟨0, hn⟩) (iblk1 V c 2 ⟨0, hn⟩))
  | n + 1, hn =>
    if h0 : (n + 1) % 49 = 0 then
      if h1 : (n + 1) % 49 = 48 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (c0_of (t := ⟨n + 1, hn⟩) h0) (nc1_of (t := ⟨n + 1, hn⟩) h1) (iblk1 V c 0 ⟨n + 1, hn⟩) (iblk1 V c 1 ⟨n + 1, hn⟩) (iblk1 V c 2 ⟨n + 1, hn⟩),
         sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (c0_of (t := ⟨n + 1, hn⟩) h0) (nc1_of (t := ⟨n + 1, hn⟩) h1) (iblk1 V c 0 ⟨n + 1, hn⟩) (iblk1 V c 1 ⟨n + 1, hn⟩) (iblk1 V c 2 ⟨n + 1, hn⟩))
    else
      if h1 : (n + 1) % 49 = 48 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (nc0_of (t := ⟨n + 1, hn⟩) h0) (c1_of (t := ⟨n + 1, hn⟩) h1) (iblk1 V c 0 ⟨n + 1, hn⟩) (iblk1 V c 1 ⟨n + 1, hn⟩) (iblk1 V c 2 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (nc0_of (t := ⟨n + 1, hn⟩) h0) (c1_of (t := ⟨n + 1, hn⟩) h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (nc0_of (t := ⟨n + 1, hn⟩) h0) (nc1_of (t := ⟨n + 1, hn⟩) h1) (iblk1 V c 0 ⟨n + 1, hn⟩) (iblk1 V c 1 ⟨n + 1, hn⟩) (iblk1 V c 2 ⟨n + 1, hn⟩) (outsAt1 c n (Nat.lt_of_succ_lt hn)).2,
         sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (nc0_of (t := ⟨n + 1, hn⟩) h0) (nc1_of (t := ⟨n + 1, hn⟩) h1) (iblk1 V c 0 ⟨n + 1, hn⟩) (iblk1 V c 1 ⟨n + 1, hn⟩) (iblk1 V c 2 ⟨n + 1, hn⟩) (outsAt1 c n (Nat.lt_of_succ_lt hn)).2)

/-- The accumulator position `t - 1` left, as the case equations below name it. -/
abbrev prevAcc1 (c : Dev nD) (t : Fin cfg1.N) : Vec F S2048x128 .f32 :=
  (outsAt1 V c (t.val - 1) (Nat.lt_of_le_of_lt (Nat.sub_le _ _) t.isLt)).2

/-- `outsAt1` at a first trip (case A). -/
theorem outsAt1_A (c : Dev nD) (t : Fin cfg1.N) (h0 : t.val % 49 = 0) (h1 : ¬t.val % 49 = 48) :
    outsAt1 V c t.val t.isLt =
      (out1_A_3 c (grid1.coords t) (ms1_0 t) (hs1_0 t) (ms1_1 t) (hs1_1 t) (ms1_2 t) (hs1_2 t) (ms1_3 t) (hs1_3 t) scM1_0 (Memref.isWhole_whole _) (c0_of h0) (nc1_of h1) (iblk1 V c 0 t) (iblk1 V c 1 t) (iblk1 V c 2 t),
       sout1_A_0 c (grid1.coords t) (ms1_0 t) (hs1_0 t) (ms1_1 t) (hs1_1 t) (ms1_2 t) (hs1_2 t) (ms1_3 t) (hs1_3 t) scM1_0 (Memref.isWhole_whole _) (c0_of h0) (nc1_of h1) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle trip (case B): over what the point before left. -/
theorem outsAt1_B (c : Dev nD) (t : Fin cfg1.N) (h0 : ¬t.val % 49 = 0) (h1 : ¬t.val % 49 = 48) :
    outsAt1 V c t.val t.isLt =
      (out1_B_3 c (grid1.coords t) (ms1_0 t) (hs1_0 t) (ms1_1 t) (hs1_1 t) (ms1_2 t) (hs1_2 t) (ms1_3 t) (hs1_3 t) scM1_0 (Memref.isWhole_whole _) (nc0_of h0) (nc1_of h1) (iblk1 V c 0 t) (iblk1 V c 1 t) (iblk1 V c 2 t) (prevAcc1 V c t),
       sout1_B_0 c (grid1.coords t) (ms1_0 t) (hs1_0 t) (ms1_1 t) (hs1_1 t) (ms1_2 t) (hs1_2 t) (ms1_3 t) (hs1_3 t) scM1_0 (Memref.isWhole_whole _) (nc0_of h0) (nc1_of h1) (iblk1 V c 0 t) (iblk1 V c 1 t) (iblk1 V c 2 t) (prevAcc1 V c t)) := by
  obtain ⟨n, hn⟩ := t
  cases n with
  | zero => exact (by exfalso; (try dsimp only at h0); exact absurd (Nat.zero_mod _) h0)
  | succ n => exact (dif_neg h0).trans ((dif_neg h1).trans rfl)

/-- `outsAt1` at a last trip (case C): over what the point before left. -/
theorem outsAt1_C (c : Dev nD) (t : Fin cfg1.N) (h0 : ¬t.val % 49 = 0) (h1 : t.val % 49 = 48) :
    outsAt1 V c t.val t.isLt =
      (out1_C_3 c (grid1.coords t) (ms1_0 t) (hs1_0 t) (ms1_1 t) (hs1_1 t) (ms1_2 t) (hs1_2 t) (ms1_3 t) (hs1_3 t) scM1_0 (Memref.isWhole_whole _) (nc0_of h0) (c1_of h1) (iblk1 V c 0 t) (iblk1 V c 1 t) (iblk1 V c 2 t) (prevAcc1 V c t),
       sout1_C_0 c (grid1.coords t) (ms1_0 t) (hs1_0 t) (ms1_1 t) (hs1_1 t) (ms1_2 t) (hs1_2 t) (ms1_3 t) (hs1_3 t) scM1_0 (Memref.isWhole_whole _) (nc0_of h0) (c1_of h1) (iblk1 V c 0 t) (iblk1 V c 1 t) (iblk1 V c 2 t) (prevAcc1 V c t)) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`. Before the first point: what the launch hands over (every scoped
    buffer that is no staging buffer at anything, the generator register at some state). From then on the
    accumulator is NAMED: it holds what the point before left in it (`outsAt1`'s second component), which is how
    a partial sum reaches the next row tile; the other scoped buffers stay unopened. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The pipeline's proof data -/

/-- The proof data of this pipeline on core `c`: the arrays as the region finds them (`V`); after the body at point
    `t` each input's buffer still at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what the core owes, and the four windows' current
    staging buffers, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the residue of `t` modulo 49 says which case the
    point is in, and that case's run applies. The invariant hands the body the accumulator — at anything at the
    very first point, else at what the point before left — and takes it back at this point's contents (the case's
    stores cover it); the other scoped buffers, the generator register and what the core owes pass through unread.
    At a first or middle trip the output window is idle and its buffer goes back as it came; at a last trip it goes
    back at the stored block. -/
theorem sound_body1 (c : Dev nD) (t : Fin cfg1.N) :
    bodyPre1 V c t ⊢ wp frame (wpE (defs₀ (F := F)) Variants.none c none) Set.univ (pointBody1 t) (fun _ => bodyPost1 V c t) := by
  unfold bodyPre1 bodyPost1 pointBody1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  by_cases h0 : t.val % 49 = 0
  · by_cases h1 : t.val % 49 = 48
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (nc1_of h1)) (noFlush1_3 t (nc1_of h1))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ (c0_of h0) (nc1_of h1) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ (c0_of h0) (nc1_of h1) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 49 = 48
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t (c1_of h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_C c (grid1.coords t) _ _ _ _ _ _ _ _ _ _ (nc0_of h0) (c1_of h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (nc1_of h1)) (noFlush1_3 t (nc1_of h1))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_B c (grid1.coords t) _ _ _ _ _ _ _ _ _ _ (nc0_of h0) (nc1_of h1) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 40719 := N_1; omega)

end Cert.KernelIdeal.Hand

end
-- ==== Proof.FrameKI.Reg2Facts.lean ====
import proofs.«423641_j4861902979196_1_alg».proof.Proof.Gen.KernelIdeal.Launch
import proofs.«423641_j4861902979196_1_alg».proof.Proof.Gen.KernelIdeal.Skeleton

set_option maxRecDepth 16384

noncomputable section

namespace Cert.KernelIdeal.Hand

open Idealize.ShloMosaic Idealize.ShloMosaic.TcCoe
open Idealize.SL Idealize.SL.Sem
open Cert.KernelIdeal Cert.KernelIdeal.Gen

/-! # Region 2 (the scatter-add kernel): the two conditions of its body over the grid, and where its windows are idle

The grid is 49 row tiles by 831 edge tiles, the edge-tile axis the inner one: a point's position modulo 831 is its
trip within the reduction run of its row tile. -/

/-- A point's edge-tile coordinate is its position modulo 831. -/
theorem edgeTile2 (t : Fin cfg2.N) : ((grid2.coords t) 1).val = t.val % 831 := by
  show t.val / grid2.stride 1 % 831 = t.val % 831
  rw [show grid2.stride 1 = 1 from by decide, Nat.div_one]

/-- A point's row-tile coordinate is its position divided by 831. -/
theorem rowTile2 (t : Fin cfg2.N) : ((grid2.coords t) 0).val = t.val / 831 := by
  have ht : t.val < 40719 := lt_of_lt_of_eq t.isLt N_2
  show t.val / grid2.stride 0 % 49 = t.val / 831
  rw [show grid2.stride 0 = 831 from by decide]
  omega

/-! ## The body's two conditions -/

/-- The first trip of a reduction run (edge-tile coordinate 0): the accumulator is reset to zeros. -/
abbrev cond2_0 (i : grid2.Coords) : Prop := (Scalar.cmpi .ne (Scalar.extui (Scalar.cmpi .eq (BitVec.ofNat 32 (i 1).val) 0#32)) 0#32) = 1#1
/-- It holds at the points ≡ 0 (mod 831). -/
theorem hcond2_0 : ∀ t : Fin cfg2.N, cond2_0 (grid2.coords t) ↔ t.val % 831 = 0 := fun t => by
  have key : ∀ s : Fin 831, ((Scalar.cmpi .ne (Scalar.extui (Scalar.cmpi .eq (BitVec.ofNat 32 s.val) 0#32)) 0#32) = 1#1) ↔ s.val = 0 := by
    decide +kernel
  have h := key ⟨t.val % 831, Nat.mod_lt _ (by decide)⟩
  show (Scalar.cmpi .ne (Scalar.extui (Scalar.cmpi .eq (BitVec.ofNat 32 ((grid2.coords t) 1).val) 0#32)) 0#32) = 1#1 ↔ _
  rw [edgeTile2 t]
  exact h

/-- The last trip of a reduction run (edge-tile coordinate 830): the output block is stored. -/
abbrev cond2_1 (i : grid2.Coords) : Prop := k2_cond2 i = 1#1
/-- It holds at the points ≡ 830 (mod 831). -/
theorem hcond2_1 : ∀ t : Fin cfg2.N, cond2_1 (grid2.coords t) ↔ t.val % 831 = 830 := fun t => by
  have key : ∀ s : Fin 831, ((Scalar.cmpi .ne (Scalar.extui (Scalar.cmpi .eq (BitVec.ofNat 32 s.val) 830#32)) 0#32) = 1#1) ↔ s.val = 830 := by
    decide +kernel
  have h := key ⟨t.val % 831, Nat.mod_lt _ (by decide)⟩
  show (Scalar.cmpi .ne (Scalar.extui (Scalar.cmpi .eq (BitVec.ofNat 32 ((grid2.coords t) 1).val) 830#32)) 0#32) = 1#1 ↔ _
  rw [edgeTile2 t]
  exact h

/-! ## When the output block is written back -/

/-- The output window's block index at a point: (row tile, 0). -/
theorem outIndex2 (t : Fin cfg2.N) : win2_3.index t = ![t.val / 831, 0] := by
  have ht : t.val < 40719 := lt_of_lt_of_eq t.isLt N_2
  funext a
  match a with
  | ⟨0, _⟩ =>
    show (BitVec.ofNat 32 ((grid2.coords t) 0).val).toNat = t.val / 831
    rw [BitVec.toNat_ofNat, rowTile2 t]
    omega
  | ⟨1, _⟩ => rfl

/-- The output window (the block of 2048 result rows of the point's row tile) is written back at the points
    ≡ 830 (mod 831): when its block index is about to move, at the last edge tile of the row tile. -/
theorem flush2_3 : ∀ t : Fin cfg2.N, (cfg2.win 3).flush t = true ↔ t.val % 831 = 830 := fun t => by
  have ht : t.val < 40719 := lt_of_lt_of_eq t.isLt N_2
  have hN : grid2.N = 40719 := N_2
  show (true && (decide (t.val + 1 = grid2.N) || decide (∃ h : t.val + 1 < grid2.N, win2_3.index ⟨t.val + 1, h⟩ ≠ win2_3.index t))) = true ↔ _
  rw [Bool.true_and, Bool.or_eq_true, decide_eq_true_eq, decide_eq_true_eq]
  constructor
  · rintro (h | ⟨h, hne⟩)
    · omega
    · by_contra h830
      apply hne
      rw [outIndex2, outIndex2]
      have e : (t.val + 1) / 831 = t.val / 831 := by omega
      show ![(t.val + 1) / 831, 0] = ![t.val / 831, 0]
      rw [e]
  · intro h830
    by_cases hl : t.val + 1 = grid2.N
    · exact Or.inl hl
    · refine Or.inr ⟨by omega, fun he => ?_⟩
      rw [outIndex2, outIndex2] at he
      have e0 : (t.val + 1) / 831 = t.val / 831 := congrFun he 0
      omega

/-! ## Where the windows are idle

The idle table marks the three inputs never idle and the output idle exactly where the last-trip condition fails, so
each fact below is that table read at the point. -/

/-- The three inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Off the last trip the output window is idle: nothing is stored into it, -/
theorem idleAt2_3 : ∀ t : Fin cfg2.N, ¬cond2_1 (grid2.coords t) → cfg2.idle 3 (grid2.coords t) = true := fun t h => by
  show (!(k2_cond2 (grid2.coords t) == 1#1)) = true
  rw [Bool.not_eq_true', beq_eq_false_iff_ne]
  exact h
/-- and its block is not written back: it is written back exactly at the points ≡ 830 (mod 831). -/
theorem noFlush2_3 : ∀ t : Fin cfg2.N, ¬cond2_1 (grid2.coords t) → (cfg2.win 3).flush t = false := fun t h =>
  Bool.eq_false_iff.mpr (fun hf => h ((hcond2_1 t).mpr ((flush2_3 t).mp hf)))
/-- At the last trip the output window is live. -/
theorem liveAt2_3 : ∀ t : Fin cfg2.N, cond2_1 (grid2.coords t) → cfg2.idle 3 (grid2.coords t) = false := fun t h => by
  show (!(k2_cond2 (grid2.coords t) == 1#1)) = false
  rw [show k2_cond2 (grid2.coords t) = 1#1 from h]
  rfl

end Cert.KernelIdeal.Hand

end
-- ==== Proof.FrameKI.Reg2Runs.lean ====
import proofs.«423641_j4861902979196_1_alg».proof.Proof.Gen.KernelIdeal.Launch
import proofs.«423641_j4861902979196_1_alg».proof.Proof.Gen.KernelIdeal.Skeleton
import proofs.«423641_j4861902979196_1_alg».proof.Proof.FrameKI.Reg2Facts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the scatter-add kernel (one-hot products accumulated over the 831 edge tiles of each of the 49 row tiles) -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The message tile (window 0) in its current staging buffer is the block of its array at every point, fetched there
    or not, for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the tile of destination rows (window 1). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for the bias row (window 2), fetched once: its block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The memrefs the body is called with -/

/-- One staging buffer of the output window, through which its contents are stated. -/
abbrev VO2_3 : View sig .tc .vmem S2048x128 .f32 := (Memref.whole cc2_stg3_0 : Memref sig .tc .vmem S2048x128 .f32).view
/-- Each window's current staging memref at point `t`, and its wholeness. -/
abbrev ms2_0 (t : Fin cfg2.N) : Memref sig .tc .vmem S2048x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x128 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows and carried between points. -/
abbrev scM2_0 : Memref sig .tc .vmem S2048x128 .f32 := Memref.whole cc2_scratch0
/-- The same as a view: what the accumulator holds is stated through it. -/
abbrev VS2_0 : View sig .tc .vmem S2048x128 .f32 := scM2_0.view

/-- The body as the pipeline calls it at point `t`: the kernel at the point's coordinates, on each window's current
    staging buffer and on the accumulator. -/
abbrev pointBody2 (t : Fin cfg2.N) : Prog (TpuEff nD τ sig (Elt F) Λ₀ .tc) PUnit :=
  cc2__scatter_relu_kernel (grid2.coords t) (ms2_0 t) (hs2_0 t) (ms2_1 t) (hs2_1 t) (ms2_2 t) (hs2_2 t) (ms2_3 t) (hs2_3 t) scM2_0 (Memref.isWhole_whole _)

/-- The core's scoped buffers that are no staging buffer of this region — the other two regions' staging buffers and
    the gather kernel's accumulator, each whole at some contents — around this kernel's accumulator, which is `P`. -/
abbrev rest2 (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ P)

/-- The region's invariant with the scoped buffers that are no staging buffer of this region listed one by one, the
    accumulator last, each owned at some contents. -/
theorem PhiA2_eq (c : Dev nD) :
    (Pipeline.ΦA spec2 c : sProp 𝕄)
      = iprop(rest2 c iprop(∃ d, owns (c : Thread nD τ) scM2_0 fullShare d) ∗ (∃ r, prngReg c r)) := by
  unfold Pipeline.ΦA; rw [scopedRest2_eq]; simp only [rest2, scM2_0, owns_whole]; try rfl

set_option maxHeartbeats 1000000 in
/-- THE FIRST TRIP of a reduction run (edge-tile coordinate 0, which is not the last): the accumulator, found at
    anything, is reset to zeros and this tile's one-hot product is added into it; nothing is stored into the output
    block, whose buffer (at `xi3`) is handed back untouched. The pieces the accumulator ends with are `LS0` (the reset,
    then the update); the output gets none. -/
noncomputable def kernelRun2_A (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S2048x128 .f32) (x1 : Vec F S1x2048 .i32) (x2 : Vec F S1x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_relu_kernel i arg2 harg2 arg3 harg3 arg4 harg4 arg5 harg5 arg6 harg6) K } := by
  refine ⟨[], ?_, fun xi3 E K => ?run⟩
  case run =>
    simp only [cc2__scatter_relu_kernel_eq_skeleton]; unfold cc2__scatter_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- A MIDDLE TRIP (edge-tile coordinate neither 0 nor 830): this tile's one-hot product is added into the accumulator,
    found at what the trip before left (`xs0`); nothing is stored into the output block, whose buffer (at `xi3`) is
    handed back untouched. -/
noncomputable def kernelRun2_B (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S2048x128 .f32) (x1 : Vec F S1x2048 .i32) (x2 : Vec F S1x128 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_relu_kernel i arg2 harg2 arg3 harg3 arg4 harg4 arg5 harg5 arg6 harg6) K } := by
  refine ⟨[], ?_, fun xi3 E K => ?run⟩
  case run =>
    simp only [cc2__scatter_relu_kernel_eq_skeleton]; unfold cc2__scatter_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- THE LAST TRIP of a reduction run (edge-tile coordinate 830, which is not the first): this tile's one-hot product is
    added into the accumulator, found at what the trip before left (`xs0`), and the finished sum plus the bias row,
    clamped below at zero, is stored over the whole output block (pieces `L3`), whose buffer is found at anything. -/
noncomputable def kernelRun2_C (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S2048x128 .f32) (x1 : Vec F S1x2048 .i32) (x2 : Vec F S1x128 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_relu_kernel i arg2 harg2 arg3 harg3 arg4 harg4 arg5 harg5 arg6 harg6) K } := by
  refine ⟨?_, ?_, fun E K => ?run⟩
  case run =>
    simp only [cc2__scatter_relu_kernel_eq_skeleton]; unfold cc2__scatter_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.FrameKI.Reg2.lean ====
import proofs.«423641_j4861902979196_1_alg».proof.Proof.FrameKI.Reg2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each trip leaves in the output block's buffer and in the accumulator -/

/-- The first trip stores nothing into the output block (idle there, not written back): no pieces — a placeholder
    (junk read back) that nothing consults. -/
def out2_A_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S2048x128 .f32) (x1 : Vec F S1x2048 .i32) (x2 : Vec F S1x128 .f32) : Vec F S2048x128 .f32 :=
  VO2_3.read (Elt F) (VO2_3.writes (Elt F) VO2_3.junk (kernelRun2_A c i arg2 harg2 arg3 harg3 arg4 harg4 arg5 harg5 arg6 harg6 hc0 hc1 x0 x1 x2).1)

/-- The first trip's two stores into the accumulator (the zeros, then the zeros plus this tile's product) each cover it. -/
theorem scover2_A_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S2048x128 .f32) (x1 : Vec F S1x2048 .i32) (x2 : Vec F S1x128 .f32) (y : S2048x128.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2048x128.size (by sl_kernel_rfl) y

/-- What the first trip leaves in the accumulator: its pieces read back over junk. -/
def sout2_A_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S2048x128 .f32) (x1 : Vec F S1x2048 .i32) (x2 : Vec F S1x128 .f32) : Vec F S2048x128 .f32 :=
  VS2_0.read (Elt F) (VS2_0.writes (Elt F) VS2_0.junk (kernelRun2_A c i arg2 harg2 arg3 harg3 arg4 harg4 arg5 harg5 arg6 harg6 hc0 hc1 x0 x1 x2).2.1)

/-- A middle trip stores nothing into the output block: a placeholder as at the first trip. -/
def out2_B_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S2048x128 .f32) (x1 : Vec F S1x2048 .i32) (x2 : Vec F S1x128 .f32) (xs0 : Vec F S2048x128 .f32) : Vec F S2048x128 .f32 :=
  VO2_3.read (Elt F) (VO2_3.writes (Elt F) VO2_3.junk (kernelRun2_B c i arg2 harg2 arg3 harg3 arg4 harg4 arg5 harg5 arg6 harg6 hc0 hc1 x0 x1 x2 xs0).1)

/-- A middle trip's one store into the accumulator covers it. -/
theorem scover2_B_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S2048x128 .f32) (x1 : Vec F S1x2048 .i32) (x2 : Vec F S1x128 .f32) (xs0 : Vec F S2048x128 .f32) (y : S2048x128.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S2048x128.size (by sl_kernel_rfl) y

/-- What a middle trip leaves in the accumulator. -/
def sout2_B_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S2048x128 .f32) (x1 : Vec F S1x2048 .i32) (x2 : Vec F S1x128 .f32) (xs0 : Vec F S2048x128 .f32) : Vec F S2048x128 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- The last trip's one store into the output block covers it. -/
theorem cover2_C_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S2048x128 .f32) (x1 : Vec F S1x2048 .i32) (x2 : Vec F S1x128 .f32) (xs0 : Vec F S2048x128 .f32) (y : S2048x128.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2048x128.size (by sl_kernel_rfl) y

/-- What the last trip leaves in the output block's buffer. -/
def out2_C_3 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S2048x128 .f32) (x1 : Vec F S1x2048 .i32) (x2 : Vec F S1x128 .f32) (xs0 : Vec F S2048x128 .f32) : Vec F S2048x128 .f32 :=
  VO2_3.read (Elt F) (VO2_3.writes (Elt F) VO2_3.junk (kernelRun2_C c i arg2 harg2 arg3 harg3 arg4 harg4 arg5 harg5 arg6 harg6 hc0 hc1 x0 x1 x2 xs0).1)

/-- The last trip's one store into the accumulator covers it. -/
theorem scover2_C_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S2048x128 .f32) (x1 : Vec F S1x2048 .i32) (x2 : Vec F S1x128 .f32) (xs0 : Vec F S2048x128 .f32) (y : S2048x128.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2048x128.size (by sl_kernel_rfl) y

/-- What the last trip leaves in the accumulator. -/
def sout2_C_0 (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S2048x128 .f32) (x1 : Vec F S1x2048 .i32) (x2 : Vec F S1x128 .f32) (xs0 : Vec F S2048x128 .f32) : Vec F S2048x128 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output block's buffer and the accumulator hold after each point -/

/-- THE ACCUMULATION. After the body at position `n`: the output block's buffer (first component) and the accumulator
    (second). Which trip `n` is, is read off `n` modulo 831: 0 is a first trip (the accumulator restarts from zeros, whatever
    it held), 830 a last trip (the output block is stored), anything else a middle trip; off the first trip the
    accumulator is found at what position `n - 1` left. -/
def outsAt2 (c : Dev nD) : (n : ℕ) → n < cfg2.N → Vec F S2048x128 .f32 × Vec F S2048x128 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 831 = 0 then
      if h1 : (n + 1) % 831 = 830 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 831 = 830 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a first trip. -/
theorem outsAt2_A (c : Dev nD) (t : Fin cfg2.N) (h0 : t.val % 831 = 0) (h1 : ¬t.val % 831 = 830) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a middle trip: over what the point before left in the accumulator. -/
theorem outsAt2_B (c : Dev nD) (t : Fin cfg2.N) (h0 : ¬t.val % 831 = 0) (h1 : ¬t.val % 831 = 830) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a last trip: over what the point before left in the accumulator. -/
theorem outsAt2_C (c : Dev nD) (t : Fin cfg2.N) (h0 : ¬t.val % 831 = 0) (h1 : t.val % 831 = 830) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point, what the launch hands the region (every scoped buffer at anything);
    afterwards the same with the accumulator at what position `n - 1` left in it. -/
def PhiS2 (c : Dev nD) : (n : ℕ) → n ≤ cfg2.N → sProp 𝕄
  | 0, _ => Pipeline.ΦA spec2 c
  | n + 1, hn => iprop(rest2 c iprop(owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(rest2 c iprop(owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(rest2 c iprop(owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of this region on core `c`: the arrays as the region finds them (`V`); after the body at point `t`
    each input's buffer at its block, the output block's at `outsAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the point's position modulo 831 says which trip it is.
    At a first trip the invariant hands over the accumulator at anything (before the very first point) or at what the
    point before left (the last trip of the row tile before: forgotten, the accumulator restarts from zeros); at the
    other trips at what the point before left, which is what the trip adds to. The accumulator goes back at this
    point's contents. The output block's buffer is handed back untouched off the last trip, where it is idle and not
    written back, and at the last trip holds the stored block. The other regions' scoped buffers pass through. -/
theorem sound_body2 (c : Dev nD) (t : Fin cfg2.N) :
    bodyPre2 V c t ⊢ wp frame (wpE (defs₀ (F := F)) Variants.none c none) Set.univ (pointBody2 t) (fun _ => bodyPost2 V c t) := by
  unfold bodyPre2 bodyPost2 pointBody2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 40719 := lt_of_lt_of_eq t.isLt (show cfg2.N = 40719 from N_2)
  by_cases h0 : t.val % 831 = 0
  · by_cases h1 : t.val % 831 = 830
    · exfalso; omega
    · -- a first trip
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 R3 R4 R5 R6 R7 R8 R9 R10 R11 R12 R13 HS0 Hg]
        · isplitl [R0 R1 R2 R3 R4 R5 R6 R7 R8 R9 R10 R11 R12 R13 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [R0 R1 R2 R3 R4 R5 R6 R7 R8 R9 R10 R11 R12 R13 HS0 Hg]
        · isplitl [R0 R1 R2 R3 R4 R5 R6 R7 R8 R9 R10 R11 R12 R13 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 831 = 830
    · -- a last trip
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [R0 R1 R2 R3 R4 R5 R6 R7 R8 R9 R10 R11 R12 R13 HS0 Hg]
        · isplitl [R0 R1 R2 R3 R4 R5 R6 R7 R8 R9 R10 R11 R12 R13 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            unfold owns; iexists _; isplitr
            swap; · iexact HS0
            ipureintro; exact View.read_writes_of_cover _ _ _ _ _ (scover2_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · -- a middle trip
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨R0, R1, R2, R3, R4, R5, R6, R7, R8, R9, R10, R11, R12, R13, HS0⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [R0 R1 R2 R3 R4 R5 R6 R7 R8 R9 R10 R11 R12 R13 HS0 Hg]
        · isplitl [R0 R1 R2 R3 R4 R5 R6 R7 R8 R9 R10 R11 R12 R13 HS0]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            unfold owns; iexists _; isplitr
            swap; · iexact HS0
            ipureintro; exact View.read_writes_of_cover _ _ _ _ _ (scover2_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's form back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨R0, R1, R2, R3, R4, R5, R6, R7, R8, R9, R10, R11, R12, R13, HS0⟩, Hg⟩
  isplitl [R0 R1 R2 R3 R4 R5 R6 R7 R8 R9 R10 R11 R12 R13 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 40719 := N_2; omega)

end Cert.KernelIdeal.Hand

end
-- ==== Proof.FrameKI.Stages.lean ====
/- The buffer contents between the items of @main, stage by stage. Between two items every unscoped buffer of the
   core is held at a named valuation: the launch memory, then each host stretch applied, then — after a kernel region —
   the region's output array at what its write-backs leave and every other buffer as it was. What a region leaves is
   defined from the proof data of that region at the contents it is entered from, so the stages are defined in order. -/
import proofs.«423641_j4861902979196_1_alg».proof.Proof.FrameKI.Reg0
import proofs.«423641_j4861902979196_1_alg».proof.Proof.FrameKI.Reg1
import proofs.«423641_j4861902979196_1_alg».proof.Proof.FrameKI.Reg2
import proofs.«423641_j4861902979196_1_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region leaves, stage by stage -/

/-- Region 0 is entered with the buffers as the host stretches before it leave them. -/
abbrev In0 : (c : Dev nD) → (b : Ref sig .tc) → Buf (Elt F) ((c : Thread nD τ).loc b) := fun c b => Gen.V4 m c b
/-- The buffers after region 0: its arrays at what its write-backs leave. -/
def W5 (c : Dev nD) : Valuation τ sig (Elt F) :=
  Pipeline.withArrays spec0 c (Gen.V4 m c) fun w => (dat0 (In0 m) c).arrAt w cfg0.N
/-- What the regions leave, as far as region 0 is concerned. -/
def outsA : Gen.Outs (F := F) := fun _ r c => W5 m c r
/-- Region 1 is entered with region 0's result in place and the host stretches between applied. -/
abbrev In1 : (c : Dev nD) → (b : Ref sig .tc) → Buf (Elt F) ((c : Thread nD τ).loc b) := fun c b => Gen.V12 m (outsA m) c b
def W13 (c : Dev nD) : Valuation τ sig (Elt F) :=
  Pipeline.withArrays spec1 c (Gen.V12 m (outsA m) c) fun w => (dat1 (In1 m) c).arrAt w cfg1.N
/-- What the regions leave, as far as regions 0 and 1 are concerned. -/
def outsB : Gen.Outs (F := F) := fun n r c => if n = 13 then W13 m c r else W5 m c r
abbrev In2 : (c : Dev nD) → (b : Ref sig .tc) → Buf (Elt F) ((c : Thread nD τ).loc b) := fun c b => Gen.V14 m (outsB m) c b
def W15 (c : Dev nD) : Valuation τ sig (Elt F) :=
  Pipeline.withArrays spec2 c (Gen.V14 m (outsB m) c) fun w => (dat2 (In2 m) c).arrAt w cfg2.N
/-- What each region leaves in its output array. -/
def outs : Gen.Outs (F := F) := fun n r c => if n = 15 then W15 m c r else if n = 13 then W13 m c r else W5 m c r

theorem W5_out (c : Dev nD) : W5 m c (Proc.devRef .tc main_v33) = (dat0 (In0 m) c).arrAt 2 cfg0.N := by
  unfold W5; exact Pipeline.withArrays_arr spec0 launch0.win.arr_inj c _ _ 2
theorem W13_out (c : Dev nD) : W13 m c (Proc.devRef .tc main_v40) = (dat1 (In1 m) c).arrAt 3 cfg1.N := by
  unfold W13; exact Pipeline.withArrays_arr spec1 launch1.win.arr_inj c _ _ 3
theorem W15_out (c : Dev nD) : W15 m c (Proc.devRef .tc main_v42) = (dat2 (In2 m) c).arrAt 3 cfg2.N := by
  unfold W15; exact Pipeline.withArrays_arr spec2 launch2.win.arr_inj c _ _ 3

theorem outs_5 (c : Dev nD) : outs m 5 main_v33 c = (dat0 (In0 m) c).arrAt 2 cfg0.N := W5_out m c
theorem outsA_5 (c : Dev nD) : outsA m 5 main_v33 c = (dat0 (In0 m) c).arrAt 2 cfg0.N := W5_out m c
theorem outs_13 (c : Dev nD) : outs m 13 main_v40 c = (dat1 (In1 m) c).arrAt 3 cfg1.N := W13_out m c
theorem outsB_13 (c : Dev nD) : outsB m 13 main_v40 c = (dat1 (In1 m) c).arrAt 3 cfg1.N := W13_out m c
theorem outs_15 (c : Dev nD) : outs m 15 main_v42 c = (dat2 (In2 m) c).arrAt 3 cfg2.N := W15_out m c

/-- The later stages do not change what an earlier region is entered from. -/
theorem V5_outs (c : Dev nD) : Gen.V5 m (outs m) c = Gen.V5 m (outsA m) c := rfl
theorem V12_outs (c : Dev nD) : Gen.V12 m (outs m) c = Gen.V12 m (outsA m) c := by
  unfold Gen.V12 Gen.V11 Gen.V10 Gen.V9 Gen.V8 Gen.V7 Gen.V6
  rw [V5_outs]
theorem V5_outsB (c : Dev nD) : Gen.V5 m (outsB m) c = Gen.V5 m (outsA m) c := rfl
theorem V12_outsB (c : Dev nD) : Gen.V12 m (outsB m) c = Gen.V12 m (outsA m) c := by
  unfold Gen.V12 Gen.V11 Gen.V10 Gen.V9 Gen.V8 Gen.V7 Gen.V6
  rw [V5_outsB]
theorem V13_outs (c : Dev nD) : Gen.V13 m (outs m) c = Gen.V13 m (outsB m) c := by
  unfold Gen.V13
  rw [V12_outs m c, V12_outsB m c]
  rfl
theorem V14_outs (c : Dev nD) : Gen.V14 m (outs m) c = Gen.V14 m (outsB m) c := by
  unfold Gen.V14
  rw [V13_outs]

end Cert.KernelIdeal.Hand

end
-- ==== Proof.FrameKI.Run.lean ====
/- The run of the whole program: the three kernel regions as segments entered from and left at the stages' valuations,
   the host stretches between them, the launch; at the end every unscoped buffer holds the last stage's contents. -/
import proofs.«423641_j4861902979196_1_alg».proof.Proof.FrameKI.Stages

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (In0 m) c
  | ⟨1, _⟩ => fun c => dat1 (In1 m) c
  | ⟨2, _⟩ => fun c => dat2 (In2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- The same at each of the four stretches between regions (a definition, so that rewriting under a product over the cores does not open it). -/
def E : Fin 4 → Dev nD → sProp 𝕄 := fun _ c => R c

/-- The buffers after each region, read at the TensorCore's references. -/
abbrev Out0 : (c : Dev nD) → (b : Ref sig .tc) → Buf (Elt F) ((c : Thread nD τ).loc b) := fun c b => Gen.V5 m (outs m) c b
abbrev Out1 : (c : Dev nD) → (b : Ref sig .tc) → Buf (Elt F) ((c : Thread nD τ).loc b) := fun c b => Gen.V13 m (outs m) c b
abbrev Out2 : (c : Dev nD) → (b : Ref sig .tc) → Buf (Elt F) ((c : Thread nD τ).loc b) := fun c b => Gen.V15 m (outs m) c b

/-- After region 0 each of its arrays holds what the pipeline leaves: the inputs as entered, the output at its write-backs. -/
theorem hF0 (c : Dev nD) (w : Fin cfg0.W) : (pdats m 0 c).arrAt w cfg0.N = Out0 m c (Pipeline.arrRef spec0 w) := by
  show (dat0 (In0 m) c).arrAt w cfg0.N = _
  fin_cases w
  · exact ((dat0 (In0 m) c).arrAt_in 0 rfl _).trans ((A_eq0 (In0 m) c 0).trans (Gen.V5_of m (outs m) c main_v32 (by decide)).symm)
  · exact ((dat0 (In0 m) c).arrAt_in 1 rfl _).trans ((A_eq0 (In0 m) c 1).trans (Gen.V5_of m (outs m) c main_arg2 (by decide)).symm)
  · refine (outs_5 m c).symm.trans ?_
    show outs m 5 main_v33 c = Function.update (Gen.V4 m c) (Proc.devRef .tc main_v33) (outs m 5 main_v33 c) (Proc.devRef .tc main_v33)
    rw [Function.update_self]
theorem hrest0 (c : Dev nD) : ∀ b, b ∉ Finset.univ.image (Pipeline.arrRef spec0) → Out0 m c b = In0 m c b := fun b hb =>
  Gen.V5_of m (outs m) c b (fun h => hb (Finset.mem_image.mpr ⟨2, Finset.mem_univ _, (List.mem_singleton.mp h).symm⟩))

theorem hF1 (c : Dev nD) (w : Fin cfg1.W) : (pdats m 1 c).arrAt w cfg1.N = Out1 m c (Pipeline.arrRef spec1 w) := by
  show (dat1 (In1 m) c).arrAt w cfg1.N = Gen.V13 m (outs m) c _
  rw [V13_outs]
  fin_cases w
  · exact ((dat1 (In1 m) c).arrAt_in 0 rfl _).trans ((A_eq1 (In1 m) c 0).trans (((Gen.V13_of m (outsB m) c main_v33 (by decide)).trans (congrFun (V12_outsB m c) _)).symm))
  · exact ((dat1 (In1 m) c).arrAt_in 1 rfl _).trans ((A_eq1 (In1 m) c 1).trans (((Gen.V13_of m (outsB m) c main_v35 (by decide)).trans (congrFun (V12_outsB m c) _)).symm))
  · exact ((dat1 (In1 m) c).arrAt_in 2 rfl _).trans ((A_eq1 (In1 m) c 2).trans (((Gen.V13_of m (outsB m) c main_v39 (by decide)).trans (congrFun (V12_outsB m c) _)).symm))
  · refine (outsB_13 m c).symm.trans ?_
    show outsB m 13 main_v40 c = Function.update (Gen.V12 m (outsB m) c) (Proc.devRef .tc main_v40) (outsB m 13 main_v40 c) (Proc.devRef .tc main_v40)
    rw [Function.update_self]
theorem hrest1 (c : Dev nD) : ∀ b, b ∉ Finset.univ.image (Pipeline.arrRef spec1) → Out1 m c b = In1 m c b := fun b hb =>
  (Gen.V13_of m (outs m) c b (fun h => hb (Finset.mem_image.mpr ⟨3, Finset.mem_univ _, (List.mem_singleton.mp h).symm⟩))).trans
    (congrFun (V12_outs m c) _)

theorem hF2 (c : Dev nD) (w : Fin cfg2.W) : (pdats m 2 c).arrAt w cfg2.N = Out2 m c (Pipeline.arrRef spec2 w) := by
  show (dat2 (In2 m) c).arrAt w cfg2.N = Gen.V15 m (outs m) c _
  fin_cases w
  · exact ((dat2 (In2 m) c).arrAt_in 0 rfl _).trans ((A_eq2 (In2 m) c 0).trans (((Gen.V15_of m (outs m) c main_v40 (by decide)).trans (congrFun (V14_outs m c) _)).symm))
  · exact ((dat2 (In2 m) c).arrAt_in 1 rfl _).trans ((A_eq2 (In2 m) c 1).trans (((Gen.V15_of m (outs m) c main_v37 (by decide)).trans (congrFun (V14_outs m c) _)).symm))
  · exact ((dat2 (In2 m) c).arrAt_in 2 rfl _).trans ((A_eq2 (In2 m) c 2).trans (((Gen.V15_of m (outs m) c main_v41 (by decide)).trans (congrFun (V14_outs m c) _)).symm))
  · refine (outs_15 m c).symm.trans ?_
    show outs m 15 main_v42 c = Function.update (Gen.V14 m (outs m) c) (Proc.devRef .tc main_v42) (outs m 15 main_v42 c) (Proc.devRef .tc main_v42)
    rw [Function.update_self]
theorem hrest2 (c : Dev nD) : ∀ b, b ∉ Finset.univ.image (Pipeline.arrRef spec2) → Out2 m c b = In2 m c b := fun b hb =>
  (Gen.V15_of m (outs m) c b (fun h => hb (Finset.mem_image.mpr ⟨3, Finset.mem_univ _, (List.mem_singleton.mp h).symm⟩))).trans
    (congrFun (V14_outs m c) _)

/-! ## The regions as segments -/

-- a library lemma stated over the pinned configuration unifies with the printed one only when unification may unfold
-- plain definitions in a metavariable's type
set_option backward.isDefEq.respectTransparency.types false in
/-- Kernel region 0 over the thread state: entered with every unscoped buffer at the contents before it, left with them at
    the contents after it — its arrays split out of the unscoped buffers and put back at what the write-backs leave; the
    generator register into the region's invariant and out; nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ L lv 0 fun _ _ => rfl
  pre c := iprop(StableHlo.held (c : Thread nD τ) (Pipeline.ucRefs τ sig) (Gen.V4 m c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (In0 m c) (Out0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Kernel region 1 over the thread state: entered with every unscoped buffer at the contents before it, left with them at
    the contents after it — its arrays split out of the unscoped buffers and put back at what the write-backs leave; the
    generator register into the region's invariant and out; nothing owed; no semaphore of the kernel's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (In1 m) c).loose
  hwaits := Pipeline.hwaits_of_owed_zero _ _ _ _ L lv 1 fun _ _ => rfl
  pre c := iprop(StableHlo.held (c : Thread nD τ) (Pipeline.ucRefs τ sig) (Gen.V12 m (outs m) c) ∗ R c)
  post c := iprop(StableHlo.held (c : Thread nD τ) (Pipeline.ucRefs τ sig) (Gen.V13 m (outs m) c) ∗ R c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (In1 m c) fun _ => rfl
    rw [Pipeline.unscopedBufs_held] at hsplit
    rw [V12_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (In1 m) c)
    unfold Pipeline.ΦA
    iintro ⟨Hp, -, Hr⟩
    isplitl [Hr]; · iexact Hr
    iexact Hp
  hout c := by
    rw [Pipeline.ownSems0_none]
    refine .trans (hout1 (In1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (In1 m c) (Out1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Kernel region 2 over the thread state: entered with every unscoped buffer at the contents before it, left with them at
    the contents after it — its arrays split out of the unscoped buffers and put back at what the write-backs leave; the
    generator register into the region's invariant and out; nothing owed; no semaphore of the kernel's own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (In2 m) c).loose
  hwaits := Pipeline.hwaits_of_owed_zero _ _ _ _ L lv 2 fun _ _ => rfl
  pre c := iprop(StableHlo.held (c : Thread nD τ) (Pipeline.ucRefs τ sig) (Gen.V14 m (outs m) c) ∗ R c)
  post c := iprop(StableHlo.held (c : Thread nD τ) (Pipeline.ucRefs τ sig) (Gen.V15 m (outs m) c) ∗ R c)
  X c := iprop(∃ r, prngReg c r)
  Y c := iprop(∃ r, prngReg c r)
  Z c := Pipeline.unscopedRest (Ix := Unit) (Name := ℕ) (U := UR sig nD τ) (Lvl := ℕ) spec2 c (In2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (In2 m c) fun _ => rfl
    rw [Pipeline.unscopedBufs_held] at hsplit
    rw [V14_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (In2 m) c)
    unfold Pipeline.ΦA
    iintro ⟨Hp, -, Hr⟩
    isplitl [Hr]; · iexact Hr
    iexact Hp
  hout c := by
    rw [Pipeline.ownSems0_none]
    refine .trans (hout2 (In2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (In2 m c) (Out2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the items' segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN. From any memory with zero counters every weakly fair execution of @main terminates, nothing faulting, and
    every final memory holds each unscoped buffer at the last valuation of the chain: the launch memory with every host
    stretch applied and each region's output array at what its write-backs leave. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V16 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m) (reg2 m))
    (fun c Q => by
      rewrite [main_chain c, Pipeline.Seg.run_eq_chain,
        show (Gen.segs m (outs m) 𝒱₀ L lv E () (pdats m) (reg0 m) (reg1 m) (reg2 m) c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V16 m (outs m) c))
    (hch := fun c => ⟨.rfl, .rfl, .rfl, .rfl, .rfl, .rfl, .rfl, .rfl, .rfl, .rfl, .rfl, .rfl, .rfl, .rfl, .rfl, .rfl,
      sep_mono .rfl (by show R (F := F) c ⊢ _; iintro ⟨-, H⟩; iexact H)⟩)
    (hinit := ?_) (QY := fun c s => ∀ b ∈ Pipeline.ucRefs τ sig, s.mem ((c : Thread nD τ).1, b) = Gen.V16 m (outs m) c b)
    (hfin := fun c s' => ?_) (hQ := fun _ h => h)
  · -- the launch: the unscoped buffers are held at the launch memory; the generator register and the empty debt ride along
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    have hride : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄)
        ⊢ bigSep Finset.univ (E (F := F) 0) :=
      bigSep_mono fun c _ => by
        show _ ⊢ R (F := F) c
        iintro ⟨-, HO, -, Hp, -⟩
        isplitl [Hp]; · iexists _; iexact Hp
        iexists ∅; iexact HO
    iintro ⟨H, -⟩
    ihave H' := hsplit $$ H
    icases H' with ⟨Hh, Hr⟩
    ihave HE := hride $$ Hr
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (Gen.V16 m (outs m) c) s') $$ [Hh HSI]
    · isplitl [Hh] <;> iassumption
    icases Hr with ⟨%h, HSI⟩
    imodintro
    isplitr
    · ipureintro; exact h
    · iexact HSI

/-- The frame: the four argument arrays end as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Gen.V16_main_arg0 m (outs m) c),
     (h c _ (mem_uc main_arg1 (by decide))).trans (Gen.V16_main_arg1 m (outs m) c),
     (h c _ (mem_uc main_arg2 (by decide))).trans (Gen.V16_main_arg2 m (outs m) c),
     (h c _ (mem_uc main_arg3 (by decide))).trans (Gen.V16_main_arg3 m (outs m) c)⟩) (run_all m ρ)

end Cert.KernelIdeal.Hand

end
-- ==== Proof.LayerSpec.lean ====
/- The three stages of the layer as whole-array functions over the extended reals, each of the arrays the stage
   reads: the transformed features (every row of the node features against every row of the weight matrix), the
   messages (per edge, the transformed features of the edge's source row — nothing when the source word names no row —
   scaled by the edge's coefficient), and the aggregate (per node, the sum of the messages of the edges whose
   target word names that node, plus the bias, clipped below at zero). Index words are 32-bit; a word names the
   row that is its unsigned value. -/
import Idealize.ShloMosaic.Lib.ValueIdx
import Idealize.ShloMosaic.PureOps.Ideal.Laws

noncomputable section

open scoped BigOperators

namespace Cert.Layer

open Idealize.ShloMosaic Idealize.ShloMosaic.ValueIdx

/-- Transformed features: entry `(r, q)` is the product of row `r` of the features with row `q` of the weights. -/
def feat {R : Nat} (X : (⟨2, ![R, 128]⟩ : Shape).Idx → EReal) (W : (⟨2, ![128, 128]⟩ : Shape).Idx → EReal) :
    (⟨2, ![R, 128]⟩ : Shape).Idx → EReal :=
  fun i => ∑ k : Fin 128, X (ix2 (i 0 : Fin R) k) * W (ix2 (i 1 : Fin 128) k)

theorem feat_apply {R : Nat} (X : (⟨2, ![R, 128]⟩ : Shape).Idx → EReal) (W : (⟨2, ![128, 128]⟩ : Shape).Idx → EReal)
    (r : Fin R) (q : Fin 128) : feat X W (ix2 r q) = ∑ k : Fin 128, X (ix2 r k) * W (ix2 q k) := rfl

/-- The row of `H` a word names, at column `q`; zero when the word names no row. -/
def rowAt {R : Nat} (H : (⟨2, ![R, 128]⟩ : Shape).Idx → EReal) (s : BitVec 32) (q : Fin 128) : EReal :=
  if h : s.toNat < R then H (ix2 ⟨s.toNat, h⟩ q) else 0

/-- Messages: edge `e`'s is the source row's features scaled by the edge's coefficient. -/
def msgs {R Ecount : Nat} (H : (⟨2, ![R, 128]⟩ : Shape).Idx → EReal) (src : (⟨2, ![1, Ecount]⟩ : Shape).Idx → BitVec 32)
    (coef : (⟨2, ![1, Ecount]⟩ : Shape).Idx → EReal) : (⟨2, ![Ecount, 128]⟩ : Shape).Idx → EReal :=
  fun i => rowAt H (src (ix2 (0 : Fin 1) (i 0 : Fin Ecount))) (i 1 : Fin 128) * coef (ix2 (0 : Fin 1) (i 0 : Fin Ecount))

theorem msgs_apply {R Ecount : Nat} (H : (⟨2, ![R, 128]⟩ : Shape).Idx → EReal) (src : (⟨2, ![1, Ecount]⟩ : Shape).Idx → BitVec 32)
    (coef : (⟨2, ![1, Ecount]⟩ : Shape).Idx → EReal) (e : Fin Ecount) (q : Fin 128) :
    msgs H src coef (ix2 e q) = rowAt H (src (ix2 0 e)) q * coef (ix2 0 e) := rfl

/-- The aggregate: node `n`'s is the sum of the messages whose target word names `n`, plus the bias, clipped at zero. -/
def aggr {R Ecount : Nat} (M : (⟨2, ![Ecount, 128]⟩ : Shape).Idx → EReal) (tgt : (⟨2, ![1, Ecount]⟩ : Shape).Idx → BitVec 32)
    (bias : (⟨2, ![1, 128]⟩ : Shape).Idx → EReal) : (⟨2, ![R, 128]⟩ : Shape).Idx → EReal :=
  fun i => max ((∑ e : Fin Ecount, if (tgt (ix2 (0 : Fin 1) e)).toNat = (i 0 : Fin R).val then M (ix2 e (i 1 : Fin 128)) else 0)
    + bias (ix2 (0 : Fin 1) (i 1 : Fin 128))) 0

theorem aggr_apply {R Ecount : Nat} (M : (⟨2, ![Ecount, 128]⟩ : Shape).Idx → EReal) (tgt : (⟨2, ![1, Ecount]⟩ : Shape).Idx → BitVec 32)
    (bias : (⟨2, ![1, 128]⟩ : Shape).Idx → EReal) (n : Fin R) (q : Fin 128) :
    aggr (R := R) M tgt bias (ix2 n q)
      = max ((∑ e : Fin Ecount, if (tgt (ix2 0 e)).toNat = n.val then M (ix2 e q) else 0) + bias (ix2 0 q)) 0 := rfl

/-- The edge list with the self loops appended, as a [1, Ec + R] row of words: row `a` of the edge array, then the
    words 0, 1, …, R − 1 (every node is its own neighbour). -/
def edgeRow {Ec R : Nat} (a : Fin 2) (ei : (⟨2, ![2, Ec]⟩ : Shape).Idx → BitVec 32) : (⟨2, ![1, Ec + R]⟩ : Shape).Idx → BitVec 32 :=
  fun i => if h : (i 1 : Fin (Ec + R)).val < Ec then ei (ix2 a ⟨(i 1 : Fin (Ec + R)).val, h⟩) else BitVec.ofNat 32 ((i 1 : Fin (Ec + R)).val - Ec)

theorem edgeRow_apply {Ec R : Nat} (a : Fin 2) (ei : (⟨2, ![2, Ec]⟩ : Shape).Idx → BitVec 32) (e : Fin (Ec + R)) :
    edgeRow (R := R) a ei (ix2 0 e) = if h : e.val < Ec then ei (ix2 a ⟨e.val, h⟩) else BitVec.ofNat 32 (e.val - Ec) := rfl

/-- The bias as a [1, 128] row. -/
def biasRow (b : (⟨1, ![128]⟩ : Shape).Idx → EReal) : (⟨2, ![1, 128]⟩ : Shape).Idx → EReal := fun i => b (ix1 (i 1 : Fin 128))

theorem biasRow_apply (b : (⟨1, ![128]⟩ : Shape).Idx → EReal) (q : Fin 128) : biasRow b (ix2 0 q) = b (ix1 q) := rfl

end Cert.Layer

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.ValKI0.lean ====
/- The value of kernel region 0. Point t of the grid multiplies rows 2048 t … 2048 t + 2047 of the padded node
   features by the transposed weight matrix and writes the product back as the same rows of the transformed
   features; the 49 blocks of rows tile the array, so after the run entry (r, q) of the transformed features is
   the sum over k of features (r, k) times weights (q, k). At the extended reals the narrowings on the way into
   and out of the matrix unit change nothing. -/
import proofs.«423641_j4861902979196_1_alg».proof.Proof.FrameKI.Reg0
import proofs.«423641_j4861902979196_1_alg».proof.Proof.LayerSpec
import proofs.«423641_j4861902979196_1_alg».proof.Proof.LibDotRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-! ## The product block at an index -/

/-- The transposed weight block at (k, q) is the weight block at (q, k). -/
theorem transW0_apply (x1 : FVec Ideal S128x128 .f32) (k q : Fin 128) :
    transpose S128x128 [1, 0] x1 transposes_S128x128_p1_0_S128x128 (ix2 k q) = x1 (ix2 q k) := by
  refine transpose_apply _ _ _ _ _ fun b => ?_
  match b with
  | ⟨0, _⟩ => rfl
  | ⟨1, _⟩ => rfl

/-- The product block at (p, q): row p of the feature block against row q of the weight block. -/
theorem pay0_apply (x0 : Vec Ideal S2048x128 .f32) (x1 : Vec Ideal S128x128 .f32) (p : Fin 2048) (q : Fin 128) :
    k0_pay1 (F := Ideal) x0 x1 (ix2 p q) = ∑ k : Fin 128, x0 (ix2 p k) * x1 (ix2 q k) := by
  unfold k0_pay1
  show FloatOps.matmul (F := Ideal) (φ₁ := .bf16) (φ₂ := .bf16) dot_S2048x128_S128x128_S2048x128_1_0_0_1_n_n none
      (shapeCast S2048x128 (x0 : FVec Ideal S2048x128 .f32) shapeCasts_S2048x128_S2048x128)
      (transpose S128x128 [1, 0] (x1 : FVec Ideal S128x128 .f32) transposes_S128x128_p1_0_S128x128) (constant S2048x128 .f32 0x00000000#32) (ix2 p q) = _
  rw [shapeCast_self, Ideal.matmul_constant_zero_apply]
  refine (Cert.DotRead.sum_contr_plain dot_S2048x128_S128x128_S2048x128_1_0_0_1_n_n_wf (x0 : FVec Ideal S2048x128 .f32)
    (transpose S128x128 [1, 0] (x1 : FVec Ideal S128x128 .f32) transposes_S128x128_p1_0_S128x128) p q).trans ?_
  exact Finset.sum_congr rfl fun k _ => by rw [transW0_apply]

/-! ## The blocks as rows of the arrays -/

theorem hz0 : (![0, 0] : Fin 2 → Nat) = fun _ => 0 := funext fun a => by fin_cases a <;> rfl

/-- The index maps over the grid: the feature rows' and the output's block is the point's own, on the one column block;
    the weights' is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block of point t at (p, k) is the features at (2048 t + p, k). -/
theorem xblk0_apply (c : Dev nD) (t : Fin cfg0.N) (p : Fin 2048) (k : Fin 128) (r : Fin 100352)
    (hr : r.val = 2048 * t.val + p.val) :
    (iblk0 V c 0 t : Vec Ideal S2048x128 .f32) (ix2 p k) = (V c main_v32 : S100352x128.Idx → EReal) (ix2 r k) := by
  obtain ⟨e0, e1, -⟩ := idx_facts0 t
  unfold iblk0
  rw [View.read_apply]
  show V c main_v32 (((cfg0.win 0).blk t).view.emb (ix2 p k)) = V c main_v32 (ix2 r k)
  refine congrArg _ (funext fun a => Fin.ext ?_)
  match a with
  | ⟨0, _⟩ => show win0_0.index t (0 : Fin 2) * 2048 + 1 * p.val = r.val; omega
  | ⟨1, _⟩ => show win0_0.index t (1 : Fin 2) * 128 + 1 * k.val = k.val; omega

/-- The weight block of every point is the weight matrix. -/
theorem wblk0_apply (c : Dev nD) (t : Fin cfg0.N) (q k : Fin 128) :
    (iblk0 V c 1 t : Vec Ideal S128x128 .f32) (ix2 q k) = (V c main_arg2 : S128x128.Idx → EReal) (ix2 q k) := by
  obtain ⟨-, -, e2, e3, -⟩ := idx_facts0 t
  unfold iblk0
  rw [View.read_apply]
  show V c main_arg2 (((cfg0.win 1).blk t).view.emb (ix2 q k)) = V c main_arg2 (ix2 q k)
  refine congrArg _ (funext fun a => Fin.ext ?_)
  match a with
  | ⟨0, _⟩ => show win0_1.index t (0 : Fin 2) * 128 + 1 * q.val = q.val; omega
  | ⟨1, _⟩ => show win0_1.index t (1 : Fin 2) * 128 + 1 * k.val = k.val; omega

/-- Point t's product block at (p, q) is the transformed features at (2048 t + p, q). -/
theorem prod0_point (c : Dev nD) (t : Fin cfg0.N) (p : Fin 2048) (q : Fin 128) (r : Fin 100352)
    (hr : r.val = 2048 * t.val + p.val) :
    k0_pay1 (F := Ideal) (iblk0 V c 0 t) (iblk0 V c 1 t) (ix2 p q)
      = Cert.Layer.feat (V c main_v32 : S100352x128.Idx → EReal) (V c main_arg2 : S128x128.Idx → EReal) (ix2 r q) := by
  refine (pay0_apply (iblk0 V c 0 t) (iblk0 V c 1 t) p q).trans ?_
  rw [Cert.Layer.feat_apply]
  refine Finset.sum_congr rfl fun k _ => ?_
  rw [xblk0_apply V c t p k r hr, wblk0_apply V c t q k]

/-! ## From the blocks to the array -/

/-- What point t writes back is block t of the transformed features. -/
theorem flushed0_eq (c : Dev nD) (t : Fin cfg0.N) :
    (dat0 (F := Ideal) V c).flushed 2 t
      = ((cfg0.win 2).blk t).view.read (Elt Ideal) (Cert.Layer.feat (V c main_v32 : S100352x128.Idx → EReal) (V c main_arg2 : S128x128.Idx → EReal)) := by
  show (cfg0.win 2).cut (grid0.coords t) ((dat0 V c).after 2 t) = _
  rw [after0_2]
  unfold prod0
  rw [View.canon_unit_zero hz0]
  simp only [View.ld_unit_zero (S := S2048x128) hz0, View.ld_unit_zero (S := S128x128) hz0]
  obtain ⟨-, -, -, -, e4, e5⟩ := idx_facts0 t
  funext j
  obtain ⟨p, q, rfl⟩ : ∃ (p : Fin 2048) (q : Fin 128), j = ix2 p q := ⟨j 0, j 1, eq_ix2 j⟩
  have hN : cfg0.N = 49 := N_0
  have ht : t.val < 49 := hN ▸ t.isLt
  rw [View.read_apply]
  refine (prod0_point V c t p q ⟨2048 * t.val + p.val, by have := p.isLt; omega⟩ rfl).trans ?_
  refine congrArg _ (funext fun a => Fin.ext ?_)
  match a with
  | ⟨0, _⟩ => show 2048 * t.val + p.val = win0_2.index t (0 : Fin 2) * 2048 + 1 * p.val; omega
  | ⟨1, _⟩ => show q.val = win0_2.index t (1 : Fin 2) * 128 + 1 * q.val; omega

/-- An index of the array is in point t's block iff each coordinate is in the block's range on its axis. -/
theorem mem_blk0 (t : Fin cfg0.N) (i : S100352x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v33).slice (win0_2.rect t)).set ↔ _
  rw [View.set_slice_whole, Rect.mem_set_unit]
  exact Iff.rfl

/-- Row r of the array is in the block of point r / 2048. -/
theorem cover0 (i : S100352x128.Idx) :
    ∃ t : Fin cfg0.N, (cfg0.win 2).flush t = true ∧ i ∈ ((cfg0.win 2).blk t).view.set := by
  have hi0 : (i 0).val < 100352 := (i 0).isLt
  have hi1 : (i 1).val < 128 := (i 1).isLt
  have hN : cfg0.N = 49 := N_0
  obtain ⟨t, ht⟩ : ∃ t : Fin cfg0.N, t.val = (i 0).val / 2048 := ⟨⟨(i 0).val / 2048, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- After the run the transformed-features array holds, at (r, q), row r of the (padded) features times row q of the weights. -/
theorem final0 (c : Dev nD) : (dat0 (F := Ideal) V c).arrAt 2 cfg0.N = Cert.Layer.feat (V c main_v32) (V c main_arg2) :=
  (dat0 (F := Ideal) V c).arrAt_eq_of_cover 2 (Cert.Layer.feat (V c main_v32 : S100352x128.Idx → EReal) (V c main_arg2 : S128x128.Idx → EReal))
    (fun t _ => flushed0_eq V c t) cover0

end Cert.KernelIdeal.Hand

end
-- ==== Proof.FrameKI.Reg1Pieces.lean ====
import proofs.«423641_j4861902979196_1_alg».proof.Proof.FrameKI.Reg1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Kernel region 1: what the stores hold, as the kernel's payloads

Each case's contents of the accumulator and of the output block, read off the stores the case's run found, are
the kernel's payloads at the case's inputs: the accumulator is this trip's one-hot product added to zeros (first
trip) or to what it held (other trips); the output block is the finished accumulator scaled by the norms. -/

/-- Every store and load of the body spans its whole memref from the origin. -/
theorem origin1 : (![0, 0] : Fin 2 → ℕ) = fun _ => 0 := by funext a; fin_cases a <;> rfl

/-- First trip: the reset writes zeros, the accumulation reads them back and adds this trip's product. -/
theorem sout1_A_0_eq (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i) (x0 : Vec F S2048x128 .bf16) (x1 : Vec F S1x2048 .i32) (x2 : Vec F S1x2048 .f32) :
    sout1_A_0 c i arg2 harg2 arg3 harg3 arg4 harg4 arg5 harg5 arg6 harg6 hc0 hc1 x0 x1 x2 = k1_pay2 i x1 k1_pay1 x0 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S2048x128) origin1, View.readCov_unit_zero (S := S2048x128) _ origin1]
  simp only [View.readAt_eq_ld, harg2.read_unread, harg3.read_unread, harg4.read_unread, harg6.read_unread,
    View.ld_unit_zero (S := S2048x128) origin1, View.ld_unit_zero (S := S1x2048) origin1]

/-- Middle trip: what the accumulator held plus this trip's product. -/
theorem sout1_B_0_eq (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i) (x0 : Vec F S2048x128 .bf16) (x1 : Vec F S1x2048 .i32) (x2 : Vec F S1x2048 .f32) (xs0 : Vec F S2048x128 .f32) :
    sout1_B_0 c i arg2 harg2 arg3 harg3 arg4 harg4 arg5 harg5 arg6 harg6 hc0 hc1 x0 x1 x2 xs0 = k1_pay2 i x1 xs0 x0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero origin1]
  simp only [View.readAt_eq_ld, harg2.read_unread, harg3.read_unread, harg4.read_unread, harg6.read_unread,
    View.ld_unit_zero (S := S2048x128) origin1, View.ld_unit_zero (S := S1x2048) origin1]

/-- Last trip, the accumulator: what it held plus the last product. -/
theorem sout1_C_0_eq (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i) (x0 : Vec F S2048x128 .bf16) (x1 : Vec F S1x2048 .i32) (x2 : Vec F S1x2048 .f32) (xs0 : Vec F S2048x128 .f32) :
    sout1_C_0 c i arg2 harg2 arg3 harg3 arg4 harg4 arg5 harg5 arg6 harg6 hc0 hc1 x0 x1 x2 xs0 = k1_pay2 i x1 xs0 x0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero origin1]
  simp only [View.readAt_eq_ld, harg2.read_unread, harg3.read_unread, harg4.read_unread, harg6.read_unread,
    View.ld_unit_zero (S := S2048x128) origin1, View.ld_unit_zero (S := S1x2048) origin1]

/-- Last trip, the output block: the finished accumulator (read back after its store) scaled by the norms. -/
theorem out1_C_3_eq (c : Dev nD) (i : grid1.Coords) (arg2 : Memref sig .tc .vmem S2048x128 .bf16) (harg2 : arg2.IsWhole) (arg3 : Memref sig .tc .vmem S1x2048 .i32) (harg3 : arg3.IsWhole) (arg4 : Memref sig .tc .vmem S1x2048 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i) (x0 : Vec F S2048x128 .bf16) (x1 : Vec F S1x2048 .i32) (x2 : Vec F S1x2048 .f32) (xs0 : Vec F S2048x128 .f32) :
    out1_C_3 c i arg2 harg2 arg3 harg3 arg4 harg4 arg5 harg5 arg6 harg6 hc0 hc1 x0 x1 x2 xs0 = k1_pay3 x2 (k1_pay2 i x1 xs0 x0) := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero origin1]
  simp only [View.readAt_eq_ld, harg2.read_unread, harg3.read_unread, harg4.read_unread, harg6.read_unread,
    View.readCov_unit_zero (S := S2048x128) _ origin1,
    View.ld_unit_zero (S := S2048x128) origin1, View.ld_unit_zero (S := S1x2048) origin1]

/-! ## Point by point -/

/-- The accumulator after point `t`: this trip's one-hot product added to zeros (first trip of a reduction run) or to what the trip before left. -/
theorem acc1_eq (c : Dev nD) (t : Fin cfg1.N) :
    (outsAt1 V c t.val t.isLt).2 = k1_pay2 (grid1.coords t) (iblk1 V c 1 t) (if t.val % 49 = 0 then k1_pay1 else (outsAt1 V c (t.val - 1) (Nat.lt_of_le_of_lt (Nat.sub_le _ _) t.isLt)).2) (iblk1 V c 0 t) := by
  by_cases h0 : t.val % 49 = 0
  · have h1 : ¬t.val % 49 = 48 := by omega
    rw [outsAt1_A V c t h0 h1, if_pos h0]; dsimp only
    exact sout1_A_0_eq c (grid1.coords t) (ms1_0 t) (hs1_0 t) (ms1_1 t) (hs1_1 t) (ms1_2 t) (hs1_2 t) (ms1_3 t) (hs1_3 t) scM1_0 (Memref.isWhole_whole _) (c0_of h0) (nc1_of h1) (iblk1 V c 0 t) (iblk1 V c 1 t) (iblk1 V c 2 t)
  · rw [if_neg h0]
    by_cases h1 : t.val % 49 = 48
    · rw [outsAt1_C V c t h0 h1]; dsimp only
      exact sout1_C_0_eq c (grid1.coords t) (ms1_0 t) (hs1_0 t) (ms1_1 t) (hs1_1 t) (ms1_2 t) (hs1_2 t) (ms1_3 t) (hs1_3 t) scM1_0 (Memref.isWhole_whole _) (nc0_of h0) (c1_of h1) (iblk1 V c 0 t) (iblk1 V c 1 t) (iblk1 V c 2 t) (prevAcc1 V c t)
    · rw [outsAt1_B V c t h0 h1]; dsimp only
      exact sout1_B_0_eq c (grid1.coords t) (ms1_0 t) (hs1_0 t) (ms1_1 t) (hs1_1 t) (ms1_2 t) (hs1_2 t) (ms1_3 t) (hs1_3 t) scM1_0 (Memref.isWhole_whole _) (nc0_of h0) (nc1_of h1) (iblk1 V c 0 t) (iblk1 V c 1 t) (iblk1 V c 2 t) (prevAcc1 V c t)

/-- At the last trip of a run the output block is the payload of the final store over the finished accumulator. -/
theorem out1_eq (c : Dev nD) (t : Fin cfg1.N) (h : t.val % 49 = 48) :
    (outsAt1 V c t.val t.isLt).1 = k1_pay3 (iblk1 V c 2 t) (outsAt1 V c t.val t.isLt).2 := by
  have h0 : ¬t.val % 49 = 0 := by omega
  rw [outsAt1_C V c t h0 h]; dsimp only
  rw [sout1_C_0_eq c (grid1.coords t) (ms1_0 t) (hs1_0 t) (ms1_1 t) (hs1_1 t) (ms1_2 t) (hs1_2 t) (ms1_3 t) (hs1_3 t) scM1_0 (Memref.isWhole_whole _) (nc0_of h0) (c1_of h) (iblk1 V c 0 t) (iblk1 V c 1 t) (iblk1 V c 2 t) (prevAcc1 V c t)]
  exact out1_C_3_eq c (grid1.coords t) (ms1_0 t) (hs1_0 t) (ms1_1 t) (hs1_1 t) (ms1_2 t) (hs1_2 t) (ms1_3 t) (hs1_3 t) scM1_0 (Memref.isWhole_whole _) (nc0_of h0) (c1_of h) (iblk1 V c 0 t) (iblk1 V c 1 t) (iblk1 V c 2 t) (prevAcc1 V c t)

end Cert.KernelIdeal.Hand

end
-- ==== Proof.LibSumLemmas.lean ====
/- Finite sums with values in a commutative additive monoid (the extended reals in use): a one-hot
   contraction reads one term, a sum over blocks whose terms vanish past a bound is the sum up to
   the bound, a left fold of additions from zero is the sum, and a sum over the pairs selected by a
   condition on the first coordinate and a fixed second coordinate is a sum over first coordinates. -/
import Idealize.ShloMosaic.Lib.ValueIdx
import Idealize.ShloMosaic.PureOps.Ideal.Laws
import Mathlib.Algebra.BigOperators.Fin
import Mathlib.Logic.Equiv.Fin.Basic

noncomputable section

open scoped BigOperators

namespace Cert.SumLemmas

open Idealize.ShloMosaic Idealize.ShloMosaic.ValueIdx

/-! ## The one-hot word -/

/-- The equality test of two words as a one-bit word. -/
theorem cmpi_eq_of_eq {w : Nat} {x y : BitVec w} (h : x = y) : IntOp.cmpi .eq x y = 1#1 := by
  simp [IntOp.cmpi, h]

theorem cmpi_eq_of_ne {w : Nat} {x y : BitVec w} (h : x ≠ y) : IntOp.cmpi .eq x y = 0#1 := by
  have hb : (x == y) = false := by simpa using h
  simp [IntOp.cmpi, hb]

/-- The equality test, widened to 32 bits and converted to an extended real, is the indicator of
    equality. -/
theorem oneHot_word (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · rw [cmpi_eq_of_eq h, if_pos h]
    have : ((1#1 : BitVec 1).setWidth 32).toInt = 1 := by decide
    rw [this]; simp
  · rw [cmpi_eq_of_ne h, if_neg h]
    have : ((0#1 : BitVec 1).setWidth 32).toInt = 0 := by decide
    rw [this]; simp

/-- A natural number below `2 ^ 32` as a word equals a word exactly when it is the word's value. -/
theorem ofNat_eq_iff {k : Nat} (hk : k < 2 ^ 32) (s : BitVec 32) : BitVec.ofNat 32 k = s ↔ k = s.toNat := by
  constructor
  · intro h; rw [← h, BitVec.toNat_ofNat, Nat.mod_eq_of_lt hk]
  · intro h; apply BitVec.eq_of_toNat_eq; rw [BitVec.toNat_ofNat, Nat.mod_eq_of_lt hk, h]

/-! ## One-hot contractions -/

/-- An indicator times a value is the value where the condition holds, zero elsewhere. -/
theorem ite_one_zero_mul (c : Prop) [Decidable c] (x : EReal) : (if c then (1 : EReal) else 0) * x = if c then x else 0 := by
  split <;> simp

/-- A one-hot contraction reads one term. -/
theorem sum_oneHot_mul {ι : Type*} [Fintype ι] [DecidableEq ι] (a : ι) (f : ι → EReal) :
    ∑ k, (if k = a then (1 : EReal) else 0) * f k = f a := by
  simp only [ite_one_zero_mul, Finset.sum_ite_eq', Finset.mem_univ, if_true]

/-- A one-hot contraction whose hot position is given as a word: it reads the term at the word's
    value when that is an index, and is zero when it is not. -/
theorem sum_oneHot_word_mul {n : Nat} (hn : n ≤ 2 ^ 32) (s : BitVec 32) (f : Fin n → EReal) :
    ∑ k : Fin n, (if BitVec.ofNat 32 k.val = s then (1 : EReal) else 0) * f k
      = if h : s.toNat < n then f ⟨s.toNat, h⟩ else 0 := by
  have hk : ∀ k : Fin n, (BitVec.ofNat 32 k.val = s) ↔ k.val = s.toNat := fun k =>
    ofNat_eq_iff (lt_of_lt_of_le k.isLt hn) s
  by_cases h : s.toNat < n
  · rw [dif_pos h]
    have : ∀ k : Fin n, (if BitVec.ofNat 32 k.val = s then (1 : EReal) else 0) = if k = ⟨s.toNat, h⟩ then 1 else 0 := by
      intro k
      by_cases hks : k.val = s.toNat
      · rw [if_pos ((hk k).2 hks), if_pos (Fin.ext hks)]
      · rw [if_neg (fun e => hks ((hk k).1 e)), if_neg (fun e => hks (congrArg Fin.val e))]
    simp only [this]
    exact sum_oneHot_mul _ f
  · rw [dif_neg h]
    apply Finset.sum_eq_zero
    intro k _
    rw [if_neg (fun e => h (by rw [← (hk k).1 e]; exact k.isLt)), zero_mul]

/-! ## A sum over blocks with a vanishing tail -/

/-- A sum over `nb` blocks of `bs` terms of a function on `Fin N`, `N = nb * bs`, that vanishes from `m` on
    is the sum over `Fin m`. The term of block `t` at place `r` is the one at `bs * t + r`. -/
theorem sum_blocks {M : Type*} [AddCommMonoid M] {nb bs m N : Nat} (hN : nb * bs = N) (hm : m ≤ N) (g : Fin N → M)
    (hz : ∀ i : Fin N, m ≤ i.val → g i = 0) (idx : Fin nb → Fin bs → Fin N)
    (hidx : ∀ t r, (idx t r).val = bs * t.val + r.val) :
    ∑ t : Fin nb, ∑ r : Fin bs, g (idx t r) = ∑ e : Fin m, g (Fin.castLE hm e) := by
  subst hN
  have h1 : ∑ t : Fin nb, ∑ r : Fin bs, g (idx t r) = ∑ i : Fin (nb * bs), g i := by
    rw [← Fintype.sum_prod_type' (f := fun t r => g (idx t r))]
    rw [← Equiv.sum_comp (finProdFinEquiv (m := nb) (n := bs)) g]
    refine Finset.sum_congr rfl fun p _ => congrArg g (Fin.ext ?_)
    rw [hidx]; simp [finProdFinEquiv, Nat.add_comm]
  rw [h1]
  -- both sides as sums over ranges of naturals
  let g' : ℕ → M := fun i => if h : i < nb * bs then g ⟨i, h⟩ else 0
  have h2 : ∑ i : Fin (nb * bs), g i = ∑ i ∈ Finset.range (nb * bs), g' i := by
    rw [← Fin.sum_univ_eq_sum_range g' (nb * bs)]
    refine Finset.sum_congr rfl fun i _ => ?_
    show g i = if h : i.val < nb * bs then g ⟨i.val, h⟩ else 0
    rw [dif_pos i.isLt]
  have h3 : ∑ e : Fin m, g (Fin.castLE hm e) = ∑ i ∈ Finset.range m, g' i := by
    rw [← Fin.sum_univ_eq_sum_range g' m]
    refine Finset.sum_congr rfl fun e _ => ?_
    show g (Fin.castLE hm e) = if h : e.val < nb * bs then g ⟨e.val, h⟩ else 0
    rw [dif_pos (lt_of_lt_of_le e.isLt hm)]; rfl
  rw [h2, h3]
  symm
  apply Finset.sum_subset (Finset.range_subset_range.2 hm)
  intro i hi hni
  have hi' : i < nb * bs := Finset.mem_range.1 hi
  have hmi : m ≤ i := Nat.le_of_not_lt (fun h => hni (Finset.mem_range.2 h))
  show (if h : i < nb * bs then g ⟨i, h⟩ else 0) = 0
  rw [dif_pos hi']; exact hz _ hmi

/-! ## A left fold of additions from zero -/

/-- The left fold of additions from zero along the indices in order is the sum. -/
theorem foldl_finRange_add {M : Type*} [AddCommMonoid M] {n : Nat} (f : Fin n → M) :
    (List.finRange n).foldl (fun acc t => acc + f t) 0 = ∑ t, f t := by
  rw [Fin.sum_univ_def, List.sum_eq_foldl, List.foldl_map]

/-- The same along the naturals below `n`. -/
theorem foldl_range_add {M : Type*} [AddCommMonoid M] (n : Nat) (f : ℕ → M) :
    (List.range n).foldl (fun acc t => acc + f t) 0 = ∑ t ∈ Finset.range n, f t := by
  induction n with
  | zero => simp
  | succ k ih => rw [List.range_succ, List.foldl_append, ih, Finset.sum_range_succ]; rfl

/-- The recursion that adds one term per step from zero is the sum over the steps taken. -/
theorem rec_add_eq_sum {M : Type*} [AddCommMonoid M] (f : ℕ → M) (n : Nat) :
    (Nat.rec (0 : M) (fun k acc => acc + f k) n : M) = ∑ t ∈ Finset.range n, f t := by
  induction n with
  | zero => simp
  | succ k ih => rw [Finset.sum_range_succ, ← ih]

/-- A sum of functions read at a point is the sum of the values there. -/
theorem sum_fn_apply {ι κ : Type*} {M : Type*} [AddCommMonoid M] (s : Finset ι) (f : ι → κ → M) (x : κ) :
    (∑ t ∈ s, f t) x = ∑ t ∈ s, f t x := Finset.sum_apply x s f

/-! ## A filtered sum over pairs -/

/-- A sum over the rank-2 indices whose first coordinate satisfies `P` and whose second coordinate is `c`
    is the sum, over the first coordinates, of the terms at `(e, c)` where `P e` holds. -/
theorem sum_filter_idx2 {M : Type*} [AddCommMonoid M] {n0 n1 : Nat} (Q : (⟨2, ![n0, n1]⟩ : Shape).Idx → Prop) [DecidablePred Q]
    (P : Fin n0 → Prop) [DecidablePred P] (c : Fin n1) (hQ : ∀ e c', Q (ix2 e c') ↔ P e ∧ c' = c)
    (u : (⟨2, ![n0, n1]⟩ : Shape).Idx → M) :
    ∑ j ∈ Finset.univ.filter Q, u j = ∑ e : Fin n0, if P e then u (ix2 e c) else 0 := by
  rw [Finset.sum_filter, sum_idx2]
  refine Finset.sum_congr rfl fun e _ => ?_
  by_cases hP : P e
  · rw [if_pos hP, Finset.sum_eq_single c]
    · rw [if_pos ((hQ e c).2 ⟨hP, rfl⟩)]
    · intro b _ hb; rw [if_neg (fun h => hb ((hQ e b).1 h).2)]
    · intro h; exact absurd (Finset.mem_univ c) h
  · rw [if_neg hP]
    apply Finset.sum_eq_zero
    intro b _; rw [if_neg (fun h => hP ((hQ e b).1 h).1)]

end Cert.SumLemmas

end
-- ==== Proof.ValKI1a.lean ====
import proofs.«423641_j4861902979196_1_alg».proof.Proof.Gen.KernelIdeal.Skeleton
import proofs.«423641_j4861902979196_1_alg».proof.Proof.LibDotRead
import proofs.«423641_j4861902979196_1_alg».proof.Proof.LibSumLemmas
import Idealize.ShloMosaic.Lib.Pipeline.Value

set_option maxRecDepth 16384

noncomputable section

open scoped BigOperators

namespace Cert.KernelIdeal.Hand

open Idealize.ShloMosaic Idealize.ShloMosaic.ValueIdx
open Cert.KernelIdeal Cert.KernelIdeal.Gen

/-! # The gather kernel's three stored values, entry by entry, over the extended reals

The accumulator's reset value is the zero block. One trip adds, at entry (p, q), the contraction over the lane r of
the indicator "edge p's source word, less the row tile's first row, is r" against the row tile's entry (r, q): the
row tile's entry at that lane when the difference is a lane, nothing otherwise. The output block is the finished
accumulator's entry (p, q) times edge p's coefficient. -/

/-- A row [1, n] seen as a vector [n]: entry p is the row's entry (0, p). -/
theorem rowToVec1_apply {α : Type} (v : S1x2048.Idx → α) (h : S1x2048.ShapeCasts S2048) (p : Fin 2048) :
    shapeCast S2048 v h (ix1 p) = v (ix2 (0 : Fin 1) p) :=
  shapeCast_apply v h (ix1 p) (ix2 (0 : Fin 1) p) (by
    rw [Shape.rowMajor_val_two, Shape.rowMajor_val_one]
    show 0 * 2048 + p.val = p.val
    omega)

/-- A vector [n] seen as a column [n, 1]: entry (p, 0) is the vector's entry p. -/
theorem vecToCol1_apply {α : Type} (v : S2048.Idx → α) (h : S2048.ShapeCasts S2048x1) (p : Fin 2048) (z : Fin 1) :
    shapeCast S2048x1 v h (ix2 p z) = v (ix1 p) :=
  shapeCast_apply v h (ix2 p z) (ix1 p) (by
    rw [Shape.rowMajor_val_two, Shape.rowMajor_val_one]
    show p.val = p.val * 1 + z.val
    omega)

/-- A column [n, 1] spread along the rows of [n, m]: entry (p, r) is the column's entry (p, 0). -/
theorem colSpread1_apply {α : Type} {m : Nat} (v : S2048x1.Idx → α) (h : S2048x1.Broadcasts ⟨2, ![2048, m]⟩)
    (p : Fin 2048) (r : Fin m) :
    broadcastTo ⟨2, ![2048, m]⟩ v h (ix2 p r) = v (ix2 p (0 : Fin 1)) :=
  broadcastTo_apply v h (ix2 p r) (ix2 p (0 : Fin 1)) (fun a => match a with
    | ⟨0, _⟩ => by
        show p.val = if (2048 : ℕ) = 1 then 0 else p.val
        rw [if_neg (by decide)]
    | ⟨1, _⟩ => by
        show (0 : ℕ) = if (1 : ℕ) = 1 then 0 else r.val
        rw [if_pos rfl])

/-- The reset value is zero everywhere. -/
theorem k1pay1_apply (j : S2048x128.Idx) : k1_pay1 (F := Ideal) j = 0 := by
  unfold k1_pay1
  rw [shapeCast_self]
  show Ideal.ofBits .f32 0x00000000#32 = 0
  exact Ideal.ofBits_zero_f32

/-- One trip's new accumulator at (p, q): the old entry plus the one-hot contraction over the lanes. -/
theorem k1pay2_apply (i : grid1.Coords) (src : Vec Ideal S1x2048 .i32) (acc : Vec Ideal S2048x128 .f32) (blk : Vec Ideal S2048x128 .bf16)
    (p : Fin 2048) (q : Fin 128) :
    k1_pay2 (F := Ideal) i src acc blk (ix2 p q)
      = acc (ix2 p q) + ∑ r : Fin 2048,
          (if BitVec.ofNat 32 r.val = src (ix2 (0 : Fin 1) p) - Scalar.muli (BitVec.ofNat 32 (i 1).val) 2048#32 then (1 : EReal) else 0)
            * blk (ix2 r q) := by
  unfold k1_pay2
  dsimp only
  rw [shapeCast_self, shapeCast_self]
  refine congrArg (fun x : EReal => acc (ix2 p q) + x) ?_
  refine (Ideal.matmul_constant_zero_apply (φ₁ := .bf16) (φ₂ := .bf16) dot_S2048x2048_S2048x128_S2048x128_1_0_0_1_n_n none _ blk (ix2 p q)).trans ?_
  refine (Cert.DotRead.sum_contr_plain dot_S2048x2048_S2048x128_S2048x128_1_0_0_1_n_n_wf _ blk p q).trans ?_
  refine Finset.sum_congr rfl fun r _ => ?_
  congr 1
  show FloatOps.sitofp (F := Ideal) .f32 ((IntOp.cmpi .eq
      (broadcastTo S2048x2048 (shapeCast S2048x1 (subi (shapeCast S2048 src shapeCasts_S1x2048_S2048)
        (broadcast S2048 (Scalar.muli (BitVec.ofNat 32 (i 1).val) 2048#32))) shapeCasts_S2048_S2048x1) broadcasts_S2048x1_S2048x2048 (ix2 p r))
      (iota .tc S2048x2048 32 [1] iota_S2048x2048_d1_w32 (ix2 p r))).setWidth 32) = _
  rw [colSpread1_apply _ _ p r, vecToCol1_apply _ _ p 0, iota_single_apply]
  show FloatOps.sitofp (F := Ideal) .f32 ((IntOp.cmpi .eq
      (shapeCast S2048 src shapeCasts_S1x2048_S2048 (ix1 p) - Scalar.muli (BitVec.ofNat 32 (i 1).val) 2048#32)
      (BitVec.ofNat 32 r.val)).setWidth 32) = _
  rw [rowToVec1_apply src _ p]
  exact (Cert.SumLemmas.oneHot_word _ _).trans (if_congr eq_comm rfl rfl)

/-- The output block at (p, q): the accumulator's entry times edge p's coefficient. -/
theorem k1pay3_apply (coef : Vec Ideal S1x2048 .f32) (acc : Vec Ideal S2048x128 .f32) (p : Fin 2048) (q : Fin 128) :
    k1_pay3 (F := Ideal) coef acc (ix2 p q) = acc (ix2 p q) * coef (ix2 (0 : Fin 1) p) := by
  unfold k1_pay3
  show acc (ix2 p q) * _ = _
  congr 1
  refine (colSpread1_apply _ _ p q).trans ?_
  refine (vecToCol1_apply _ _ p 0).trans ?_
  exact rowToVec1_apply _ _ p

end Cert.KernelIdeal.Hand
end
-- ==== Proof.ValKI1b.lean ====
import proofs.«423641_j4861902979196_1_alg».proof.Proof.LayerSpec
import proofs.«423641_j4861902979196_1_alg».proof.Proof.LibSumLemmas

set_option maxRecDepth 16384

noncomputable section

open scoped BigOperators

namespace Cert.KernelIdeal.Hand

open Idealize.ShloMosaic Idealize.ShloMosaic.ValueIdx

/-! # Source words against the 49 row tiles

The 100352 rows of the transformed features are 49 tiles of 2048 rows. A source word `w` is compared, tile by tile,
with the lanes of the tile after subtracting the tile's first row `2048 s` in 32-bit arithmetic: the difference is a
lane of tile `s` exactly when `w`'s value lies in tile `s`, and then it is the row's place inside the tile. So the
49 one-hot contractions of one edge add up to the row the word names, or to nothing when it names none. -/

/-- Tile `s`'s first row as a word: the tile number times 2048, computed in 32 bits, for the 49 tiles. -/
theorem tile1_base_toNat (s : ℕ) (hs : s < 49) : (Scalar.muli (BitVec.ofNat 32 s) 2048#32).toNat = s * 2048 := by
  show (BitVec.ofNat 32 s * 2048#32).toNat = s * 2048
  rw [BitVec.toNat_mul, BitVec.toNat_ofNat]
  show s % 2 ^ 32 * 2048 % 2 ^ 32 = s * 2048
  omega

/-- A word at or above the tile's first row: the 32-bit difference is the true difference. -/
theorem tile1_sub_toNat (w y : BitVec 32) (s : ℕ) (hy : y.toNat = s * 2048) (h : s * 2048 ≤ w.toNat) :
    (w - y).toNat = w.toNat - s * 2048 := by
  have hw := w.isLt
  rw [BitVec.toNat_sub, hy]
  omega

/-- The 32-bit difference is a lane exactly when the word's value lies in the tile. -/
theorem tile1_sub_lt_iff (w y : BitVec 32) (s : ℕ) (hs : s < 49) (hy : y.toNat = s * 2048) :
    (w - y).toNat < 2048 ↔ w.toNat / 2048 = s := by
  have hw := w.isLt
  rw [BitVec.toNat_sub, hy]
  omega

/-- One tile's one-hot contraction for a word: the named row's entry when the word lies in the tile, else zero.
    `B` is the tile: its row `r` is row `2048 s + r` of `H`. -/
theorem tile1_term (H : (⟨2, ![100352, 128]⟩ : Shape).Idx → EReal) (B : (⟨2, ![2048, 128]⟩ : Shape).Idx → EReal)
    (s : ℕ) (hs : s < 49)
    (hB : ∀ (r : Fin 2048) (q : Fin 128), B (ix2 r q) = H (ix2 (⟨s * 2048 + r.val, by have := r.isLt; omega⟩ : Fin 100352) q))
    (w y : BitVec 32) (hy : y.toNat = s * 2048) (q : Fin 128) :
    (∑ r : Fin 2048, (if BitVec.ofNat 32 r.val = w - y then (1 : EReal) else 0) * B (ix2 r q))
      = if w.toNat / 2048 = s then Cert.Layer.rowAt H w q else 0 := by
  refine (Cert.SumLemmas.sum_oneHot_word_mul (by decide) (w - y) (fun r => B (ix2 r q))).trans ?_
  by_cases hws : w.toNat / 2048 = s
  · have hlt : (w - y).toNat < 2048 := (tile1_sub_lt_iff w y s hs hy).2 hws
    have hw : w.toNat < 100352 := by omega
    rw [dif_pos hlt, if_pos hws, hB]
    unfold Cert.Layer.rowAt
    rw [dif_pos hw]
    refine congrArg (fun k : Fin 100352 => H (ix2 k q)) (Fin.ext ?_)
    show s * 2048 + (w - y).toNat = w.toNat
    rw [tile1_sub_toNat w y s hy (by omega)]
    omega
  · rw [dif_neg (fun h => hws ((tile1_sub_lt_iff w y s hs hy).1 h)), if_neg hws]

/-- The 49 tiles' terms add up to the row the word names (zero when it names none). -/
theorem sum_tiles1_rowAt (H : (⟨2, ![100352, 128]⟩ : Shape).Idx → EReal) (w : BitVec 32) (q : Fin 128) :
    (∑ s ∈ Finset.range 49, if w.toNat / 2048 = s then Cert.Layer.rowAt H w q else 0) = Cert.Layer.rowAt H w q := by
  rw [Finset.sum_ite_eq]
  by_cases h : w.toNat / 2048 < 49
  · rw [if_pos (Finset.mem_range.2 h)]
  · rw [if_neg (fun h' => h (Finset.mem_range.1 h'))]
    unfold Cert.Layer.rowAt
    rw [dif_neg (by omega)]

end Cert.KernelIdeal.Hand
end
-- ==== Proof.ValKI1c.lean ====
import proofs.«423641_j4861902979196_1_alg».proof.Proof.Gen.KernelIdeal.Launch
import proofs.«423641_j4861902979196_1_alg».proof.Proof.Gen.KernelIdeal.Skeleton
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL.Sem
open Cert.KernelIdeal Cert.KernelIdeal.Gen

variable (V : (c : Dev nD) → (b : Ref sig .tc) → Buf (Elt Ideal) ((c : Thread nD τ).loc b))

/-! # The gather kernel's blocks, read off the arrays

Grid point `t` of the 831 × 49 grid is (edge tile `t / 49`, row tile `t % 49`). At it the kernel sees rows
`2048 (t % 49) …` of the transformed features, and entries `2048 (t / 49) …` of the source words and of the
coefficients; it writes rows `2048 (t / 49) …` of the messages. -/

/-- The grid has 40719 points. -/
theorem npoints1 : cfg1.N = 40719 := N_1

/-- A point's edge-tile coordinate. -/
theorem coords1_0 (t : Fin cfg1.N) : ((grid1.coords t) 0).val = t.val / 49 := by
  have ht : t.val < 40719 := lt_of_lt_of_eq t.isLt N_1
  show t.val / grid1.stride 0 % 831 = t.val / 49
  rw [show grid1.stride 0 = 49 from by decide]
  omega

/-- A point's row-tile coordinate. -/
theorem coords1_1 (t : Fin cfg1.N) : ((grid1.coords t) 1).val = t.val % 49 := by
  show t.val / grid1.stride 1 % 49 = t.val % 49
  rw [show grid1.stride 1 = 1 from by decide, Nat.div_one]

/-- The features' block index: (row tile, 0). -/
theorem index1_0 (t : Fin cfg1.N) : win1_0.index t 0 = t.val % 49 ∧ win1_0.index t 1 = 0 := by
  have h1 := coords1_1 t
  refine ⟨?_, rfl⟩
  show (BitVec.ofNat 32 ((grid1.coords t) 1).val).toNat = t.val % 49
  rw [BitVec.toNat_ofNat, h1]
  omega

/-- The source words' block index: (0, edge tile). -/
theorem index1_1 (t : Fin cfg1.N) : win1_1.index t 0 = 0 ∧ win1_1.index t 1 = t.val / 49 := by
  have ht : t.val < 40719 := lt_of_lt_of_eq t.isLt N_1
  have h0 := coords1_0 t
  refine ⟨rfl, ?_⟩
  show (BitVec.ofNat 32 ((grid1.coords t) 0).val).toNat = t.val / 49
  rw [BitVec.toNat_ofNat, h0]
  omega

/-- The coefficients' block index: (0, edge tile). -/
theorem index1_2 (t : Fin cfg1.N) : win1_2.index t 0 = 0 ∧ win1_2.index t 1 = t.val / 49 := by
  have ht : t.val < 40719 := lt_of_lt_of_eq t.isLt N_1
  have h0 := coords1_0 t
  refine ⟨rfl, ?_⟩
  show (BitVec.ofNat 32 ((grid1.coords t) 0).val).toNat = t.val / 49
  rw [BitVec.toNat_ofNat, h0]
  omega

/-- The messages' block index: (edge tile, 0). -/
theorem index1_3 (t : Fin cfg1.N) : win1_3.index t 0 = t.val / 49 ∧ win1_3.index t 1 = 0 := by
  have ht : t.val < 40719 := lt_of_lt_of_eq t.isLt N_1
  have h0 := coords1_0 t
  refine ⟨?_, rfl⟩
  show (BitVec.ofNat 32 ((grid1.coords t) 0).val).toNat = t.val / 49
  rw [BitVec.toNat_ofNat, h0]
  omega

/-! ## The arrays and the blocks, by their literal types -/

/-- The transformed features as the region finds them. -/
abbrev featArr1 (c : Dev nD) : (⟨2, ![100352, 128]⟩ : Shape).Idx → EReal := V c main_v33
/-- The source words. -/
abbrev srcArr1 (c : Dev nD) : (⟨2, ![1, 1701888]⟩ : Shape).Idx → BitVec 32 := V c main_v35
/-- The edge coefficients. -/
abbrev coefArr1 (c : Dev nD) : (⟨2, ![1, 1701888]⟩ : Shape).Idx → EReal := V c main_v39

/-- The features' block at a point. -/
abbrev featBlk1 (c : Dev nD) (t : Fin cfg1.N) : Vec Ideal S2048x128 .bf16 :=
  ((cfg1.win 0).blk t).view.read (Elt Ideal) (V c (Pipeline.arrRef spec1 0))
/-- The source words' block at a point. -/
abbrev srcBlk1 (c : Dev nD) (t : Fin cfg1.N) : Vec Ideal S1x2048 .i32 :=
  ((cfg1.win 1).blk t).view.read (Elt Ideal) (V c (Pipeline.arrRef spec1 1))
/-- The coefficients' block at a point. -/
abbrev coefBlk1 (c : Dev nD) (t : Fin cfg1.N) : Vec Ideal S1x2048 .f32 :=
  ((cfg1.win 2).blk t).view.read (Elt Ideal) (V c (Pipeline.arrRef spec1 2))

/-- Edge tile `e`'s `p`-th source word (the zero word past the last tile). -/
def srcWord1 (c : Dev nD) (e : ℕ) (p : Fin 2048) : BitVec 32 :=
  if h : e < 831 then srcArr1 V c (ix2 (0 : Fin 1) (⟨e * 2048 + p.val, by have := p.isLt; omega⟩ : Fin 1701888)) else 0#32

/-- Edge tile `e`'s `p`-th coefficient (zero past the last tile). -/
def coefAt1 (c : Dev nD) (e : ℕ) (p : Fin 2048) : EReal :=
  if h : e < 831 then coefArr1 V c (ix2 (0 : Fin 1) (⟨e * 2048 + p.val, by have := p.isLt; omega⟩ : Fin 1701888)) else 0

/-- Row `r` of the features' block at `t` is row `2048 (t % 49) + r` of the features. -/
theorem featBlk1_apply (c : Dev nD) (t : Fin cfg1.N) (r : Fin 2048) (q : Fin 128) :
    featBlk1 V c t (ix2 r q)
      = featArr1 V c (ix2 (⟨t.val % 49 * 2048 + r.val, by have := r.isLt; omega⟩ : Fin 100352) q) := by
  have hi := index1_0 t
  show ((win1_0.blk t).view.read (Elt Ideal) (V c main_v33)) (ix2 r q) = _
  rw [View.read_apply]
  show featArr1 V c _ = featArr1 V c _
  refine congrArg (featArr1 V c) (funext fun a => Fin.ext ?_)
  match a with
  | ⟨0, _⟩ => show win1_0.index t 0 * 2048 + 1 * r.val = t.val % 49 * 2048 + r.val; rw [hi.1]; omega
  | ⟨1, _⟩ => show win1_0.index t 1 * 128 + 1 * q.val = q.val; rw [hi.2]; omega

/-- Entry `p` of the source words' block at `t` is edge tile `t / 49`'s `p`-th word. -/
theorem srcBlk1_apply (c : Dev nD) (t : Fin cfg1.N) (p : Fin 2048) :
    srcBlk1 V c t (ix2 (0 : Fin 1) p) = srcWord1 V c (t.val / 49) p := by
  have ht : t.val < 40719 := lt_of_lt_of_eq t.isLt N_1
  have he : t.val / 49 < 831 := by omega
  have hi := index1_1 t
  unfold srcWord1
  rw [dif_pos he]
  show ((win1_1.blk t).view.read (Elt Ideal) (V c main_v35)) (ix2 (0 : Fin 1) p) = _
  rw [View.read_apply]
  show srcArr1 V c _ = srcArr1 V c _
  refine congrArg (srcArr1 V c) (funext fun a => Fin.ext ?_)
  match a with
  | ⟨0, _⟩ => show win1_1.index t 0 * 1 + 1 * 0 = 0; rw [hi.1]
  | ⟨1, _⟩ => show win1_1.index t 1 * 2048 + 1 * p.val = t.val / 49 * 2048 + p.val; rw [hi.2]; omega

/-- Entry `p` of the coefficients' block at `t` is edge tile `t / 49`'s `p`-th coefficient. -/
theorem coefBlk1_apply (c : Dev nD) (t : Fin cfg1.N) (p : Fin 2048) :
    coefBlk1 V c t (ix2 (0 : Fin 1) p) = coefAt1 V c (t.val / 49) p := by
  have ht : t.val < 40719 := lt_of_lt_of_eq t.isLt N_1
  have he : t.val / 49 < 831 := by omega
  have hi := index1_2 t
  unfold coefAt1
  rw [dif_pos he]
  show ((win1_2.blk t).view.read (Elt Ideal) (V c main_v39)) (ix2 (0 : Fin 1) p) = _
  rw [View.read_apply]
  show coefArr1 V c _ = coefArr1 V c _
  refine congrArg (coefArr1 V c) (funext fun a => Fin.ext ?_)
  match a with
  | ⟨0, _⟩ => show win1_2.index t 0 * 1 + 1 * 0 = 0; rw [hi.1]
  | ⟨1, _⟩ => show win1_2.index t 1 * 2048 + 1 * p.val = t.val / 49 * 2048 + p.val; rw [hi.2]; omega

end Cert.KernelIdeal.Hand
end
-- ==== Proof.ValKI1.lean ====
import proofs.«423641_j4861902979196_1_alg».proof.Proof.FrameKI.Reg1Pieces
import proofs.«423641_j4861902979196_1_alg».proof.Proof.LayerSpec
import proofs.«423641_j4861902979196_1_alg».proof.Proof.ValKI1a
import proofs.«423641_j4861902979196_1_alg».proof.Proof.ValKI1b
import proofs.«423641_j4861902979196_1_alg».proof.Proof.ValKI1c
import Idealize.ShloMosaic.Lib.Pipeline.Value

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! # The messages the gather kernel leaves

Along one edge tile's 49 trips the accumulator's entry (p, q) gathers, tile by tile, the entry of the row that edge
p's source word names, found in exactly the tile the word's value lies in; after the last trip it is that row's entry
(zero when the word names no row), and the stored block is it times the edge's coefficient. The 831 stored blocks
tile the message array. -/

variable (V : (c : Dev nD) → (b : Ref sig .tc) → Buf (Elt Ideal) ((c : Thread nD τ).loc b))

/-- What point `n`'s trip adds at an entry: the named row's entry when the edge's source word lies in the trip's
    row tile, else zero. -/
def addend1 (c : Dev nD) (n : ℕ) (j : S2048x128.Idx) : EReal :=
  if (srcWord1 V c (n / 49) (j 0)).toNat / 2048 = n % 49 then
    Cert.Layer.rowAt (featArr1 V c) (srcWord1 V c (n / 49) (j 0)) (j 1)
  else 0

/-- One trip at an entry: the accumulator's entry plus the trip's addend. -/
theorem step1_apply (c : Dev nD) (t : Fin cfg1.N) (acc : Vec Ideal S2048x128 .f32) (j : S2048x128.Idx) :
    k1_pay2 (F := Ideal) (grid1.coords t) (srcBlk1 V c t) acc (featBlk1 V c t) j = acc j + addend1 V c t.val j := by
  obtain ⟨p, q, rfl⟩ : ∃ (p : Fin 2048) (q : Fin 128), j = ix2 p q := ⟨j 0, j 1, eq_ix2 j⟩
  refine (k1pay2_apply (grid1.coords t) (srcBlk1 V c t) acc (featBlk1 V c t) p q).trans ?_
  refine congrArg (fun x : EReal => acc (ix2 p q) + x) ?_
  rw [srcBlk1_apply V c t p]
  show _ = if (srcWord1 V c (t.val / 49) p).toNat / 2048 = t.val % 49 then
      Cert.Layer.rowAt (featArr1 V c) (srcWord1 V c (t.val / 49) p) q else 0
  exact tile1_term (featArr1 V c) (featBlk1 V c t) (t.val % 49) (Nat.mod_lt _ (by decide))
    (fun r q' => featBlk1_apply V c t r q') (srcWord1 V c (t.val / 49) p)
    (Scalar.muli (BitVec.ofNat 32 ((grid1.coords t) 1).val) 2048#32)
    (by rw [coords1_1 t]; exact tile1_base_toNat _ (Nat.mod_lt _ (by decide))) q

/-- The accumulator after the first trip of a run. -/
theorem acc1_first (c : Dev nD) (t : Fin cfg1.N) (h0 : t.val % 49 = 0) :
    (outsAt1 (F := Ideal) V c t.val t.isLt).2
      = k1_pay2 (F := Ideal) (grid1.coords t) (srcBlk1 V c t) (k1_pay1 (F := Ideal)) (featBlk1 V c t) := by
  have e := acc1_eq (F := Ideal) V c t
  rw [if_pos h0] at e
  exact e

/-- The accumulator after a later trip, from what the trip before left. -/
theorem acc1_next (c : Dev nD) (t : Fin cfg1.N) (h0 : ¬t.val % 49 = 0) :
    (outsAt1 (F := Ideal) V c t.val t.isLt).2
      = k1_pay2 (F := Ideal) (grid1.coords t) (srcBlk1 V c t)
          (outsAt1 (F := Ideal) V c (t.val - 1) (Nat.lt_of_le_of_lt (Nat.sub_le _ _) t.isLt)).2 (featBlk1 V c t) := by
  have e := acc1_eq (F := Ideal) V c t
  rw [if_neg h0] at e
  exact e

/-- The accumulator after point `t`, at an entry: the sum of the addends of the run's trips up to `t`. -/
theorem acc1_apply (c : Dev nD) (t : Fin cfg1.N) (j : S2048x128.Idx) :
    (outsAt1 (F := Ideal) V c t.val t.isLt).2 j
      = ∑ s ∈ Finset.range (t.val % 49 + 1), addend1 V c (49 * (t.val / 49) + s) j := by
  have hb : 49 * (t.val / 49) + t.val % 49 < cfg1.N := by rw [Nat.div_add_mod]; exact t.isLt
  refine (congrFun (Pipeline.eq_accAt_of_mod (fun n h => (outsAt1 (F := Ideal) V c n h).2) 49
    (fun n h => k1_pay2 (F := Ideal) (grid1.coords ⟨n, h⟩) (srcBlk1 V c ⟨n, h⟩) (k1_pay1 (F := Ideal)) (featBlk1 V c ⟨n, h⟩))
    (fun n h acc => k1_pay2 (F := Ideal) (grid1.coords ⟨n, h⟩) (srcBlk1 V c ⟨n, h⟩) acc (featBlk1 V c ⟨n, h⟩))
    (fun n h hm => acc1_first V c ⟨n, h⟩ hm) (fun n h hm => acc1_next V c ⟨n + 1, h⟩ hm) (by decide) t.val t.isLt hb) j).trans ?_
  refine (Pipeline.accAt_add_apply
    (fun n h => k1_pay2 (F := Ideal) (grid1.coords ⟨n, h⟩) (srcBlk1 V c ⟨n, h⟩) (k1_pay1 (F := Ideal)) (featBlk1 V c ⟨n, h⟩))
    (fun n h acc => k1_pay2 (F := Ideal) (grid1.coords ⟨n, h⟩) (srcBlk1 V c ⟨n, h⟩) acc (featBlk1 V c ⟨n, h⟩))
    (fun _ => (0 : EReal)) (addend1 V c) (49 * (t.val / 49)) 48
    (fun h i => (step1_apply V c ⟨49 * (t.val / 49), h⟩ (k1_pay1 (F := Ideal)) i).trans
      (congrArg (fun x : EReal => x + addend1 V c (49 * (t.val / 49)) i) (k1pay1_apply i)))
    (fun n h acc i _ _ => step1_apply V c ⟨n, h⟩ acc i)
    (t.val % 49) (by have := Nat.mod_lt t.val (show 0 < 49 by decide); omega) hb j).trans ?_
  exact zero_add _

/-- After the last trip of a run the accumulator's entry (p, q) is the entry of the row edge p's source word names. -/
theorem acc1_last (c : Dev nD) (t : Fin cfg1.N) (h48 : t.val % 49 = 48) (p : Fin 2048) (q : Fin 128) :
    (outsAt1 (F := Ideal) V c t.val t.isLt).2 (ix2 p q)
      = Cert.Layer.rowAt (featArr1 V c) (srcWord1 V c (t.val / 49) p) q := by
  rw [acc1_apply V c t (ix2 p q), h48]
  refine Eq.trans (Finset.sum_congr rfl fun s hs => ?_) (sum_tiles1_rowAt (featArr1 V c) (srcWord1 V c (t.val / 49) p) q)
  have hs' : s < 49 := Finset.mem_range.1 hs
  show (if (srcWord1 V c ((49 * (t.val / 49) + s) / 49) p).toNat / 2048 = (49 * (t.val / 49) + s) % 49 then
      Cert.Layer.rowAt (featArr1 V c) (srcWord1 V c ((49 * (t.val / 49) + s) / 49) p) q else 0) = _
  rw [show (49 * (t.val / 49) + s) / 49 = t.val / 49 from by omega,
    show (49 * (t.val / 49) + s) % 49 = s from by omega]

/-- The message array: per edge, the named row's features times the edge's coefficient. -/
abbrev msgArr1 (c : Dev nD) : (⟨2, ![1701888, 128]⟩ : Shape).Idx → EReal :=
  Cert.Layer.msgs (featArr1 V c) (srcArr1 V c) (coefArr1 V c)

/-- The block stored at the last trip of edge tile `t / 49`'s run, entry by entry. -/
theorem out1_apply (c : Dev nD) (t : Fin cfg1.N) (h48 : t.val % 49 = 48) (p : Fin 2048) (q : Fin 128)
    (he : t.val / 49 * 2048 + p.val < 1701888) :
    (outsAt1 (F := Ideal) V c t.val t.isLt).1 (ix2 p q) = msgArr1 V c (ix2 (⟨t.val / 49 * 2048 + p.val, he⟩ : Fin 1701888) q) := by
  have ht : t.val < 40719 := lt_of_lt_of_eq t.isLt N_1
  have hlt : t.val / 49 < 831 := by omega
  rw [out1_eq (F := Ideal) V c t h48]
  refine (k1pay3_apply (coefBlk1 V c t) (outsAt1 (F := Ideal) V c t.val t.isLt).2 p q).trans ?_
  rw [acc1_last V c t h48 p q, coefBlk1_apply V c t p]
  refine Eq.trans ?_ (Cert.Layer.msgs_apply (featArr1 V c) (srcArr1 V c) (coefArr1 V c) (⟨t.val / 49 * 2048 + p.val, he⟩ : Fin 1701888) q).symm
  unfold srcWord1 coefAt1
  rw [dif_pos hlt, dif_pos hlt]

/-- What the last trip of a run writes back is its block of the message array. -/
theorem flushed1_eq (c : Dev nD) (t : Fin cfg1.N) (hf : (cfg1.win 3).flush t = true) :
    (dat1 (F := Ideal) V c).flushed 3 t = ((cfg1.win 3).blk t).view.read (Elt Ideal) (msgArr1 V c) := by
  have h48 : t.val % 49 = 48 := (flush1_3 t).mp hf
  have ht : t.val < 40719 := lt_of_lt_of_eq t.isLt N_1
  have hi := index1_3 t
  show (cfg1.win 3).cut (grid1.coords t) ((dat1 (F := Ideal) V c).after 3 t) = _
  rw [after1_3]
  funext y
  have hy0 : (y 0).val < 2048 := (y 0).isLt
  have hy1 : (y 1).val < 128 := (y 1).isLt
  have he : t.val / 49 * 2048 + (y 0).val < 1701888 := by omega
  refine Eq.trans (b := (outsAt1 (F := Ideal) V c t.val t.isLt).1 (ix2 (⟨(y 0).val, hy0⟩ : Fin 2048) (⟨(y 1).val, hy1⟩ : Fin 128))) ?_ ?_
  · show (outsAt1 (F := Ideal) V c t.val t.isLt).1 _ = _
    refine congrArg (outsAt1 (F := Ideal) V c t.val t.isLt).1 (funext fun a => Fin.ext ?_)
    match a with
    | ⟨0, _⟩ => rfl
    | ⟨1, _⟩ => rfl
  · rw [out1_apply V c t h48 ⟨(y 0).val, hy0⟩ ⟨(y 1).val, hy1⟩ he, View.read_apply]
    show msgArr1 V c _ = msgArr1 V c _
    refine congrArg (msgArr1 V c) (funext fun a => Fin.ext ?_)
    match a with
    | ⟨0, _⟩ => show t.val / 49 * 2048 + (y 0).val = win1_3.index t 0 * 2048 + 1 * (y 0).val; rw [hi.1]; omega
    | ⟨1, _⟩ => show (y 1).val = win1_3.index t 1 * 128 + 1 * (y 1).val; rw [hi.2]; omega

/-- Every entry of the message array lies in the block some run's last trip writes back. -/
theorem cover1 (i : S1701888x128.Idx) :
    ∃ t : Fin cfg1.N, (cfg1.win 3).flush t = true ∧ i ∈ ((cfg1.win 3).blk t).view.set := by
  have h0 : (i 0).val < 1701888 := (i 0).isLt
  have h1 : (i 1).val < 128 := (i 1).isLt
  have hlt : 49 * ((i 0).val / 2048) + 48 < cfg1.N := by rw [npoints1]; omega
  have hi := index1_3 ⟨49 * ((i 0).val / 2048) + 48, hlt⟩
  have hd : (49 * ((i 0).val / 2048) + 48) / 49 = (i 0).val / 2048 := by omega
  refine ⟨⟨49 * ((i 0).val / 2048) + 48, hlt⟩, (flush1_3 _).mpr (by show (49 * ((i 0).val / 2048) + 48) % 49 = 48; omega), ?_⟩
  show i ∈ ((View.whole main_v40).slice (win1_3.rect ⟨49 * ((i 0).val / 2048) + 48, hlt⟩)).set
  rw [View.set_slice_whole, Rect.mem_set_unit]
  intro a
  match a with
  | ⟨0, _⟩ =>
    show win1_3.index ⟨49 * ((i 0).val / 2048) + 48, hlt⟩ 0 * 2048 ≤ (i 0).val
      ∧ (i 0).val < win1_3.index ⟨49 * ((i 0).val / 2048) + 48, hlt⟩ 0 * 2048 + 2048
    rw [hi.1]
    show (49 * ((i 0).val / 2048) + 48) / 49 * 2048 ≤ (i 0).val ∧ (i 0).val < (49 * ((i 0).val / 2048) + 48) / 49 * 2048 + 2048
    rw [hd]; omega
  | ⟨1, _⟩ =>
    show win1_3.index ⟨49 * ((i 0).val / 2048) + 48, hlt⟩ 1 * 128 ≤ (i 1).val
      ∧ (i 1).val < win1_3.index ⟨49 * ((i 0).val / 2048) + 48, hlt⟩ 1 * 128 + 128
    rw [hi.2]; omega

/-- After the run the message array holds, at (e, q), the transformed features of the row edge e's source word names (nothing if it names none) scaled by the edge's coefficient. -/
theorem final1 (c : Dev nD) :
    (dat1 (F := Ideal) V c).arrAt 3 cfg1.N = Cert.Layer.msgs (V c main_v33) (V c main_v35) (V c main_v39) :=
  (dat1 (F := Ideal) V c).arrAt_eq_of_cover 3 (msgArr1 V c) (flushed1_eq V c) cover1

end Cert.KernelIdeal.Hand
end
-- ==== Proof.FrameKI.Reg2Pieces.lean ====
import proofs.«423641_j4861902979196_1_alg».proof.Proof.FrameKI.Reg2
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: what the found pieces are — each trip's accumulator and the last trip's output block as the kernel's
    arithmetic over the point's blocks -/

/-- The stores and loads of this kernel all go through the whole-buffer rectangle at offsets `![0, 0]`, which are zeros. -/
theorem hz2 : (![0, 0] : Fin 2 → Nat) = fun _ => 0 := funext fun a => by fin_cases a <;> rfl

/-- A FIRST TRIP leaves in the accumulator this tile's one-hot product added to zeros: the reset's store is read back
    by the update's load, and the update's store, the later of the two covering ones, is what stays. -/
theorem sacc2_A (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S2048x128 .f32) (x1 : Vec F S1x2048 .i32) (x2 : Vec F S1x128 .f32) :
    sout2_A_0 c i arg2 harg2 arg3 harg3 arg4 harg4 arg5 harg5 arg6 harg6 hc0 hc1 x0 x1 x2 = k2_pay2 i x1 x0 k2_pay1 := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  sl_unfold_words
  rw [View.canon_cons_unit_zero (S := S2048x128) hz2, View.readCov_unit_zero (S := S2048x128) _ hz2]
  simp only [View.readAt_eq_ld, harg2.read_unread, harg3.read_unread, harg4.read_unread, harg6.read_unread,
    View.ld_unit_zero (S := S2048x128) hz2, View.ld_unit_zero (S := S1x2048) hz2, View.ld_unit_zero (S := S1x128) hz2]

/-- A MIDDLE TRIP leaves in the accumulator this tile's one-hot product added to what it found there. -/
theorem sacc2_B (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S2048x128 .f32) (x1 : Vec F S1x2048 .i32) (x2 : Vec F S1x128 .f32) (xs0 : Vec F S2048x128 .f32) :
    sout2_B_0 c i arg2 harg2 arg3 harg3 arg4 harg4 arg5 harg5 arg6 harg6 hc0 hc1 x0 x1 x2 xs0 = k2_pay2 i x1 x0 xs0 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  sl_unfold_words
  rw [View.canon_unit_zero hz2]
  simp only [View.readAt_eq_ld, harg2.read_unread, harg3.read_unread, harg4.read_unread, harg6.read_unread,
    View.ld_unit_zero (S := S2048x128) hz2, View.ld_unit_zero (S := S1x2048) hz2, View.ld_unit_zero (S := S1x128) hz2]

/-- THE LAST TRIP leaves in the accumulator the same: its product added to what it found. -/
theorem sacc2_C (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S2048x128 .f32) (x1 : Vec F S1x2048 .i32) (x2 : Vec F S1x128 .f32) (xs0 : Vec F S2048x128 .f32) :
    sout2_C_0 c i arg2 harg2 arg3 harg3 arg4 harg4 arg5 harg5 arg6 harg6 hc0 hc1 x0 x1 x2 xs0 = k2_pay2 i x1 x0 xs0 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  sl_unfold_words
  rw [View.canon_unit_zero hz2]
  simp only [View.readAt_eq_ld, harg2.read_unread, harg3.read_unread, harg4.read_unread, harg6.read_unread,
    View.ld_unit_zero (S := S2048x128) hz2, View.ld_unit_zero (S := S1x2048) hz2, View.ld_unit_zero (S := S1x128) hz2]

/-- And in the output block's buffer the finished accumulator — read back after the update's store — plus the bias
    row, clamped below at zero. -/
theorem sout2_C (c : Dev nD) (i : grid2.Coords) (arg2 : Memref sig .tc .vmem S2048x128 .f32) (harg2 : arg2.IsWhole) (arg3 : Memref sig .tc .vmem S1x2048 .i32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S2048x128 .f32) (x1 : Vec F S1x2048 .i32) (x2 : Vec F S1x128 .f32) (xs0 : Vec F S2048x128 .f32) :
    out2_C_3 c i arg2 harg2 arg3 harg3 arg4 harg4 arg5 harg5 arg6 harg6 hc0 hc1 x0 x1 x2 xs0 = k2_pay3 (k2_pay2 i x1 x0 xs0) x2 := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  sl_unfold_words
  rw [View.canon_unit_zero hz2]
  simp only [View.readAt_eq_ld, harg2.read_unread, harg3.read_unread, harg4.read_unread, harg6.read_unread,
    View.readCov_unit_zero (S := S2048x128) _ hz2,
    View.ld_unit_zero (S := S2048x128) hz2, View.ld_unit_zero (S := S1x2048) hz2, View.ld_unit_zero (S := S1x128) hz2]

/-! ## Point by point -/

/-- The accumulator after point `t`: this trip's one-hot product added to zeros (first trip of a reduction run) or to what the trip before left. -/
theorem acc2_eq (c : Dev nD) (t : Fin cfg2.N) :
    (outsAt2 V c t.val t.isLt).2 = k2_pay2 (grid2.coords t) (iblk2 V c 1 t) (iblk2 V c 0 t) (if t.val % 831 = 0 then k2_pay1 else (outsAt2 V c (t.val - 1) (Nat.lt_of_le_of_lt (Nat.sub_le _ _) t.isLt)).2) := by
  by_cases h0 : t.val % 831 = 0
  · have h1 : ¬t.val % 831 = 830 := by omega
    rw [outsAt2_A V c t h0 h1, if_pos h0]; dsimp only
    exact sacc2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)
  · rw [if_neg h0]
    by_cases h1 : t.val % 831 = 830
    · rw [outsAt2_C V c t h0 h1]; dsimp only
      exact sacc2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2
    · rw [outsAt2_B V c t h0 h1]; dsimp only
      exact sacc2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2

/-- At the last trip of a run the output block is the payload of the final store over the finished accumulator. -/
theorem out2_eq (c : Dev nD) (t : Fin cfg2.N) (h : t.val % 831 = 830) :
    (outsAt2 V c t.val t.isLt).1 = k2_pay3 (outsAt2 V c t.val t.isLt).2 (iblk2 V c 2 t) := by
  have h0 : ¬t.val % 831 = 0 := by omega
  rw [outsAt2_C V c t h0 h]; dsimp only
  rw [sacc2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h) (iblk2 V c 0 t) (iblk2 V c 1 t) (iblk2 V c 2 t) (outsAt2 V c (t.val - 1) (Nat.lt_of_le_of_lt (Nat.sub_le _ _) t.isLt)).2]
  exact sout2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h) (iblk2 V c 0 t) (iblk2 V c 1 t) (iblk2 V c 2 t) (outsAt2 V c (t.val - 1) (Nat.lt_of_le_of_lt (Nat.sub_le _ _) t.isLt)).2

end Cert.KernelIdeal.Hand

end
-- ==== Proof.ValKI2a.lean ====
import proofs.«423641_j4861902979196_1_alg».proof.Proof.Gen.KernelIdeal.Skeleton
import proofs.«423641_j4861902979196_1_alg».proof.Proof.LibDotRead
import proofs.«423641_j4861902979196_1_alg».proof.Proof.LibSumLemmas
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe
open Idealize.ShloMosaic.ValueIdx
open Cert.KernelIdeal Cert.KernelIdeal.Gen

/-! # The three blocks the scatter-add kernel stores, read at an index (extended reals)

The reset block is zero. The accumulating step adds, at (p, q), the messages of the tile's edges whose target word,
less the first row number of the row tile, is p. The final block is the accumulator plus the bias row, clipped at zero. -/

/-- The reset block is zero everywhere. -/
theorem k2pay1_apply (j : S2048x128.Idx) : k2_pay1 (F := Ideal) j = 0 := by
  unfold k2_pay1
  rw [shapeCast_self]
  show Ideal.ofBits .f32 0x00000000#32 = 0
  exact Ideal.ofBits_zero_f32

/-- For a row tile i0 < 49 and a row p < 2048 of it, the lane word p equals a target word less the word of the
    tile's first row number exactly when the target word's value is i0 * 2048 + p. -/
theorem hot2_iff {i0 p : ℕ} (hi0 : i0 < 49) (hp : p < 2048) (s : BitVec 32) :
    BitVec.ofNat 32 p = s - Scalar.muli (BitVec.ofNat 32 i0) 2048#32 ↔ s.toNat = i0 * 2048 + p := by
  have hs := s.isLt
  rw [← BitVec.toNat_inj]
  show (BitVec.ofNat 32 p).toNat = (s - BitVec.ofNat 32 i0 * BitVec.ofNat 32 2048).toNat ↔ _
  rw [BitVec.toNat_sub, BitVec.toNat_mul, BitVec.toNat_ofNat, BitVec.toNat_ofNat, BitVec.toNat_ofNat]
  omega

/-- The equality test of the one-hot operand at (p, r): the lane index p along the rows against target word r
    of the tile, less the word k. -/
theorem hot2_apply (tg : IVec S1x2048 32) (k : BitVec 32) (p r : Fin 2048) :
    (cmpi .eq (iota .tc S2048x2048 32 [0] iota_S2048x2048_d0_w32)
      (broadcastTo S2048x2048 (shapeCast S1x2048 (subi (shapeCast S2048 tg shapeCasts_S1x2048_S2048) (broadcast S2048 k))
        shapeCasts_S2048_S1x2048) broadcasts_S1x2048_S2048x2048)) (ix2 p r)
      = IntOp.cmpi .eq (BitVec.ofNat 32 p.val) (tg (ix2 0 r) - k) := by
  show IntOp.cmpi .eq (iota .tc S2048x2048 32 [0] iota_S2048x2048_d0_w32 (ix2 p r))
    (broadcastTo S2048x2048 (shapeCast S1x2048 (subi (shapeCast S2048 tg shapeCasts_S1x2048_S2048) (broadcast S2048 k))
        shapeCasts_S2048_S1x2048) broadcasts_S1x2048_S2048x2048 (ix2 p r)) = _
  rw [iota_single_apply, broadcastTo_1b_ab_apply, shapeCast_a_1a_apply]
  show IntOp.cmpi .eq _ (IntOp.subi (shapeCast S2048 tg shapeCasts_S1x2048_S2048 (ix1 r)) k) = _
  rw [shapeCast_1a_a_apply]
  rfl

/-- The one-hot operand at (p, r), an extended real: 1 when target word r of the tile, less the word k, is the lane
    index p, else 0. -/
theorem onehot2_apply (tg : IVec S1x2048 32) (k : BitVec 32) (p r : Fin 2048) :
    (truncf .bf16 (sitofp (F := Ideal) .f32 (extui 32 (cmpi .eq (iota .tc S2048x2048 32 [0] iota_S2048x2048_d0_w32)
      (broadcastTo S2048x2048 (shapeCast S1x2048 (subi (shapeCast S2048 tg shapeCasts_S1x2048_S2048) (broadcast S2048 k))
        shapeCasts_S2048_S1x2048) broadcasts_S1x2048_S2048x2048)) natLt_1_32)) bitsLt_bf16_f32 : FVec Ideal S2048x2048 .bf16) (ix2 p r)
      = if BitVec.ofNat 32 p.val = tg (ix2 0 r) - k then (1 : EReal) else 0 := by
  show (FloatOps.sitofp (F := Ideal) .f32 (((cmpi .eq (iota .tc S2048x2048 32 [0] iota_S2048x2048_d0_w32)
      (broadcastTo S2048x2048 (shapeCast S1x2048 (subi (shapeCast S2048 tg shapeCasts_S1x2048_S2048) (broadcast S2048 k))
        shapeCasts_S2048_S1x2048) broadcasts_S1x2048_S2048x2048)) (ix2 p r)).setWidth 32) : EReal) = _
  rw [hot2_apply]
  exact Cert.SumLemmas.oneHot_word _ _

/-- The accumulating step at (p, q), for row tile i0 = the point's first coordinate: the accumulator there plus the
    messages (column q) of the tile's edges whose target word's value is i0 * 2048 + p. -/
theorem k2pay2_apply (i : grid2.Coords) (tg : Vec Ideal S1x2048 .i32) (ms acc : Vec Ideal S2048x128 .f32) (p : Fin 2048) (q : Fin 128) :
    k2_pay2 (F := Ideal) i tg ms acc (ix2 p q)
      = acc (ix2 p q) + ∑ r : Fin 2048, if (tg (ix2 0 r)).toNat = (i 0).val * 2048 + p.val then ms (ix2 r q) else 0 := by
  unfold k2_pay2
  simp only [shapeCast_self]
  show acc (ix2 p q) + FloatOps.matmul (F := Ideal) (φ₁ := .bf16) (φ₂ := .bf16) dot_S2048x2048_S2048x128_S2048x128_1_0_0_1_n_n none
      (truncf .bf16 (sitofp (F := Ideal) .f32 (extui 32 (cmpi .eq (iota .tc S2048x2048 32 [0] iota_S2048x2048_d0_w32)
        (broadcastTo S2048x2048 (shapeCast S1x2048 (subi (shapeCast S2048 (tg : IVec S1x2048 32) shapeCasts_S1x2048_S2048)
          (broadcast S2048 (Scalar.muli (BitVec.ofNat 32 (i 0).val) 2048#32)))
        shapeCasts_S2048_S1x2048) broadcasts_S1x2048_S2048x2048)) natLt_1_32)) bitsLt_bf16_f32 : FVec Ideal S2048x2048 .bf16)
      (truncf .bf16 (ms : FVec Ideal S2048x128 .f32) bitsLt_bf16_f32 : FVec Ideal S2048x128 .bf16)
      (constant S2048x128 .f32 0x00000000#32) (ix2 p q) = _
  rw [Ideal.matmul_constant_zero_apply]
  refine congrArg (acc (ix2 p q) + ·) ?_
  refine (Cert.DotRead.sum_contr_plain dot_S2048x2048_S2048x128_S2048x128_1_0_0_1_n_n_wf _ _ p q).trans ?_
  refine Finset.sum_congr rfl fun r _ => ?_
  rw [onehot2_apply, Cert.SumLemmas.ite_one_zero_mul]
  have hi0 : (i 0).val < 49 := (i 0).isLt
  exact if_congr (hot2_iff hi0 p.isLt _) rfl rfl

/-- The final block at (p, q): the accumulator there plus the bias at column q, clipped at zero. -/
theorem k2pay3_apply (acc : Vec Ideal S2048x128 .f32) (b : Vec Ideal S1x128 .f32) (p : Fin 2048) (q : Fin 128) :
    k2_pay3 (F := Ideal) acc b (ix2 p q) = max (acc (ix2 p q) + b (ix2 0 q)) 0 := by
  unfold k2_pay3
  show max (acc (ix2 p q) + broadcastTo S2048x128 (shapeCast S1x128 (b : FVec Ideal S1x128 .f32) shapeCasts_S1x128_S1x128) broadcasts_S1x128_S2048x128 (ix2 p q))
    (Ideal.ofBits .f32 0x00000000#32) = _
  rw [broadcastTo_1b_ab_apply, shapeCast_self, Ideal.ofBits_zero_f32]

end Cert.KernelIdeal.Hand

end
-- ==== Proof.ValKI2.lean ====
import proofs.«423641_j4861902979196_1_alg».proof.Proof.FrameKI.Reg2Pieces
import proofs.«423641_j4861902979196_1_alg».proof.Proof.ValKI2a
import proofs.«423641_j4861902979196_1_alg».proof.Proof.LayerSpec
import proofs.«423641_j4861902979196_1_alg».proof.Proof.LibSumLemmas
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe
open Idealize.ShloMosaic.ValueIdx
open Idealize.SL Idealize.SL.Sem
open Idealize.ShloMosaic.Rounds
open Idealize.ShloMosaic.Pipeline (Dat Cfg Window)
open Cert.KernelIdeal Cert.KernelIdeal.Gen

/-! # The value of the scatter-add kernel's output array

Each output row tile's block is written back once, after the last of the 831 edge tiles of its reduction run; what
is written there is the sum over the run of the tiles' one-hot products, plus the bias, clipped at zero. Re-indexed by
the edge (edge tile times 2048 plus the position in the tile) the run's double sum is one sum over all edges: the
aggregate of the layer. -/

variable (V : (c : Dev nD) → (b : Ref sig .tc) → Buf (Elt Ideal) ((c : Thread nD τ).loc b))

/-! ## A point's coordinates and where its blocks sit

The grid is 49 row tiles by 831 edge tiles, the edge tiles innermost: point t has row tile t / 831 and edge tile t % 831. -/

theorem coords2_0 (t : Fin cfg2.N) : (grid2.coords t 0).val = t.val / 831 := by
  have ht : t.val < 40719 := lt_of_lt_of_eq t.isLt N_2
  show t.val / grid2.stride 0 % grid2.bound 0 = _
  rw [show grid2.stride 0 = 831 from by decide, show grid2.bound 0 = 49 from rfl]
  omega

theorem coords2_1 (t : Fin cfg2.N) : (grid2.coords t 1).val = t.val % 831 := by
  show t.val / grid2.stride 1 % grid2.bound 1 = _
  rw [show grid2.stride 1 = 1 from by decide, show grid2.bound 1 = 831 from rfl]
  omega

/-- The messages' block index: (edge tile, 0). -/
theorem index2_0 (t : Fin cfg2.N) : win2_0.index t 0 = t.val % 831 ∧ win2_0.index t 1 = 0 := by
  refine ⟨?_, rfl⟩
  show (BitVec.ofNat 32 (grid2.coords t 1).val).toNat = _
  rw [BitVec.toNat_ofNat, coords2_1]
  omega

/-- The target words' block index: (0, edge tile). -/
theorem index2_1 (t : Fin cfg2.N) : win2_1.index t 0 = 0 ∧ win2_1.index t 1 = t.val % 831 := by
  refine ⟨rfl, ?_⟩
  show (BitVec.ofNat 32 (grid2.coords t 1).val).toNat = _
  rw [BitVec.toNat_ofNat, coords2_1]
  omega

/-- The bias is one block. -/
theorem index2_2 (t : Fin cfg2.N) : win2_2.index t 0 = 0 ∧ win2_2.index t 1 = 0 := ⟨rfl, rfl⟩

/-- The output's block index: (row tile, 0). -/
theorem index2_3 (t : Fin cfg2.N) : win2_3.index t 0 = t.val / 831 ∧ win2_3.index t 1 = 0 := by
  refine ⟨?_, rfl⟩
  have ht : t.val < 40719 := lt_of_lt_of_eq t.isLt N_2
  show (BitVec.ofNat 32 (grid2.coords t 0).val).toNat = _
  rw [BitVec.toNat_ofNat, coords2_0]
  omega

/-- The blocks of a point and the arrays they are blocks of, at their literal types. -/
abbrev msgBlk2 (c : Dev nD) (t : Fin cfg2.N) : Vec Ideal S2048x128 .f32 := iblk2 V c 0 t
abbrev tgtBlk2 (c : Dev nD) (t : Fin cfg2.N) : Vec Ideal S1x2048 .i32 := iblk2 V c 1 t
abbrev biasBlk2 (c : Dev nD) (t : Fin cfg2.N) : Vec Ideal S1x128 .f32 := iblk2 V c 2 t
abbrev msgArr2 (c : Dev nD) : Vec Ideal S1701888x128 .f32 := V c main_v40
abbrev tgtArr2 (c : Dev nD) : Vec Ideal S1x1701888 .i32 := V c main_v37
abbrev biasArr2 (c : Dev nD) : Vec Ideal S1x128 .f32 := V c main_v41

/-- Edge r of the edge tile of point number n. -/
def edgeAt2 (n : ℕ) (r : Fin 2048) : Fin 1701888 := ⟨(n % 831) * 2048 + r.val, by
  have h1 : n % 831 < 831 := Nat.mod_lt _ (by decide)
  have h2 := r.isLt
  omega⟩

/-- The messages' block at a point reads the messages of the point's edge tile. -/
theorem msgBlk2_apply (c : Dev nD) (t : Fin cfg2.N) (r : Fin 2048) (q : Fin 128) :
    msgBlk2 V c t (ix2 r q) = msgArr2 V c (ix2 (edgeAt2 t.val r) q) := by
  show ((cfg2.win 0).blk t).view.read (Elt Ideal) (V c main_v40) (ix2 r q) = V c main_v40 (ix2 (edgeAt2 t.val r) q)
  rw [View.read_apply]
  show V c main_v40 _ = V c main_v40 _
  congr 1
  funext a
  apply Fin.ext
  match a with
  | ⟨0, _⟩ => show win2_0.index t 0 * 2048 + 1 * r.val = (t.val % 831) * 2048 + r.val; rw [(index2_0 t).1]; omega
  | ⟨1, _⟩ => show win2_0.index t 1 * 128 + 1 * q.val = q.val; rw [(index2_0 t).2]; omega

/-- The target words' block at a point reads the target words of the point's edge tile. -/
theorem tgtBlk2_apply (c : Dev nD) (t : Fin cfg2.N) (r : Fin 2048) :
    tgtBlk2 V c t (ix2 0 r) = tgtArr2 V c (ix2 0 (edgeAt2 t.val r)) := by
  show ((cfg2.win 1).blk t).view.read (Elt Ideal) (V c main_v37) (ix2 0 r) = V c main_v37 (ix2 0 (edgeAt2 t.val r))
  rw [View.read_apply]
  show V c main_v37 _ = V c main_v37 _
  congr 1
  funext a
  apply Fin.ext
  match a with
  | ⟨0, _⟩ => show win2_1.index t 0 * 1 + 1 * 0 = 0; rw [(index2_1 t).1]
  | ⟨1, _⟩ => show win2_1.index t 1 * 2048 + 1 * r.val = (t.val % 831) * 2048 + r.val; rw [(index2_1 t).2]; omega

/-- The bias block at a point is the bias. -/
theorem biasBlk2_apply (c : Dev nD) (t : Fin cfg2.N) (q : Fin 128) :
    biasBlk2 V c t (ix2 0 q) = biasArr2 V c (ix2 0 q) := by
  show ((cfg2.win 2).blk t).view.read (Elt Ideal) (V c main_v41) (ix2 0 q) = V c main_v41 (ix2 0 q)
  rw [View.read_apply]
  show V c main_v41 _ = V c main_v41 _
  congr 1
  funext a
  apply Fin.ext
  match a with
  | ⟨0, _⟩ => show win2_2.index t 0 * 1 + 1 * 0 = 0; rw [(index2_2 t).1]
  | ⟨1, _⟩ => show win2_2.index t 1 * 128 + 1 * q.val = q.val; rw [(index2_2 t).2]; omega

/-! ## The accumulator over a reduction run

At the first trip of a run the accumulator is the step over zeros, at each later trip the step over what the trip
before left: after the last trip it is the sum of the run's addends. -/

/-- What point number n adds at an index (p, q): the messages, column q, of the edges of n's edge tile whose target
    word's value is row p of n's row tile. -/
def addend2 (c : Dev nD) (n : ℕ) (i : S2048x128.Idx) : EReal :=
  ∑ r : Fin 2048, if (tgtArr2 V c (ix2 0 (edgeAt2 n r))).toNat = (n / 831) * 2048 + (i 0).val
    then msgArr2 V c (ix2 (edgeAt2 n r) (i 1)) else 0

/-- The step at a point over an accumulator, at an index: the accumulator there plus the point's addend. -/
theorem step2_apply (c : Dev nD) (t : Fin cfg2.N) (acc : Vec Ideal S2048x128 .f32) (i : S2048x128.Idx) :
    k2_pay2 (F := Ideal) (grid2.coords t) (tgtBlk2 V c t) (msgBlk2 V c t) acc i = acc i + addend2 V c t.val i := by
  obtain ⟨p, q, rfl⟩ : ∃ (p : Fin 2048) (q : Fin 128), i = ix2 p q := ⟨i 0, i 1, eq_ix2 i⟩
  refine (k2pay2_apply (grid2.coords t) (tgtBlk2 V c t) (msgBlk2 V c t) acc p q).trans ?_
  refine congrArg (acc (ix2 p q) + ·) ?_
  unfold addend2
  refine Finset.sum_congr rfl fun r _ => ?_
  rw [tgtBlk2_apply, msgBlk2_apply, coords2_0] <;> rfl

/-- The first trip's value and a later trip's step, per point number. -/
abbrev reset2 (c : Dev nD) : (n : ℕ) → n < cfg2.N → S2048x128.Idx → EReal :=
  fun n h => k2_pay2 (F := Ideal) (grid2.coords ⟨n, h⟩) (tgtBlk2 V c ⟨n, h⟩) (msgBlk2 V c ⟨n, h⟩) (k2_pay1 (F := Ideal))
abbrev stepOf2 (c : Dev nD) : (n : ℕ) → n < cfg2.N → (S2048x128.Idx → EReal) → S2048x128.Idx → EReal :=
  fun n h acc => k2_pay2 (F := Ideal) (grid2.coords ⟨n, h⟩) (tgtBlk2 V c ⟨n, h⟩) (msgBlk2 V c ⟨n, h⟩) acc

/-- The accumulator after a point is the fold of the point's reduction run up to it. -/
theorem acc2_fold (c : Dev nD) (t : Fin cfg2.N) (h' : 831 * (t.val / 831) + t.val % 831 < cfg2.N) :
    ((outsAt2 V c t.val t.isLt).2 : S2048x128.Idx → EReal)
      = Pipeline.accAt (N := cfg2.N) (reset2 V c) (stepOf2 V c) (831 * (t.val / 831)) (t.val % 831) h' := by
  refine Pipeline.eq_accAt_of_mod (N := cfg2.N) (fun n h => ((outsAt2 V c n h).2 : S2048x128.Idx → EReal)) 831
    (reset2 V c) (stepOf2 V c) ?_ ?_ (by decide) t.val t.isLt h'
  · intro n h hm
    have e := acc2_eq V c ⟨n, h⟩
    rw [if_pos hm] at e
    exact e
  · intro n h hm
    have e := acc2_eq V c ⟨n + 1, h⟩
    rw [if_neg hm] at e
    exact e

/-- After the last trip of a run the accumulator is the sum of the run's 831 addends. -/
theorem acc2_sum (c : Dev nD) (t : Fin cfg2.N) (ht : t.val % 831 = 830) (i : S2048x128.Idx) :
    ((outsAt2 V c t.val t.isLt).2 : S2048x128.Idx → EReal) i
      = ∑ s ∈ Finset.range 831, addend2 V c (831 * (t.val / 831) + s) i := by
  have h' : 831 * (t.val / 831) + t.val % 831 < cfg2.N := by rw [Nat.div_add_mod]; exact t.isLt
  rw [acc2_fold V c t h']
  have key := Pipeline.accAt_add_apply (N := cfg2.N) (ι := S2048x128.Idx) (β := EReal) (reset2 V c) (stepOf2 V c)
    (fun _ => (0 : EReal)) (fun n i => addend2 V c n i) (831 * (t.val / 831)) 830
    (fun h i => by
      show k2_pay2 (F := Ideal) _ _ _ (k2_pay1 (F := Ideal)) i = 0 + addend2 V c _ i
      rw [step2_apply V c ⟨831 * (t.val / 831), h⟩ (k2_pay1 (F := Ideal)) i, k2pay1_apply])
    (fun n h acc i _ _ => step2_apply V c ⟨n, h⟩ acc i)
    (t.val % 831) (by omega) h' i
  refine key.trans ?_
  show (0 : EReal) + ∑ s ∈ Finset.range (t.val % 831 + 1), addend2 V c (831 * (t.val / 831) + s) i = _
  rw [ht, zero_add] <;> rfl

/-- The addends of row tile i0's run together: every edge whose target word's value is row p of the tile, once. -/
theorem sum_addend2 (c : Dev nD) (i0 : ℕ) (i : S2048x128.Idx) :
    ∑ s ∈ Finset.range 831, addend2 V c (831 * i0 + s) i
      = ∑ e : Fin 1701888, if (tgtArr2 V c (ix2 0 e)).toNat = i0 * 2048 + (i 0).val then msgArr2 V c (ix2 e (i 1)) else 0 := by
  have hq : ∀ s : Fin 831, (831 * i0 + s.val) / 831 = i0 := fun s => by have := s.isLt; omega
  have key := Cert.SumLemmas.sum_blocks (M := EReal) (nb := 831) (bs := 2048) (m := 1701888) (N := 1701888) (by norm_num) le_rfl
    (fun e => if (tgtArr2 V c (ix2 0 e)).toNat = i0 * 2048 + (i 0).val then msgArr2 V c (ix2 e (i 1)) else 0)
    (fun e he => absurd e.isLt (Nat.not_lt.2 he)) (fun s r => edgeAt2 (831 * i0 + s.val) r)
    (fun s r => by
      show (831 * i0 + s.val) % 831 * 2048 + r.val = 2048 * s.val + r.val
      have := s.isLt
      omega)
  rw [Finset.sum_range]
  refine Eq.trans ?_ (key.trans (Finset.sum_congr rfl fun e _ => rfl))
  refine Finset.sum_congr rfl fun s _ => ?_
  unfold addend2
  refine Finset.sum_congr rfl fun r _ => ?_
  rw [hq s] <;> rfl

/-! ## The output block, and from blocks to the array -/

/-- The aggregate of the arrays the region finds. -/
abbrev aggrArr2 (c : Dev nD) : (⟨2, ![100352, 128]⟩ : Shape).Idx → EReal :=
  Cert.Layer.aggr (R := 100352) (msgArr2 V c) (tgtArr2 V c) (biasArr2 V c)

/-- What a last trip leaves in the output's block at (p, q) is the aggregate at row p of the point's row tile. -/
theorem out2_apply (c : Dev nD) (t : Fin cfg2.N) (ht : t.val % 831 = 830) (p : Fin 2048) (q : Fin 128)
    (n : Fin 100352) (hn : n.val = (t.val / 831) * 2048 + p.val) :
    ((outsAt2 V c t.val t.isLt).1 : S2048x128.Idx → EReal) (ix2 p q) = aggrArr2 V c (ix2 n q) := by
  rw [out2_eq V c t ht]
  refine (k2pay3_apply (outsAt2 V c t.val t.isLt).2 (biasBlk2 V c t) p q).trans ?_
  rw [acc2_sum V c t ht (ix2 p q), sum_addend2 V c (t.val / 831) (ix2 p q), biasBlk2_apply V c t q]
  show max ((∑ e : Fin 1701888, if (tgtArr2 V c (ix2 0 e)).toNat = t.val / 831 * 2048 + p.val then msgArr2 V c (ix2 e q) else 0)
      + biasArr2 V c (ix2 0 q)) 0
    = max ((∑ e : Fin 1701888, if (tgtArr2 V c (ix2 0 e)).toNat = n.val then msgArr2 V c (ix2 e q) else 0)
      + biasArr2 V c (ix2 0 q)) 0
  rw [hn]

/-- The output's block at a point, read off any array of the output's shape: entry y of the block is the array's
    entry at row (row tile * 2048 + y's row) and y's column. -/
theorem outBlk2_read (G : (⟨2, ![100352, 128]⟩ : Shape).Idx → EReal) (t : Fin cfg2.N)
    (y : ((cfg2.win 3).xblock (cfg2.grid.coords t)).Idx) (n : Fin 100352) (q : Fin 128)
    (hn : n.val = t.val / 831 * 2048 + (y 0).val) (hq : q.val = (y 1).val) :
    ((cfg2.win 3).blk t).view.read (Elt Ideal) G y = G (ix2 n q) := by
  have hi := index2_3 t
  rw [View.read_apply]
  show G _ = G _
  refine congrArg G (funext fun a => Fin.ext ?_)
  match a with
  | ⟨0, _⟩ => show win2_3.index t 0 * 2048 + 1 * (y 0).val = n.val; rw [hi.1, hn]; omega
  | ⟨1, _⟩ => show win2_3.index t 1 * 128 + 1 * (y 1).val = q.val; rw [hi.2, hq]; omega

/-- The block a last trip writes back is its block of the aggregate. -/
theorem flushed2_eq (c : Dev nD) (t : Fin cfg2.N) (hf : (cfg2.win 3).flush t = true) :
    (dat2 (F := Ideal) V c).flushed 3 t = ((cfg2.win 3).blk t).view.read (Elt Ideal) (aggrArr2 V c) := by
  have ht : t.val % 831 = 830 := (flush2_3 t).mp hf
  have hN : t.val < 40719 := lt_of_lt_of_eq t.isLt N_2
  show (cfg2.win 3).cut (grid2.coords t) ((dat2 (F := Ideal) V c).after 3 t) = _
  rw [after2_3]
  funext y
  have hy0 : (y 0).val < 2048 := (y 0).isLt
  have hy1 : (y 1).val < 128 := (y 1).isLt
  have hn : t.val / 831 * 2048 + (y 0).val < 100352 := by omega
  refine Eq.trans (b := ((outsAt2 V c t.val t.isLt).1 : S2048x128.Idx → EReal)
    (ix2 (⟨(y 0).val, hy0⟩ : Fin 2048) (⟨(y 1).val, hy1⟩ : Fin 128))) ?_ ?_
  · show ((outsAt2 V c t.val t.isLt).1 : S2048x128.Idx → EReal) _ = _
    refine congrArg ((outsAt2 V c t.val t.isLt).1 : S2048x128.Idx → EReal) (funext fun a => Fin.ext ?_)
    match a with
    | ⟨0, _⟩ => rfl
    | ⟨1, _⟩ => rfl
  · exact (out2_apply V c t ht ⟨(y 0).val, hy0⟩ ⟨(y 1).val, hy1⟩ ⟨t.val / 831 * 2048 + (y 0).val, hn⟩ rfl).trans
      (outBlk2_read (aggrArr2 V c) t y ⟨t.val / 831 * 2048 + (y 0).val, hn⟩ ⟨(y 1).val, hy1⟩ rfl rfl).symm

/-- Every row of the output lies in the block written back at the last trip of its row tile's run. -/
theorem cover2 (i : S100352x128.Idx) :
    ∃ t : Fin cfg2.N, (cfg2.win 3).flush t = true ∧ i ∈ ((cfg2.win 3).blk t).view.set := by
  have h0 : (i 0 : ℕ) < 100352 := (i 0).isLt
  have h1 : (i 1 : ℕ) < 128 := (i 1).isLt
  have hN : cfg2.N = 40719 := N_2
  have hlt : 831 * ((i 0).val / 2048) + 830 < cfg2.N := by rw [hN]; omega
  refine ⟨⟨831 * ((i 0).val / 2048) + 830, hlt⟩, (flush2_3 _).mpr (by show (831 * ((i 0).val / 2048) + 830) % 831 = 830; omega), ?_⟩
  show i ∈ ((View.whole main_v42).slice (win2_3.rect ⟨831 * ((i 0).val / 2048) + 830, hlt⟩)).set
  rw [View.set_slice_whole, Rect.mem_set_unit]
  intro a
  match a with
  | ⟨0, _⟩ =>
    show win2_3.index ⟨831 * ((i 0).val / 2048) + 830, hlt⟩ 0 * 2048 ≤ (i 0 : ℕ)
      ∧ (i 0 : ℕ) < win2_3.index ⟨831 * ((i 0).val / 2048) + 830, hlt⟩ 0 * 2048 + 2048
    rw [(index2_3 ⟨831 * ((i 0).val / 2048) + 830, hlt⟩).1]
    show (831 * ((i 0).val / 2048) + 830) / 831 * 2048 ≤ (i 0 : ℕ) ∧ (i 0 : ℕ) < (831 * ((i 0).val / 2048) + 830) / 831 * 2048 + 2048
    omega
  | ⟨1, _⟩ =>
    show win2_3.index ⟨831 * ((i 0).val / 2048) + 830, hlt⟩ 1 * 128 ≤ (i 1 : ℕ)
      ∧ (i 1 : ℕ) < win2_3.index ⟨831 * ((i 0).val / 2048) + 830, hlt⟩ 1 * 128 + 128
    rw [(index2_3 ⟨831 * ((i 0).val / 2048) + 830, hlt⟩).2]
    omega

/-- After the run the output array holds, at (n, q), the sum of the messages of the edges whose target word names n, plus the bias, clipped at zero. -/
theorem final2 (c : Dev nD) : (dat2 (F := Ideal) V c).arrAt 3 cfg2.N = Cert.Layer.aggr (R := 100352) (V c main_v40) (V c main_v37) (V c main_v41) :=
  (dat2 (F := Ideal) V c).arrAt_eq_of_cover 3 (aggrArr2 V c) (flushed2_eq V c) cover2

end Cert.KernelIdeal.Hand

end
-- ==== Proof.HostReadKI.lean ====
/-
  The kernel program's host operations read back. Between the three kernel regions the program pads, reshapes,
  concatenates and slices arrays on the host; each array a region reads, and the final result, is expressed here in
  terms of the launch memory and of what the regions leave:
    * the padded features agree with the features on the unpadded rows, and the weights are the argument;
    * the source and target words a region reads are a row of the edge array followed by the words 0 … 99999 (every
      node its own neighbour), then padding;
    * the coefficients are, on the edges, the product of two gathers of the per-node factor (the inverse square root of
      the degree where the degree is positive) — the same product the reference computes, which multiplies by a vector
      of ones in between — and zero on the padding;
    * the bias is the argument as a row; a region's output reaches the next region unchanged; the result is the
      leading 100000 rows of the last region's output.
  Each reading is first proved for arbitrary contents left by the regions, then specialised.
-/
import proofs.«423641_j4861902979196_1_alg».proof.Proof.FrameKI.Stages
import proofs.«423641_j4861902979196_1_alg».proof.Proof.LayerSpec
import proofs.«423641_j4861902979196_1_alg».proof.Proof.RefReadP
import Idealize.ShloMosaic.Lib.KernelVsHost
import Idealize.ShloMosaic.Lib.Pipeline.Value
import Idealize.ShloMosaic.Lib.ValueIdx
import Idealize.ShloMosaic.Lib.IdealHost
import Idealize.ShloMosaic.Lib.StableHlo.Run

set_option maxRecDepth 16384

noncomputable section

namespace Cert.KernelIdeal.Hand

open Idealize.ShloMosaic Idealize.ShloMosaic.TcCoe Idealize.SL.Sem
open Cert.KernelIdeal Cert.KernelIdeal.Gen
open Idealize.ShloMosaic.ValueIdx

/-! ## Arrays read at an index -/

section AtIndex
variable {α : Type}

/-- A vector viewed as a one-row rectangle: entry (0, p) is entry p. -/
theorem asRow_apply {n : Nat} (v : (⟨1, ![n]⟩ : Shape).Idx → α) (h : (⟨1, ![n]⟩ : Shape).ShapeCasts ⟨2, ![1, n]⟩) (p : Fin n) :
    shapeCast (⟨2, ![1, n]⟩ : Shape) v h (ix2 (0 : Fin 1) p) = v (ix1 p) := by
  refine shapeCast_apply v h (ix2 (0 : Fin 1) p) (ix1 p) ?_
  rw [Shape.rowMajor_val_two, Shape.rowMajor_val_one]
  show p.val = 0 * n + p.val
  omega

/-- A vector padded at its high end: below the operand's extent it is the operand, -/
theorem padHi_apply_lt {n hi N : Nat} (x : (⟨1, ![n]⟩ : Shape).Idx → α) {u : Shape} (v : u.Idx → α)
    (h : (⟨1, ![n]⟩ : Shape).Pads ![0] ![hi] ![0] ⟨1, ![N]⟩) (hu : 0 < u.numel) (hle : n ≤ N) (e : Fin n) :
    pad (⟨1, ![N]⟩ : Shape) ![0] ![hi] ![0] x v h hu (ix1 (Fin.castLE hle e)) = x (ix1 e) := by
  refine pad_apply_of_inside ![0] ![hi] ![0] x v h hu (ix1 (Fin.castLE hle e)) (ix1 e) fun a => ?_
  match a with
  | ⟨0, _⟩ => show e.val = 0 + e.val * (0 + 1); omega

/-- and at or past it, the padding value. -/
theorem padHi_apply_ge {n hi N : Nat} (x : (⟨1, ![n]⟩ : Shape).Idx → α) {u : Shape} (v : u.Idx → α)
    (h : (⟨1, ![n]⟩ : Shape).Pads ![0] ![hi] ![0] ⟨1, ![N]⟩) (hu : 0 < u.numel) (j : Fin N) (hj : n ≤ j.val) :
    pad (⟨1, ![N]⟩ : Shape) ![0] ![hi] ![0] x v h hu (ix1 j) = v (Shape.Idx.first hu) := by
  refine pad_apply_of_not_inside ![0] ![hi] ![0] x v h hu (ix1 j) (0 : Fin 1) fun hin => ?_
  have h3 : (j.val - 0) / (0 + 1) < n := hin.2.2
  simp only [Nat.sub_zero, Nat.zero_add, Nat.div_one] at h3
  omega

/-- A rectangle padded with rows at its high end: on the operand's rows it is the operand. -/
theorem padRows_apply_lt {n hi N w : Nat} (x : (⟨2, ![n, w]⟩ : Shape).Idx → α) {u : Shape} (v : u.Idx → α)
    (h : (⟨2, ![n, w]⟩ : Shape).Pads ![0, 0] ![hi, 0] ![0, 0] ⟨2, ![N, w]⟩) (hu : 0 < u.numel) (hle : n ≤ N) (r : Fin n) (k : Fin w) :
    pad (⟨2, ![N, w]⟩ : Shape) ![0, 0] ![hi, 0] ![0, 0] x v h hu (ix2 (Fin.castLE hle r) k) = x (ix2 r k) := by
  refine pad_apply_of_inside ![0, 0] ![hi, 0] ![0, 0] x v h hu (ix2 (Fin.castLE hle r) k) (ix2 r k) fun a => ?_
  match a with
  | ⟨0, _⟩ => show r.val = 0 + r.val * (0 + 1); omega
  | ⟨1, _⟩ => show k.val = 0 + k.val * (0 + 1); omega

/-- The leading rows of a rectangle: row r of the slice is row r of the rectangle. -/
theorem sliceRows_apply {n N w : Nat} (x : (⟨2, ![N, w]⟩ : Shape).Idx → α)
    (h : (⟨2, ![N, w]⟩ : Shape).Slices ![0, 0] ⟨2, ![n, w]⟩) (hle : n ≤ N) (r : Fin n) (k : Fin w) :
    extractStridedSlice (⟨2, ![n, w]⟩ : Shape) ![0, 0] x h (ix2 r k) = x (ix2 (Fin.castLE hle r) k) := by
  refine extractStridedSlice_apply ![0, 0] x h (ix2 r k) (ix2 (Fin.castLE hle r) k) fun a => ?_
  match a with
  | ⟨0, _⟩ => show r.val = 0 + r.val; omega
  | ⟨1, _⟩ => show k.val = 0 + k.val; omega

/-- Row a of a two-row array, flattened: entry e is the array at (a, e). -/
theorem rowOf_apply {n : Nat} (o : Nat) (a : Fin 2) (ho : a.val = o) (x : (⟨2, ![2, n]⟩ : Shape).Idx → α)
    (hs : (⟨2, ![2, n]⟩ : Shape).Slices ![o, 0] ⟨2, ![1, n]⟩) (hc : (⟨2, ![1, n]⟩ : Shape).ShapeCasts ⟨1, ![n]⟩) (e : Fin n) :
    shapeCast (⟨1, ![n]⟩ : Shape) (extractStridedSlice (⟨2, ![1, n]⟩ : Shape) ![o, 0] x hs) hc (ix1 e) = x (ix2 a e) := by
  refine (shapeCast_apply _ hc (ix1 e) (ix2 (0 : Fin 1) e) ?_).trans ?_
  · rw [Shape.rowMajor_val_two, Shape.rowMajor_val_one]
    show 0 * n + e.val = e.val
    omega
  · refine extractStridedSlice_apply ![o, 0] x hs (ix2 (0 : Fin 1) e) (ix2 a e) fun b => ?_
    match b with
    | ⟨0, _⟩ => show a.val = o + 0; omega
    | ⟨1, _⟩ => show e.val = 0 + e.val; omega

/-- Two vectors end to end: below the first's extent the first, -/
theorem cat_apply_lt {n₁ n₂ N : Nat} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![N]⟩ 0) (j : Fin N) (hj : j.val < n₁) :
    concatenate (⟨1, ![N]⟩ : Shape) 0 [⟨(⟨1, ![n₁]⟩ : Shape), x₁⟩, ⟨(⟨1, ![n₂]⟩ : Shape), x₂⟩] h (ix1 j) = x₁ (ix1 ⟨j.val, hj⟩) :=
  concatenate_pair_apply_left 0 x₁ x₂ h (ix1 j) rfl (ix1 ⟨j.val, hj⟩) fun b => by
    match b with
    | ⟨0, _⟩ => rfl

/-- at or past it the second, the first's extent less. -/
theorem cat_apply_ge {n₁ n₂ N : Nat} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![N]⟩ 0) (j : Fin N) (hj : n₁ ≤ j.val) (hj2 : j.val - n₁ < n₂) :
    concatenate (⟨1, ![N]⟩ : Shape) 0 [⟨(⟨1, ![n₁]⟩ : Shape), x₁⟩, ⟨(⟨1, ![n₂]⟩ : Shape), x₂⟩] h (ix1 j) = x₂ (ix1 ⟨j.val - n₁, hj2⟩) :=
  concatenate_pair_apply_right 0 x₁ x₂ h (ix1 j) rfl rfl (ix1 ⟨j.val - n₁, hj2⟩)
    (fun b hb => by
      match b, hb with
      | ⟨0, _⟩, hb => exact absurd (Fin.ext rfl) hb)
    (by show (j.val - n₁) + n₁ = j.val; omega)

end AtIndex

variable (m : (ℓ : Loc nD τ sig) → Buf (Elt Ideal) ℓ) (c : Dev nD) (os : Gen.Outs (F := Ideal))

/-! ## The arguments, unchanged up to each region -/

theorem V3_arg0 : Gen.V3 m c main_arg0 = m ((c.tc : Thread nD τ).loc main_arg0) :=
  (Gen.V3_of m c main_arg0 (by decide)).trans <|
    (Gen.V2_of m c main_arg0 (by decide)).trans <|
    (Gen.V1_of m c main_arg0 (by decide)).trans <|
    rfl

theorem V4_arg2 : Gen.V4 m c main_arg2 = m ((c.tc : Thread nD τ).loc main_arg2) :=
  (Gen.V4_of m c main_arg2 (by decide)).trans <|
    (Gen.V3_of m c main_arg2 (by decide)).trans <|
    (Gen.V2_of m c main_arg2 (by decide)).trans <|
    (Gen.V1_of m c main_arg2 (by decide)).trans <|
    rfl

theorem V13_arg3 : Gen.V13 m os c main_arg3 = m ((c.tc : Thread nD τ).loc main_arg3) :=
  (Gen.V13_of m os c main_arg3 (by decide)).trans <|
    (Gen.V12_of m os c main_arg3 (by decide)).trans <|
    (Gen.V11_of m os c main_arg3 (by decide)).trans <|
    (Gen.V10_of m os c main_arg3 (by decide)).trans <|
    (Gen.V9_of m os c main_arg3 (by decide)).trans <|
    (Gen.V8_of m os c main_arg3 (by decide)).trans <|
    (Gen.V7_of m os c main_arg3 (by decide)).trans <|
    (Gen.V6_of m os c main_arg3 (by decide)).trans <|
    (Gen.V5_of m os c main_arg3 (by decide)).trans <|
    (Gen.V4_of m c main_arg3 (by decide)).trans <|
    (Gen.V3_of m c main_arg3 (by decide)).trans <|
    (Gen.V2_of m c main_arg3 (by decide)).trans <|
    (Gen.V1_of m c main_arg3 (by decide)).trans <|
    rfl

/-! ## The padded features -/

/-- The padded features are the features padded with 352 rows of the converted zero word. -/
theorem V4_v32 : (Gen.V4 m c main_v32 : S100352x128.Idx → EReal)
    = pad S100352x128 ![0, 0] ![352, 0] ![0, 0] (Gen.V3 m c main_arg0 : S100000x128.Idx → EReal)
        (sitofp (F := Ideal) .f32 (Gen.V3 m c main_c_7 : S_.Idx → BitVec 32)) pads_S100000x128_S100352x128_03520_000 h_S_ := by
  show StableHlo.after (hostOps0_3 (F := Ideal)) (Gen.V3 m c) (Proc.devRef .tc main_v32) = _
  after_results <;> rfl

theorem read_xpad_gen (r : Fin 100000) (k : Fin 128) :
    Gen.V4 m c main_v32 (ix2 (Fin.castLE (by decide : 100000 ≤ 100352) r) k) = m ((c.tc : Thread nD τ).loc main_arg0) (ix2 r k) := by
  refine (congrFun (V4_v32 m c) _).trans ?_
  refine (padRows_apply_lt _ _ _ h_S_ (by decide : 100000 ≤ 100352) r k).trans ?_
  exact congrFun (V3_arg0 m c) _

/-! ## The bias as a row -/

theorem V14_v41 : (Gen.V14 m os c main_v41 : S1x128.Idx → EReal)
    = shapeCast S1x128 (Gen.V13 m os c main_arg3 : S128.Idx → EReal) shapeCasts_S128_S1x128 := by
  show StableHlo.after (hostOps2 (F := Ideal)) (Gen.V13 m os c) (Proc.devRef .tc main_v41) = _
  after_results <;> rfl

theorem read_bias_gen (q : Fin 128) :
    Gen.V14 m os c main_v41 (ix2 0 q) = m ((c.tc : Thread nD τ).loc main_arg3) (ix1 q) := by
  refine (congrFun (V14_v41 m c os) _).trans ?_
  refine (asRow_apply _ _ q).trans ?_
  exact congrFun (V13_arg3 m c os) _

/-! ## What a region leaves, carried to where it is next read -/

theorem V5_v33 : Gen.V5 m os c main_v33 = os 5 main_v33 c := Function.update_self ..
theorem V13_v40 : Gen.V13 m os c main_v40 = os 13 main_v40 c := Function.update_self ..
theorem V15_v42 : Gen.V15 m os c main_v42 = os 15 main_v42 c := Function.update_self ..

theorem read_h_gen : Gen.V12 m os c main_v33 = os 5 main_v33 c :=
  (Gen.V12_of m os c main_v33 (by decide)).trans <|
    (Gen.V11_of m os c main_v33 (by decide)).trans <|
    (Gen.V10_of m os c main_v33 (by decide)).trans <|
    (Gen.V9_of m os c main_v33 (by decide)).trans <|
    (Gen.V8_of m os c main_v33 (by decide)).trans <|
    (Gen.V7_of m os c main_v33 (by decide)).trans <|
    (Gen.V6_of m os c main_v33 (by decide)).trans <|
    V5_v33 m c os

theorem read_msgs_gen : Gen.V14 m os c main_v40 = os 13 main_v40 c :=
  (Gen.V14_of m os c main_v40 (by decide)).trans <|
    V13_v40 m c os

/-! ## The result: the leading rows of the last region's output -/

theorem V16_v43 : (Gen.V16 m os c main_v43 : S100000x128.Idx → EReal)
    = extractStridedSlice S100000x128 ![0, 0] (Gen.V15 m os c main_v42 : S100352x128.Idx → EReal) slices_S100352x128_S100000x128_0_0 := by
  show StableHlo.after (hostOps3 (F := Ideal)) (Gen.V15 m os c) (Proc.devRef .tc main_v43) = _
  after_results <;> rfl

theorem read_out_gen (n : Fin 100000) (q : Fin 128) :
    Gen.V16 m os c main_v43 (ix2 n q) = os 15 main_v42 c (ix2 (Fin.castLE (by decide : 100000 ≤ 100352) n) q) := by
  refine (congrFun (V16_v43 m c os) _).trans ?_
  refine (sliceRows_apply _ _ (by decide : 100000 ≤ 100352) n q).trans ?_
  exact congrFun (V15_v42 m c os) _

/-! ## The source words: row 0 of the edge array, the self loops appended, padded, as a row -/

/-- Row 0 of the edge array followed by the words 0 … 99999. -/
theorem V1_main_v5 : (Gen.V1 m c main_v5 : S1700000.Idx → BitVec 32)
    = concatenate S1700000 0 [⟨S1600000, shapeCast S1600000 (extractStridedSlice S1x1600000 ![0, 0]
          (m ((c.tc : Thread nD τ).loc main_arg1) : S2x1600000.Idx → BitVec 32) slices_S2x1600000_S1x1600000_0_0) shapeCasts_S1x1600000_S1600000⟩,
        ⟨S100000, iotaInDim S100000 32 0⟩] concatenates_S1600000_S100000_S1700000_d0 := by
  show StableHlo.after (hostOps0 (F := Ideal)) (Gen.V0 m c) (Proc.devRef .tc main_v5) = _
  after_results <;> rfl

/-- Entry e of it: the edge array at (0, e) on the edges, the word e − 1600000 on the self loops. -/
theorem V1_main_v5_apply (e : Fin 1700000) :
    Gen.V1 m c main_v5 (ix1 e) = Cert.Layer.edgeRow (Ec := 1600000) (R := 100000) 0 (m ((c.tc : Thread nD τ).loc main_arg1)) (ix2 0 e) := by
  refine (congrFun (V1_main_v5 m c) _).trans ?_
  refine Eq.trans ?_ (Cert.Layer.edgeRow_apply (Ec := 1600000) (R := 100000) 0 (m ((c.tc : Thread nD τ).loc main_arg1)) e).symm
  by_cases he : e.val < 1600000
  · rw [dif_pos he]
    refine (cat_apply_lt _ _ _ e he).trans ?_
    exact rowOf_apply 0 0 rfl _ _ _ ⟨e.val, he⟩
  · rw [dif_neg he]
    have h2 : e.val - 1600000 < 100000 := by have := e.isLt; omega
    refine (cat_apply_ge _ _ _ e (by omega) h2).trans ?_
    exact iotaInDim_apply 32 0 _

theorem V7_main_v34 : (Gen.V7 m os c main_v34 : S1701888.Idx → BitVec 32)
    = pad S1701888 ![0] ![1888] ![0] (Gen.V6 m os c main_v5 : S1700000.Idx → BitVec 32)
        (id (Gen.V6 m os c main_c_8 : S_.Idx → BitVec 32)) pads_S1700000_S1701888_018880 h_S_ := by
  show StableHlo.after (hostOps1_1 (F := Ideal)) (Gen.V6 m os c) (Proc.devRef .tc main_v34) = _
  after_results <;> rfl

theorem V8_main_v35 : (Gen.V8 m os c main_v35 : S1x1701888.Idx → BitVec 32)
    = shapeCast S1x1701888 (Gen.V7 m os c main_v34 : S1701888.Idx → BitVec 32) shapeCasts_S1701888_S1x1701888 := by
  show StableHlo.after (hostOps1_2 (F := Ideal)) (Gen.V7 m os c) (Proc.devRef .tc main_v35) = _
  after_results <;> rfl

/-! ## The target words: row 1 of the edge array, the self loops appended, padded, as a row -/

/-- Row 1 of the edge array followed by the words 0 … 99999. -/
theorem V1_main_v6 : (Gen.V1 m c main_v6 : S1700000.Idx → BitVec 32)
    = concatenate S1700000 0 [⟨S1600000, shapeCast S1600000 (extractStridedSlice S1x1600000 ![1, 0]
          (m ((c.tc : Thread nD τ).loc main_arg1) : S2x1600000.Idx → BitVec 32) slices_S2x1600000_S1x1600000_1_0) shapeCasts_S1x1600000_S1600000⟩,
        ⟨S100000, iotaInDim S100000 32 0⟩] concatenates_S1600000_S100000_S1700000_d0 := by
  show StableHlo.after (hostOps0 (F := Ideal)) (Gen.V0 m c) (Proc.devRef .tc main_v6) = _
  after_results <;> rfl

/-- Entry e of it: the edge array at (1, e) on the edges, the word e − 1600000 on the self loops. -/
theorem V1_main_v6_apply (e : Fin 1700000) :
    Gen.V1 m c main_v6 (ix1 e) = Cert.Layer.edgeRow (Ec := 1600000) (R := 100000) 1 (m ((c.tc : Thread nD τ).loc main_arg1)) (ix2 0 e) := by
  refine (congrFun (V1_main_v6 m c) _).trans ?_
  refine Eq.trans ?_ (Cert.Layer.edgeRow_apply (Ec := 1600000) (R := 100000) 1 (m ((c.tc : Thread nD τ).loc main_arg1)) e).symm
  by_cases he : e.val < 1600000
  · rw [dif_pos he]
    refine (cat_apply_lt _ _ _ e he).trans ?_
    exact rowOf_apply 1 1 rfl _ _ _ ⟨e.val, he⟩
  · rw [dif_neg he]
    have h2 : e.val - 1600000 < 100000 := by have := e.isLt; omega
    refine (cat_apply_ge _ _ _ e (by omega) h2).trans ?_
    exact iotaInDim_apply 32 0 _

theorem V9_main_v36 : (Gen.V9 m os c main_v36 : S1701888.Idx → BitVec 32)
    = pad S1701888 ![0] ![1888] ![0] (Gen.V8 m os c main_v6 : S1700000.Idx → BitVec 32)
        (id (Gen.V8 m os c main_c_9 : S_.Idx → BitVec 32)) pads_S1700000_S1701888_018880 h_S_ := by
  show StableHlo.after (hostOps1_3 (F := Ideal)) (Gen.V8 m os c) (Proc.devRef .tc main_v36) = _
  after_results <;> rfl

theorem V10_main_v37 : (Gen.V10 m os c main_v37 : S1x1701888.Idx → BitVec 32)
    = shapeCast S1x1701888 (Gen.V9 m os c main_v36 : S1701888.Idx → BitVec 32) shapeCasts_S1701888_S1x1701888 := by
  show StableHlo.after (hostOps1_4 (F := Ideal)) (Gen.V9 m os c) (Proc.devRef .tc main_v37) = _
  after_results <;> rfl

/-- The concatenated source words are not written between their stretch and the padding. -/
theorem V6_v5 : Gen.V6 m os c main_v5 = Gen.V1 m c main_v5 :=
  (Gen.V6_of m os c main_v5 (by decide)).trans <|
    (Gen.V5_of m os c main_v5 (by decide)).trans <|
    (Gen.V4_of m c main_v5 (by decide)).trans <|
    (Gen.V3_of m c main_v5 (by decide)).trans <|
    (Gen.V2_of m c main_v5 (by decide)).trans <|
    rfl
theorem V8_v6 : Gen.V8 m os c main_v6 = Gen.V1 m c main_v6 :=
  (Gen.V8_of m os c main_v6 (by decide)).trans <|
    (Gen.V7_of m os c main_v6 (by decide)).trans <|
    (Gen.V6_of m os c main_v6 (by decide)).trans <|
    (Gen.V5_of m os c main_v6 (by decide)).trans <|
    (Gen.V4_of m c main_v6 (by decide)).trans <|
    (Gen.V3_of m c main_v6 (by decide)).trans <|
    (Gen.V2_of m c main_v6 (by decide)).trans <|
    rfl

theorem read_src_gen (e : Fin 1700000) :
    Gen.V12 m os c main_v35 (ix2 0 (Fin.castLE (by decide : 1700000 ≤ 1701888) e))
      = Cert.Layer.edgeRow (Ec := 1600000) (R := 100000) 0 (m ((c.tc : Thread nD τ).loc main_arg1)) (ix2 0 e) := by
  have e12 : Gen.V12 m os c main_v35 = Gen.V8 m os c main_v35 :=
    (Gen.V12_of m os c main_v35 (by decide)).trans <|
    (Gen.V11_of m os c main_v35 (by decide)).trans <|
    (Gen.V10_of m os c main_v35 (by decide)).trans <|
    (Gen.V9_of m os c main_v35 (by decide)).trans <|
    rfl
  refine (congrFun e12 _).trans ?_
  refine (congrFun (V8_main_v35 m c os) _).trans ?_
  refine (asRow_apply _ _ _).trans ?_
  refine (congrFun (V7_main_v34 m c os) _).trans ?_
  refine (padHi_apply_lt _ _ _ h_S_ (by decide : 1700000 ≤ 1701888) e).trans ?_
  refine (congrFun (V6_v5 m c os) _).trans ?_
  exact V1_main_v5_apply m c e

theorem read_tgt_gen (e : Fin 1700000) :
    Gen.V14 m os c main_v37 (ix2 0 (Fin.castLE (by decide : 1700000 ≤ 1701888) e))
      = Cert.Layer.edgeRow (Ec := 1600000) (R := 100000) 1 (m ((c.tc : Thread nD τ).loc main_arg1)) (ix2 0 e) := by
  have e14 : Gen.V14 m os c main_v37 = Gen.V10 m os c main_v37 :=
    (Gen.V14_of m os c main_v37 (by decide)).trans <|
    (Gen.V13_of m os c main_v37 (by decide)).trans <|
    (Gen.V12_of m os c main_v37 (by decide)).trans <|
    (Gen.V11_of m os c main_v37 (by decide)).trans <|
    rfl
  refine (congrFun e14 _).trans ?_
  refine (congrFun (V10_main_v37 m c os) _).trans ?_
  refine (asRow_apply _ _ _).trans ?_
  refine (congrFun (V9_main_v36 m c os) _).trans ?_
  refine (padHi_apply_lt _ _ _ h_S_ (by decide : 1700000 ≤ 1701888) e).trans ?_
  refine (congrFun (V8_v6 m c os) _).trans ?_
  exact V1_main_v6_apply m c e

/-! ## The coefficients' padding -/

theorem V12_v39 : (Gen.V12 m os c main_v39 : S1x1701888.Idx → EReal)
    = shapeCast S1x1701888 (Gen.V11 m os c main_v38 : S1701888.Idx → EReal) shapeCasts_S1701888_S1x1701888 := by
  show StableHlo.after (hostOps1_6 (F := Ideal)) (Gen.V11 m os c) (Proc.devRef .tc main_v39) = _
  after_results <;> rfl

theorem V11_v38 : (Gen.V11 m os c main_v38 : S1701888.Idx → EReal)
    = pad S1701888 ![0] ![1888] ![0] (Gen.V10 m os c main_v31 : S1700000.Idx → EReal)
        (sitofp (F := Ideal) .f32 (Gen.V10 m os c main_c_10 : S_.Idx → BitVec 32)) pads_S1700000_S1701888_018880 h_S_ := by
  show StableHlo.after (hostOps1_5 (F := Ideal)) (Gen.V10 m os c) (Proc.devRef .tc main_v38) = _
  after_results <;> rfl

theorem V10_c10 : (Gen.V10 m os c main_c_10 : S_.Idx → BitVec 32) = constantI S_ 32 0#32 := by
  show StableHlo.after (hostOps1_4 (F := Ideal)) (Gen.V9 m os c) (Proc.devRef .tc main_c_10) = _
  after_results <;> rfl

/-- The zero word converted is zero. -/
theorem sitofp_zero_word (i : S_.Idx) : (sitofp (F := Ideal) .f32 (constantI S_ 32 0#32) : S_.Idx → EReal) i = 0 := by
  show (((0#32 : BitVec 32).toInt : ℝ) : EReal) = 0
  rw [show (0#32 : BitVec 32).toInt = 0 from by decide]
  simp only [Int.cast_zero, EReal.coe_zero]

theorem read_coef_pad_gen (e : Fin 1701888) (he : 1700000 ≤ e.val) : Gen.V12 m os c main_v39 (ix2 0 e) = (0 : EReal) := by
  refine (congrFun (V12_v39 m c os) _).trans ?_
  refine (asRow_apply _ _ e).trans ?_
  refine (congrFun (V11_v38 m c os) _).trans ?_
  refine (padHi_apply_ge _ _ _ h_S_ e he).trans ?_
  rw [V10_c10 m c os]
  exact sitofp_zero_word _

/-! ## The coefficients: the kernel program's chain, stage by stage, at any float instance -/

section Ladder
variable {F : FTy → Type} [FloatOps F]

/-- Row o of the edge array followed by the words 0 … 99999. -/
def kRow (o : Nat) (hs : S2x1600000.Slices ![o, 0] S1x1600000) (x1 : IVec S2x1600000 32) : IVec S1700000 32 :=
  concatenate S1700000 0 [⟨S1600000, shapeCast S1600000 (extractStridedSlice S1x1600000 ![o, 0] x1 hs) shapeCasts_S1x1600000_S1600000⟩,
    ⟨S100000, iotaInDim S100000 32 0⟩] concatenates_S1600000_S100000_S1700000_d0

/-- The degrees: ones added up by target word, self loops included. -/
def kDeg (x1 : IVec S2x1600000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (kRow 1 slices_S2x1600000_S1x1600000_1_0 x1))
    (broadcastInDim S1700000 ![] bcast_S_S1700000 (constant S_ .f32 0x3F800000#32))

/-- Which degrees are positive. -/
def kPos (x1 : IVec S2x1600000 32) : IVec S100000 1 :=
  cmpf .ogt (kDeg (F := F) x1) (broadcastInDim S100000 ![] bcast_S_S100000 (constant S_ .f32 0x00000000#32))

/-- The inverse square roots of the degrees, each degree first raised to a small positive floor. -/
def kRsq (x1 : IVec S2x1600000 32) : FVec F S100000 .f32 :=
  Host.rsqrt (maximumf (kDeg (F := F) x1) (broadcastInDim S100000 ![] bcast_S_S100000 (constant S_ .f32 0x2B8CBCCC#32)))

/-- The per-node factor: the inverse square root where the degree is positive, zero elsewhere. -/
def kDis (x1 : IVec S2x1600000 32) : FVec F S100000 .f32 :=
  select (kPos (F := F) x1) (kRsq (F := F) x1)
    (broadcastInDim S100000 ![] bcast_S_S100000 (id (constant S_ .f32 0x00000000#32)))

/-- Index words made start indices: a negative word has 100000 added; then as a column. -/
def kWrap (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The per-node factor gathered along row o of the edge list. -/
def kGath (o : Nat) (hs : S2x1600000.Slices ![o, 0] S1x1600000) (x1 : IVec S2x1600000 32) : FVec F S1700000 .f32 :=
  Host.gather gather_S100000_S1700000x1_S1700000_n_0_n_n_0_1_1 (kDis (F := F) x1) (kWrap (kRow o hs x1))

/-- The two gathered factors are the reference's, operation for operation. -/
theorem kGath0_eq (x1 : IVec S2x1600000 32) :
    kGath (F := F) 0 slices_S2x1600000_S1x1600000_0_0 x1 = Cert.ReferenceIdeal.ReadP.val_main_v23 (F := F) x1 := rfl
theorem kGath1_eq (x1 : IVec S2x1600000 32) :
    kGath (F := F) 1 slices_S2x1600000_S1x1600000_1_0 x1 = Cert.ReferenceIdeal.ReadP.val_main_v31 (F := F) x1 := rfl

end Ladder

/-! ## Each stretch of the chain, at any float instance and over any contents it starts from -/

section Stagewise
variable {F : FTy → Type} [FloatOps F] (V : Valuation τ sig (Elt F))

theorem after0_v5 : (StableHlo.after (hostOps0 (F := F)) V (Proc.devRef .tc main_v5) : IVec S1700000 32) = kRow 0 slices_S2x1600000_S1x1600000_0_0 (V main_arg1 : IVec S2x1600000 32) := by
  after_results <;> rfl
theorem after0_v6 : (StableHlo.after (hostOps0 (F := F)) V (Proc.devRef .tc main_v6) : IVec S1700000 32) = kRow 1 slices_S2x1600000_S1x1600000_1_0 (V main_arg1 : IVec S2x1600000 32) := by
  after_results <;> rfl
theorem after0_v12 : (StableHlo.after (hostOps0 (F := F)) V (Proc.devRef .tc main_v12) : IVec S100000 1) = kPos (F := F) (V main_arg1 : IVec S2x1600000 32) := by
  after_results <;> rfl
theorem after0_v15 : (StableHlo.after (hostOps0 (F := F)) V (Proc.devRef .tc main_v15) : FVec F S100000 .f32) = kRsq (F := F) (V main_arg1 : IVec S2x1600000 32) := by
  after_results <;> rfl
theorem after0_cst3 : (StableHlo.after (hostOps0 (F := F)) V (Proc.devRef .tc main_cst_3) : FVec F S_ .f32) = constant S_ .f32 0x00000000#32 := by
  after_results <;> rfl

/-- The per-node factor, from the three arrays the first stretch leaves. -/
theorem after01_v16 : (StableHlo.after (hostOps0_1 (F := F)) V (Proc.devRef .tc main_v16) : FVec F S100000 .f32)
    = select (V main_v12 : IVec S100000 1) (V main_v15 : FVec F S100000 .f32)
        (broadcastInDim S100000 ![] bcast_S_S100000 (id (V main_cst_3 : FVec F S_ .f32))) := by
  after_results <;> rfl

/-- The coefficient array before padding, from the per-node factor and the two rows of words. -/
theorem after02_v31 : (StableHlo.after (hostOps0_2 (F := F)) V (Proc.devRef .tc main_v31) : FVec F S1700000 .f32)
    = mulf (Host.gather gather_S100000_S1700000x1_S1700000_n_0_n_n_0_1_1 (V main_v16 : FVec F S100000 .f32) (kWrap (V main_v5 : IVec S1700000 32)))
        (Host.gather gather_S100000_S1700000x1_S1700000_n_0_n_n_0_1_1 (V main_v16 : FVec F S100000 .f32) (kWrap (V main_v6 : IVec S1700000 32))) := by
  after_results_simp <;> rfl

/-! The stretches composed. -/

theorem after01_0_v16 : (StableHlo.after (hostOps0_1 (F := F)) (StableHlo.after (hostOps0 (F := F)) V) (Proc.devRef .tc main_v16) : FVec F S100000 .f32) = kDis (F := F) (V main_arg1 : IVec S2x1600000 32) := by
  refine (after01_v16 (StableHlo.after (hostOps0 (F := F)) V)).trans ?_
  rw [after0_v12 V, after0_v15 V, after0_cst3 V]
  rfl
theorem after01_0_v5 : (StableHlo.after (hostOps0_1 (F := F)) (StableHlo.after (hostOps0 (F := F)) V) (Proc.devRef .tc main_v5) : IVec S1700000 32) = kRow 0 slices_S2x1600000_S1x1600000_0_0 (V main_arg1 : IVec S2x1600000 32) :=
  (StableHlo.after_of_writes_sub (hostOps0_1 (F := F)) _ hostOps0_1_writes (by decide)).trans (after0_v5 V)
theorem after01_0_v6 : (StableHlo.after (hostOps0_1 (F := F)) (StableHlo.after (hostOps0 (F := F)) V) (Proc.devRef .tc main_v6) : IVec S1700000 32) = kRow 1 slices_S2x1600000_S1x1600000_1_0 (V main_arg1 : IVec S2x1600000 32) :=
  (StableHlo.after_of_writes_sub (hostOps0_1 (F := F)) _ hostOps0_1_writes (by decide)).trans (after0_v6 V)

/-- After the first three stretches the coefficient array is the product of the two gathered factors. -/
theorem after012_v31 : (StableHlo.after (hostOps0_2 (F := F)) (StableHlo.after (hostOps0_1 (F := F)) (StableHlo.after (hostOps0 (F := F)) V)) (Proc.devRef .tc main_v31) : FVec F S1700000 .f32)
    = mulf (kGath (F := F) 0 slices_S2x1600000_S1x1600000_0_0 (V main_arg1 : IVec S2x1600000 32)) (kGath (F := F) 1 slices_S2x1600000_S1x1600000_1_0 (V main_arg1 : IVec S2x1600000 32)) := by
  refine (after02_v31 (StableHlo.after (hostOps0_1 (F := F)) (StableHlo.after (hostOps0 (F := F)) V))).trans ?_
  rw [after01_0_v16 V, after01_0_v5 V, after01_0_v6 V]
  rfl

end Stagewise

/-! ## At the extended reals -/

/-- The coefficient array before padding: the product of the two gathered factors. -/
theorem V3_v31k : (Gen.V3 m c main_v31 : S1700000.Idx → EReal)
    = mulf (F := Ideal) (φ := .f32) (kGath (F := Ideal) 0 slices_S2x1600000_S1x1600000_0_0 (m ((c.tc : Thread nD τ).loc main_arg1) : S2x1600000.Idx → BitVec 32)) (kGath (F := Ideal) 1 slices_S2x1600000_S1x1600000_1_0 (m ((c.tc : Thread nD τ).loc main_arg1) : S2x1600000.Idx → BitVec 32)) :=
  after012_v31 (F := Ideal) (Gen.V0 m c)

/-- The ones vector of the reference is one at every entry. -/
theorem ones_apply (i : S1700000.Idx) : Cert.ReferenceIdeal.ReadP.val_main_v7 (F := Ideal) i = 1 := by
  show broadcastInDim S1700000 ![] _ (constant (F := Ideal) S_ .f32 0x3F800000#32) i = 1
  rw [broadcastInDim_scalar_apply, constant_apply, Ideal.ofBits_one_f32]

/-- A product of two arrays at an entry, against the same product with a factor one in between. -/
theorem coef_mul (A B O : S1700000.Idx → EReal) (i : S1700000.Idx) (hO : O i = 1) :
    mulf (F := Ideal) (φ := .f32) A B i
      = FloatOps.mulf (F := Ideal) (φ := .f32) (FloatOps.mulf (F := Ideal) (φ := .f32) (A i) (O i)) (B i) := by
  show A i * B i = A i * O i * B i
  rw [hO, mul_one]

theorem read_coef_gen (e : Fin 1700000) :
    Gen.V12 m os c main_v39 (ix2 0 (Fin.castLE (by decide : 1700000 ≤ 1701888) e))
      = Cert.ReferenceIdeal.ReadP.val_main_v32 (F := Ideal) (m ((c.tc : Thread nD τ).loc main_arg1)) (ix1 e) := by
  have e10 : Gen.V10 m os c main_v31 = Gen.V3 m c main_v31 :=
    (Gen.V10_of m os c main_v31 (by decide)).trans <|
    (Gen.V9_of m os c main_v31 (by decide)).trans <|
    (Gen.V8_of m os c main_v31 (by decide)).trans <|
    (Gen.V7_of m os c main_v31 (by decide)).trans <|
    (Gen.V6_of m os c main_v31 (by decide)).trans <|
    (Gen.V5_of m os c main_v31 (by decide)).trans <|
    (Gen.V4_of m c main_v31 (by decide)).trans <|
    rfl
  refine (congrFun (V12_v39 m c os) _).trans ?_
  refine (asRow_apply _ _ _).trans ?_
  refine (congrFun (V11_v38 m c os) _).trans ?_
  refine (padHi_apply_lt _ _ _ h_S_ (by decide : 1700000 ≤ 1701888) e).trans ?_
  refine (congrFun e10 _).trans ?_
  refine (congrFun (V3_v31k m c) _).trans ?_
  rw [kGath0_eq, kGath1_eq, Cert.ReferenceIdeal.ReadP.val_main_v32_apply, Cert.ReferenceIdeal.ReadP.val_main_v24_apply]
  exact coef_mul _ _ (Cert.ReferenceIdeal.ReadP.val_main_v7 (F := Ideal)) (ix1 e) (ones_apply _)

/-! ## The readings, at what the regions leave -/

/-- The padded features agree with the features on the unpadded rows. -/
theorem read_xpad (r : Fin 100000) (k : Fin 128) :
    In0 m c main_v32 (ix2 (Fin.castLE (by decide : 100000 ≤ 100352) r) k) = m ((c.tc : Thread nD τ).loc main_arg0) (ix2 r k) :=
  read_xpad_gen m c r k

theorem read_w : In0 m c main_arg2 = m ((c.tc : Thread nD τ).loc main_arg2) := V4_arg2 m c

/-- Region 1 reads the transformed features region 0 left. -/
theorem read_h : In1 m c main_v33 = (dat0 (In0 m) c).arrAt 2 cfg0.N :=
  (read_h_gen m c (outsA m)).trans (outsA_5 m c)

/-- The source words region 1 reads: the edge array's first row with the self loops appended (then the padding). -/
theorem read_src (e : Fin 1700000) :
    In1 m c main_v35 (ix2 0 (Fin.castLE (by decide : 1700000 ≤ 1701888) e))
      = Cert.Layer.edgeRow (Ec := 1600000) (R := 100000) 0 (m ((c.tc : Thread nD τ).loc main_arg1)) (ix2 0 e) :=
  read_src_gen m c (outsA m) e

/-- The coefficients region 1 reads: zero on the padding, -/
theorem read_coef_pad (e : Fin 1701888) (he : 1700000 ≤ e.val) : In1 m c main_v39 (ix2 0 e) = (0 : EReal) :=
  read_coef_pad_gen m c (outsA m) e he

/-- and on the edges the same product of gathered inverse square roots of degrees the reference computes. -/
theorem read_coef (e : Fin 1700000) :
    In1 m c main_v39 (ix2 0 (Fin.castLE (by decide : 1700000 ≤ 1701888) e))
      = Cert.ReferenceIdeal.ReadP.val_main_v32 (F := Ideal) (m ((c.tc : Thread nD τ).loc main_arg1)) (ix1 e) :=
  read_coef_gen m c (outsA m) e

/-- Region 2 reads the messages region 1 left. -/
theorem read_msgs : In2 m c main_v40 = (dat1 (In1 m) c).arrAt 3 cfg1.N :=
  (read_msgs_gen m c (outsB m)).trans (outsB_13 m c)

theorem read_tgt (e : Fin 1700000) :
    In2 m c main_v37 (ix2 0 (Fin.castLE (by decide : 1700000 ≤ 1701888) e))
      = Cert.Layer.edgeRow (Ec := 1600000) (R := 100000) 1 (m ((c.tc : Thread nD τ).loc main_arg1)) (ix2 0 e) :=
  read_tgt_gen m c (outsB m) e

theorem read_bias (q : Fin 128) : In2 m c main_v41 (ix2 0 q) = m ((c.tc : Thread nD τ).loc main_arg3) (ix1 q) :=
  read_bias_gen m c (outsB m) q

/-- The result is the slice of region 2's output to the unpadded rows. -/
theorem read_out (n : Fin 100000) (q : Fin 128) :
    Gen.V16 m (outs m) c main_v43 (ix2 n q) = (dat2 (In2 m) c).arrAt 3 cfg2.N (ix2 (Fin.castLE (by decide : 100000 ≤ 100352) n) q) :=
  (read_out_gen m c (outs m) n q).trans (congrFun (outs_15 m c) _)

end Cert.KernelIdeal.Hand

end
-- ==== Proof.LayerBridge.lean ====
/- The layer over padded arrays against the layer over the arrays themselves. Padding the node features with
   rows nobody reads, and the edge list with edges of coefficient zero, changes no entry of the aggregate at a
   node of the unpadded range: a padded edge's message is its source row times zero, and an edge whose source word
   names a row below the unpadded extent reads the same features in both. -/
import Idealize.ShloMosaic.Lib.ValueIdx
import Idealize.ShloMosaic.PureOps.Ideal.Laws
import Mathlib.Algebra.BigOperators.Fin
import proofs.«423641_j4861902979196_1_alg».proof.Proof.LayerSpec

noncomputable section

open scoped BigOperators

namespace Cert.Layer

open Idealize.ShloMosaic Idealize.ShloMosaic.ValueIdx

/-- A sum over `Fin N` of terms that vanish from `m` on is the sum over `Fin m`. -/
theorem sum_of_vanish {M : Type*} [AddCommMonoid M] {m N : Nat} (hm : m ≤ N) (g : Fin N → M)
    (hz : ∀ i : Fin N, m ≤ i.val → g i = 0) : ∑ i : Fin N, g i = ∑ e : Fin m, g (Fin.castLE hm e) := by
  let g' : ℕ → M := fun i => if h : i < N then g ⟨i, h⟩ else 0
  have h2 : ∑ i : Fin N, g i = ∑ i ∈ Finset.range N, g' i := by
    rw [← Fin.sum_univ_eq_sum_range g' N]
    refine Finset.sum_congr rfl fun i _ => ?_
    show g i = if h : i.val < N then g ⟨i.val, h⟩ else 0
    rw [dif_pos i.isLt]
  have h3 : ∑ e : Fin m, g (Fin.castLE hm e) = ∑ i ∈ Finset.range m, g' i := by
    rw [← Fin.sum_univ_eq_sum_range g' m]
    refine Finset.sum_congr rfl fun e _ => ?_
    show g (Fin.castLE hm e) = if h : e.val < N then g ⟨e.val, h⟩ else 0
    rw [dif_pos (lt_of_lt_of_le e.isLt hm)]; rfl
  rw [h2, h3]
  symm
  apply Finset.sum_subset (Finset.range_subset_range.2 hm)
  intro i hi hni
  have hi' : i < N := Finset.mem_range.1 hi
  have hmi : m ≤ i := Nat.le_of_not_lt (fun h => hni (Finset.mem_range.2 h))
  show (if h : i < N then g ⟨i, h⟩ else 0) = 0
  rw [dif_pos hi']; exact hz _ hmi

/-- The row a word names is the same in the padded features when the word names a row of the unpadded range. -/
theorem rowAt_feat_pad {R Rp : Nat} (hR : R ≤ Rp) (X : (⟨2, ![R, 128]⟩ : Shape).Idx → EReal)
    (Xp : (⟨2, ![Rp, 128]⟩ : Shape).Idx → EReal) (W : (⟨2, ![128, 128]⟩ : Shape).Idx → EReal)
    (hX : ∀ (r : Fin R) (k : Fin 128), Xp (ix2 (Fin.castLE hR r) k) = X (ix2 r k))
    (s : BitVec 32) (hs : s.toNat < R) (q : Fin 128) :
    rowAt (feat Xp W) s q = rowAt (feat X W) s q := by
  unfold rowAt
  rw [dif_pos hs, dif_pos (lt_of_lt_of_le hs hR), feat_apply, feat_apply]
  exact Finset.sum_congr rfl fun k _ => by rw [← hX ⟨s.toNat, hs⟩ k]; rfl

/-- THE BRIDGE: the aggregate over the padded arrays, at a node of the unpadded range, is the aggregate over the
    arrays themselves. -/
theorem aggr_pad {R Rp Ec Ep : Nat} (hR : R ≤ Rp) (hE : Ec ≤ Ep)
    (X : (⟨2, ![R, 128]⟩ : Shape).Idx → EReal) (Xp : (⟨2, ![Rp, 128]⟩ : Shape).Idx → EReal)
    (W : (⟨2, ![128, 128]⟩ : Shape).Idx → EReal)
    (src tgt : (⟨2, ![1, Ec]⟩ : Shape).Idx → BitVec 32) (coef : (⟨2, ![1, Ec]⟩ : Shape).Idx → EReal)
    (srcp tgtp : (⟨2, ![1, Ep]⟩ : Shape).Idx → BitVec 32) (coefp : (⟨2, ![1, Ep]⟩ : Shape).Idx → EReal)
    (bias : (⟨2, ![1, 128]⟩ : Shape).Idx → EReal)
    (hX : ∀ (r : Fin R) (k : Fin 128), Xp (ix2 (Fin.castLE hR r) k) = X (ix2 r k))
    (hsrc : ∀ e : Fin Ec, srcp (ix2 0 (Fin.castLE hE e)) = src (ix2 0 e))
    (htgt : ∀ e : Fin Ec, tgtp (ix2 0 (Fin.castLE hE e)) = tgt (ix2 0 e))
    (hcoef : ∀ e : Fin Ec, coefp (ix2 0 (Fin.castLE hE e)) = coef (ix2 0 e))
    (hpad : ∀ e : Fin Ep, Ec ≤ e.val → coefp (ix2 0 e) = 0)
    (hin : ∀ e : Fin Ec, (src (ix2 0 e)).toNat < R)
    (n : Fin R) (q : Fin 128) :
    aggr (R := Rp) (msgs (feat Xp W) srcp coefp) tgtp bias (ix2 (Fin.castLE hR n) q)
      = aggr (R := R) (msgs (feat X W) src coef) tgt bias (ix2 n q) := by
  rw [aggr_apply, aggr_apply]
  congr 2
  rw [sum_of_vanish hE (fun e : Fin Ep => if (tgtp (ix2 0 e)).toNat = (Fin.castLE hR n).val then msgs (feat Xp W) srcp coefp (ix2 e q) else 0)
    (fun e he => by
      show (if _ then msgs (feat Xp W) srcp coefp (ix2 e q) else 0) = 0
      rw [msgs_apply, hpad e he, mul_zero]; exact ite_self 0)]
  refine Finset.sum_congr rfl fun e _ => ?_
  show (if (tgtp (ix2 0 (Fin.castLE hE e))).toNat = n.val then msgs (feat Xp W) srcp coefp (ix2 (Fin.castLE hE e) q) else 0)
    = if (tgt (ix2 0 e)).toNat = n.val then msgs (feat X W) src coef (ix2 e q) else 0
  rw [htgt e, msgs_apply, msgs_apply, hsrc e, hcoef e, rowAt_feat_pad hR X Xp W hX _ (hin e) q]

end Cert.Layer

end
-- ==== Proof.AssembleKI.lean ====
/- The kernel program's result is the layer. The program's last array is the slice to the unpadded rows of what
   the third region leaves; the third region leaves the aggregate of the messages the second leaves, under the padded
   target words and the bias row; the second leaves the messages of the transformed features the first leaves, under
   the padded source words and coefficients; the first leaves the padded features against the weights. The padded
   arrays agree with the arguments on the unpadded range and the padded edges carry coefficient zero, so at a node of
   the unpadded range the result is the layer over the arguments themselves, provided every source word names a row. -/
import proofs.«423641_j4861902979196_1_alg».proof.Proof.FrameKI.Stages
import proofs.«423641_j4861902979196_1_alg».proof.Proof.FrameKI.Run
import proofs.«423641_j4861902979196_1_alg».proof.Proof.ValKI0
import proofs.«423641_j4861902979196_1_alg».proof.Proof.ValKI1
import proofs.«423641_j4861902979196_1_alg».proof.Proof.ValKI2
import proofs.«423641_j4861902979196_1_alg».proof.Proof.HostReadKI
import proofs.«423641_j4861902979196_1_alg».proof.Proof.LayerSpec
import proofs.«423641_j4861902979196_1_alg».proof.Proof.LayerBridge
import proofs.«423641_j4861902979196_1_alg».proof.Proof.RefReadP
import Idealize.ShloMosaic.Lib.ValueIdx

set_option maxRecDepth 16384

noncomputable section

open scoped BigOperators

/-! ## The three stages composed -/

namespace Cert.Layer

open Idealize.ShloMosaic Idealize.ShloMosaic.ValueIdx

/-- The aggregate at column q reads the bias only at (0, q). -/
theorem aggr_bias_congr {R Ecount : Nat} (M : (⟨2, ![Ecount, 128]⟩ : Shape).Idx → EReal)
    (tgt : (⟨2, ![1, Ecount]⟩ : Shape).Idx → BitVec 32) (b b' : (⟨2, ![1, 128]⟩ : Shape).Idx → EReal)
    (n : Fin R) (q : Fin 128) (h : b (ix2 0 q) = b' (ix2 0 q)) :
    aggr (R := R) M tgt b (ix2 n q) = aggr (R := R) M tgt b' (ix2 n q) := by
  rw [aggr_apply, aggr_apply, h]

/-- A word of the edge list with the self loops appended names a row when every word of the edge array's row does:
    the appended words are 0, 1, …, R - 1. -/
theorem edgeRow_in_range {Ec R : Nat} (a : Fin 2) (ei : (⟨2, ![2, Ec]⟩ : Shape).Idx → BitVec 32)
    (h : ∀ e : Fin Ec, (ei (ix2 a e)).toNat < R) (e : Fin (Ec + R)) :
    (edgeRow (R := R) a ei (ix2 0 e)).toNat < R := by
  rw [edgeRow_apply]
  split
  · exact h _
  · rw [BitVec.toNat_ofNat]
    have he := e.isLt
    exact lt_of_le_of_lt (Nat.mod_le _ _) (by omega)

/-- THE COMPOSITION. -/
theorem layer_of_stages {R Rp Ec Ep : Nat} (hR : R ≤ Rp) (hE : Ec ≤ Ep)
    (X : (⟨2, ![R, 128]⟩ : Shape).Idx → EReal) (Xp : (⟨2, ![Rp, 128]⟩ : Shape).Idx → EReal)
    (W Wk : (⟨2, ![128, 128]⟩ : Shape).Idx → EReal)
    (src tgt : (⟨2, ![1, Ec]⟩ : Shape).Idx → BitVec 32) (coef : (⟨2, ![1, Ec]⟩ : Shape).Idx → EReal)
    (srcp tgtp : (⟨2, ![1, Ep]⟩ : Shape).Idx → BitVec 32) (coefp : (⟨2, ![1, Ep]⟩ : Shape).Idx → EReal)
    (bias biask : (⟨2, ![1, 128]⟩ : Shape).Idx → EReal)
    (H A : (⟨2, ![Rp, 128]⟩ : Shape).Idx → EReal) (M : (⟨2, ![Ep, 128]⟩ : Shape).Idx → EReal)
    (hA : A = aggr (R := Rp) M tgtp biask) (hM : M = msgs H srcp coefp) (hH : H = feat Xp Wk) (hW : Wk = W)
    (hX : ∀ (r : Fin R) (k : Fin 128), Xp (ix2 (Fin.castLE hR r) k) = X (ix2 r k))
    (hsrc : ∀ e : Fin Ec, srcp (ix2 0 (Fin.castLE hE e)) = src (ix2 0 e))
    (htgt : ∀ e : Fin Ec, tgtp (ix2 0 (Fin.castLE hE e)) = tgt (ix2 0 e))
    (hcoef : ∀ e : Fin Ec, coefp (ix2 0 (Fin.castLE hE e)) = coef (ix2 0 e))
    (hpad : ∀ e : Fin Ep, Ec ≤ e.val → coefp (ix2 0 e) = 0)
    (hbias : ∀ q : Fin 128, biask (ix2 0 q) = bias (ix2 0 q))
    (hin : ∀ e : Fin Ec, (src (ix2 0 e)).toNat < R)
    (n : Fin R) (q : Fin 128) :
    A (ix2 (Fin.castLE hR n) q) = aggr (R := R) (msgs (feat X W) src coef) tgt bias (ix2 n q) := by
  subst hA hM hH hW
  rw [aggr_bias_congr _ _ biask bias _ q (hbias q)]
  exact aggr_pad hR hE X Xp _ src tgt coef srcp tgtp coefp bias hX hsrc htgt hcoef hpad hin n q

end Cert.Layer

/-! ## The program's result and its run -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ) (ρ : Dev nD → PrngReg)

/-- The kernel program's result at a node n and column q, under "every source word names a row": the layer over the arrays themselves. -/
theorem kernel_value (c : Dev nD) (hsrc : ∀ e : Fin 1600000, ((m ((c.tc : Thread nD τ).loc main_arg1)) (ix2 (0 : Fin 2) e)).toNat < 100000) (n : Fin 100000) (q : Fin 128) :
    Gen.V16 m (outs m) c main_v43 (ix2 n q)
      = Cert.Layer.aggr (R := 100000) (Cert.Layer.msgs (Cert.Layer.feat (m ((c.tc : Thread nD τ).loc main_arg0)) (m ((c.tc : Thread nD τ).loc main_arg2)))
          (Cert.Layer.edgeRow (Ec := 1600000) (R := 100000) 0 (m ((c.tc : Thread nD τ).loc main_arg1))) (fun i => Cert.ReferenceIdeal.ReadP.val_main_v32 (F := Ideal) (m ((c.tc : Thread nD τ).loc main_arg1)) (ix1 (i 1 : Fin 1700000))))
          (Cert.Layer.edgeRow (Ec := 1600000) (R := 100000) 1 (m ((c.tc : Thread nD τ).loc main_arg1))) (Cert.Layer.biasRow (m ((c.tc : Thread nD τ).loc main_arg3))) (ix2 n q) :=
  (read_out m c n q).trans <|
    Cert.Layer.layer_of_stages (R := 100000) (Rp := 100352) (Ec := 1700000) (Ep := 1701888) (by decide) (by decide)
      (X := m ((c.tc : Thread nD τ).loc main_arg0)) (Xp := In0 m c main_v32)
      (W := m ((c.tc : Thread nD τ).loc main_arg2)) (Wk := In0 m c main_arg2)
      (src := Cert.Layer.edgeRow (Ec := 1600000) (R := 100000) 0 (m ((c.tc : Thread nD τ).loc main_arg1)))
      (tgt := Cert.Layer.edgeRow (Ec := 1600000) (R := 100000) 1 (m ((c.tc : Thread nD τ).loc main_arg1)))
      (coef := fun i => Cert.ReferenceIdeal.ReadP.val_main_v32 (F := Ideal) (m ((c.tc : Thread nD τ).loc main_arg1)) (ix1 (i 1 : Fin 1700000)))
      (srcp := In1 m c main_v35) (tgtp := In2 m c main_v37) (coefp := In1 m c main_v39)
      (bias := Cert.Layer.biasRow (m ((c.tc : Thread nD τ).loc main_arg3))) (biask := In2 m c main_v41)
      (H := In1 m c main_v33) (A := (dat2 (F := Ideal) (In2 m) c).arrAt 3 cfg2.N) (M := In2 m c main_v40)
      (hA := final2 (In2 m) c)
      (hM := (read_msgs m c).trans (final1 (In1 m) c))
      (hH := (read_h m c).trans (final0 (In0 m) c))
      (hW := read_w m c)
      (hX := read_xpad m c) (hsrc := read_src m c) (htgt := read_tgt m c) (hcoef := read_coef m c)
      (hpad := read_coef_pad m c) (hbias := read_bias m c)
      (hin := Cert.Layer.edgeRow_in_range (Ec := 1600000) (R := 100000) 0 (m ((c.tc : Thread nD τ).loc main_arg1)) hsrc) n q

/-- THE RUN with the result named: every weakly fair execution of @main terminates, nothing faulting, the result array at
    the last valuation of the chain and the four arguments as launched. -/
theorem kernel_run : θ_run defs (onTc (τ := τ) (main (F := Ideal))) ⟨m, fun _ => 0, ρ⟩ (fun r => ∀ c : Dev nD,
      r.2.mem ((c.tc : Thread nD τ).loc main_v43) = Gen.V16 m (outs m) c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v43 (by decide)),
     (h c _ (mem_uc main_arg0 (by decide))).trans (Gen.V16_main_arg0 m (outs m) c),
     (h c _ (mem_uc main_arg1 (by decide))).trans (Gen.V16_main_arg1 m (outs m) c),
     (h c _ (mem_uc main_arg2 (by decide))).trans (Gen.V16_main_arg2 m (outs m) c),
     (h c _ (mem_uc main_arg3 (by decide))).trans (Gen.V16_main_arg3 m (outs m) c)⟩) (run_all m ρ)

end Cert.KernelIdeal.Hand

end
-- ==== Proof.RefSide.Words.lean ====
/- 32-bit index words below 2^31: read signed they are their value, they are not negative, and a clamp into a range that
   holds them is the identity. -/
import Idealize.ShloMosaic.Lib.ValueIdx
import Idealize.ShloMosaic.Lib.StableHlo.Predicate

namespace Cert.RefSide

open Idealize.ShloMosaic Idealize.ShloMosaic.ValueIdx

/-- A word read signed is a natural number below 2^31 exactly when its value is that number. -/
theorem toInt_eq_natCast_iff (w : BitVec 32) {n : Nat} (hn : n < 2 ^ 31) : w.toInt = (n : Int) ↔ w.toNat = n := by
  have hlt := w.isLt
  rw [BitVec.toInt_eq_toNat_cond]
  split <;> omega

/-- A word below 2^31 read signed, then as a natural number, is its value. -/
theorem toInt_toNat_of_small {w : BitVec 32} (h : w.toNat < 2 ^ 31) : w.toInt.toNat = w.toNat := by
  rw [StableHlo.Predicate.toInt_eq_toNat_of_lt h]; simp

/-- A word below 2^31 is not negative: the signed comparison with zero is the bit 0. -/
theorem slt_zero_of_small {a : BitVec 32} (ha : a.toNat < 2 ^ 31) : IntOp.cmpi .slt a 0#32 = 0#1 := by
  apply eq_zero_of_ne_one
  intro h
  have := (StableHlo.Predicate.slt_iff_toNat ha (by decide)).1 h
  simp at this

/-- The select that wraps a negative index keeps a word below 2^31. -/
theorem select_wrap_of_small {a : BitVec 32} (ha : a.toNat < 2 ^ 31) (b : BitVec 32) :
    Scalar.select (IntOp.cmpi .slt a 0#32) b a = a := by
  rw [slt_zero_of_small ha, select_zero]

/-- A word that names a row of an N-row array, N at most 2^31, read signed and clamped into [0, N - 1], is its value. -/
theorem clamp_row_of_lt {N : Nat} (hN : N ≤ 2 ^ 31) {w : BitVec 32} (h : w.toNat < N) :
    min w.toInt.toNat (N - 1) = w.toNat := by
  rw [toInt_toNat_of_small (by omega)]; omega

end Cert.RefSide
-- ==== Proof.RefSide.ScatterRead.lean ====
/- A scatter of rows: the operand is an [N, C] array, the scatter indices an [E, 1] column of words, the updates an
   [E, C] array; update row e lands on the operand row its word names (read signed, not clamped, dropped when it names
   no row), column by column. -/
import Idealize.ShloMosaic.Lib.ValueIdx
import Idealize.ShloMosaic.PureOps.Ideal.Laws
import proofs.«423641_j4861902979196_1_alg».proof.Proof.LibSumLemmas

noncomputable section

open scoped BigOperators

namespace Cert.RefSide

open Idealize.ShloMosaic Idealize.ShloMosaic.ValueIdx

/-- The dimension numbers of a scatter of rows: the updates' axis 1 is the window axis, the operand's axis 0 is
    inserted and is the one the index names, the index vector lies along axis 1 of the indices. -/
abbrev rowsScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)

theorem rowsScatter_start0 (idx : IVec ⟨2, ![E, 1]⟩ w) (e : Fin E) (q' : Fin C) :
    (rowsScatter N E C wf).start (ix2 e q') idx 0 = (idx (ix2 e 0)).toInt := by
  unfold ScatterDims.start
  rw [dif_pos (show (0 : Fin 2) ∈ (rowsScatter N E C wf).scatterDimsToOperandDims from List.mem_singleton.mpr rfl)]
  congr 2
  funext b; refine Fin.ext ?_
  match b with
  | ⟨0, _⟩ => rfl
  | ⟨1, _⟩ => rfl

theorem rowsScatter_start1 (idx : IVec ⟨2, ![E, 1]⟩ w) (j : (⟨2, ![E, C]⟩ : Shape).Idx) :
    (rowsScatter N E C wf).start j idx 1 = 0 := by
  unfold ScatterDims.start
  have h1 : ¬ (1 : Fin 2) ∈ (rowsScatter N E C wf).scatterDimsToOperandDims := by
    show ¬ (1 : Fin 2) ∈ ([0] : List (Fin 2)); decide
  rw [dif_neg h1]

theorem rowsScatter_window0 (j : (⟨2, ![E, C]⟩ : Shape).Idx) : (rowsScatter N E C wf).window j 0 = 0 := by
  unfold ScatterDims.window
  have h0 : ¬ (0 : Fin 2) ∈ (rowsScatter N E C wf).sKept := by
    show ¬ (0 : Fin 2) ∈ (List.finRange 2).filter (· ∉ ([0] : List (Fin 2))); decide
  rw [dif_neg h0]

theorem rowsScatter_window1 (j : (⟨2, ![E, C]⟩ : Shape).Idx) : (rowsScatter N E C wf).window j 1 = (j 1).val := by
  unfold ScatterDims.window
  have h1 : (1 : Fin 2) ∈ (rowsScatter N E C wf).sKept := by
    show (1 : Fin 2) ∈ (List.finRange 2).filter (· ∉ ([0] : List (Fin 2))); decide
  rw [dif_pos h1]
  rfl

end

section
variable {N E C w : Nat} (wf : ScatterDims.WF ⟨2, ![N, C]⟩ ⟨2, ![E, 1]⟩ ⟨2, ![E, C]⟩ [1] [0] [0] 1)

/-- Update (e, q') lands on operand element (n, q) exactly when the word of row e, read signed, is n, and q' = q. -/
theorem rowsScatter_resultIdx_iff (idx : IVec ⟨2, ![E, 1]⟩ w) (e : Fin E) (q' : Fin C) (n : Fin N) (q : Fin C) :
    (rowsScatter N E C wf).resultIdx? (ix2 e q') idx = some (ix2 n q) ↔ (idx (ix2 e 0)).toInt = (n.val : Int) ∧ q' = q := by
  have s0 : (rowsScatter N E C wf).start (ix2 e q') idx 0 + ((rowsScatter N E C wf).window (ix2 e q') 0 : Nat)
      = (idx (ix2 e 0)).toInt := by
    rw [rowsScatter_start0, rowsScatter_window0]; simp
  have s1 : (rowsScatter N E C wf).start (ix2 e q') idx 1 + ((rowsScatter N E C wf).window (ix2 e q') 1 : Nat)
      = (q'.val : Int) := by
    rw [rowsScatter_start1, rowsScatter_window1]; exact zero_add _
  unfold ScatterDims.resultIdx?
  constructor
  · intro h
    split at h
    · next hb =>
      have hf := Option.some.inj h
      have b0 : 0 ≤ (idx (ix2 e 0)).toInt := by
        have := (hb 0).1; rw [s0] at this; exact this
      have e0 : ((idx (ix2 e 0)).toInt).toNat = n.val := by
        have := congrArg Fin.val (congrFun hf 0)
        simp only [s0] at this
        exact this
      have e1 : ((q'.val : Int)).toNat = q.val := by
        have := congrArg Fin.val (congrFun hf 1)
        simp only [s1] at this
        exact this
      refine ⟨by omega, Fin.ext (by simpa using e1)⟩
    · exact absurd h (by simp)
  · rintro ⟨hS, rfl⟩
    have hb : ∀ a, 0 ≤ (rowsScatter N E C wf).start (ix2 e q') idx a + ((rowsScatter N E C wf).window (ix2 e q') a : Nat)
        ∧ (rowsScatter N E C wf).start (ix2 e q') idx a + ((rowsScatter N E C wf).window (ix2 e q') a : Nat)
          < ((⟨2, ![N, C]⟩ : Shape).size a : Nat) := by
      refine Fin.forall_fin_two.2 ⟨?_, ?_⟩
      · rw [s0, hS]
        exact ⟨Int.natCast_nonneg _, by exact_mod_cast n.isLt⟩
      · rw [s1]
        exact ⟨Int.natCast_nonneg _, by exact_mod_cast q'.isLt⟩
    rw [dif_pos hb]
    congr 1
    funext a
    refine Fin.ext ?_
    match a with
    | ⟨0, _⟩ =>
      show ((rowsScatter N E C wf).start (ix2 e q') idx 0 + ((rowsScatter N E C wf).window (ix2 e q') 0 : Nat)).toNat = n.val
      rw [s0, hS]; simp
    | ⟨1, _⟩ =>
      show ((rowsScatter N E C wf).start (ix2 e q') idx 1 + ((rowsScatter N E C wf).window (ix2 e q') 1 : Nat)).toNat = q'.val
      rw [s1]; simp

end

section
variable {N E C w : Nat} (wf : ScatterDims.WF ⟨2, ![N, C]⟩ ⟨2, ![E, 1]⟩ ⟨2, ![E, C]⟩ [1] [0] [0] 1)

/-- THE SCATTER-ADD READ AT (n, q): the operand there plus the sum, over the update rows whose word read signed is n,
    of the update at column q. -/
theorem hostScatterAdd_rows_apply (x : (⟨2, ![N, C]⟩ : Shape).Idx → EReal) (idx : IVec ⟨2, ![E, 1]⟩ w)
    (upd : (⟨2, ![E, C]⟩ : Shape).Idx → EReal) (n : Fin N) (q : Fin C) :
    Ideal.hostScatterAdd (rowsScatter N E C wf) x idx upd (ix2 n q)
      = x (ix2 n q) + ∑ e : Fin E, if (idx (ix2 e 0)).toInt = (n.val : Int) then upd (ix2 e q) else 0 := by
  unfold Ideal.hostScatterAdd
  congr 1
  exact Cert.SumLemmas.sum_filter_idx2 _ (fun e => (idx (ix2 e 0)).toInt = (n.val : Int)) q
    (fun e c' => rowsScatter_resultIdx_iff wf idx e c' n q) upd

end

end Cert.RefSide

end
-- ==== Proof.RefSide.GatherRead.lean ====
/- A gather of rows: the operand is an [N, C] array, the start indices an [E, 1] column of words; result row e is the
   operand row its word names, read signed and clamped into [0, N - 1], column by column. -/
import Idealize.ShloMosaic.Lib.ValueIdx
import Idealize.ShloMosaic.PureOps.Ideal.Laws

noncomputable section

open scoped BigOperators

namespace Cert.RefSide

open Idealize.ShloMosaic Idealize.ShloMosaic.ValueIdx

/-- The dimension numbers of a gather of rows: the result's axis 1 is the offset axis, the operand's axis 0 is
    collapsed and is the one the start index names, the index vector lies along axis 1 of the start indices, a slice is
    one whole row. -/
abbrev rowsGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section
variable {α : Type} {N E C w : Nat} (wf : GatherDims.WF ⟨2, ![N, C]⟩ ⟨2, ![E, 1]⟩ ⟨2, ![E, C]⟩ [1] [0] [] [0] [] 1 ![1, C])

/-- THE GATHER READ AT (e, q): the operand at the row the start index of e names, read signed and clamped into
    [0, N - 1], and column q. -/
theorem gather_rows_apply (hN : 0 < N) (x : (⟨2, ![N, C]⟩ : Shape).Idx → α) (idx : IVec ⟨2, ![E, 1]⟩ w) (e : Fin E) (q : Fin C) :
    Host.gather (rowsGather N E C wf) x idx (ix2 e q)
      = x (ix2 ⟨min (idx (ix2 e 0)).toInt.toNat (N - 1), by omega⟩ q) := by
  unfold Host.gather
  congr 1
  funext a
  refine Fin.ext ?_
  have hb : ∀ a : Fin 2, a ∉ (rowsGather N E C wf).operandBatchingDims := fun a => List.not_mem_nil
  match a with
  | ⟨0, _⟩ =>
    show (rowsGather N E C wf).start (ix2 e q) idx 0 + (rowsGather N E C wf).batchCoord (ix2 e q) 0
      + (rowsGather N E C wf).offCoord (ix2 e q) 0 = _
    have hk : (0 : Fin 2) ∉ (rowsGather N E C wf).sKept := fun h =>
      ((GatherDims.mem_sKept _ _).mp h).1 (List.mem_singleton.mpr rfl)
    rw [GatherDims.batchCoord_eq_zero _ _ _ (hb 0), GatherDims.offCoord_eq_zero _ _ _ hk]
    simp only [Nat.add_zero]
    unfold GatherDims.start
    rw [dif_pos (show (0 : Fin 2) ∈ (rowsGather N E C wf).startIndexMap from List.mem_singleton.mpr rfl)]
    have hsi : (rowsGather N E C wf).siIdx (ix2 e q) ⟨List.idxOf (0 : Fin 2) (rowsGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGather N E C wf).start (ix2 e q) idx 1 + (rowsGather N E C wf).batchCoord (ix2 e q) 1
      + (rowsGather N E C wf).offCoord (ix2 e q) 1 = q.val
    have hm : (1 : Fin 2) ∉ (rowsGather N E C wf).startIndexMap := by
      show ¬ (1 : Fin 2) ∈ ([0] : List (Fin 2)); decide
    have hc : (1 : Fin 2) ∉ (rowsGather N E C wf).collapsedSliceDims := hm
    have hk : (1 : Fin 2) ∈ (rowsGather N E C wf).sKept := (GatherDims.mem_sKept _ _).2 ⟨hc, hb 1⟩
    rw [GatherDims.batchCoord_eq_zero _ _ _ (hb 1)]
    unfold GatherDims.start GatherDims.offCoord
    rw [dif_neg hm, dif_pos hk]
    simp only [Nat.add_zero, Nat.zero_add]
    rfl

end

end Cert.RefSide

end
-- ==== Proof.RefSide.lean ====
/- The reference program's result, read index by index. The program appends the self loops to the two rows of the edge
   array, transforms the features by the weights, gathers the transformed row of every edge's source word (a word that
   names a row is kept by the wrap of negative indices and by the clamp), scales it by the edge's coefficient, adds the
   scaled rows up at the row every edge's target word names (a word that names no row adds nothing), adds the bias and
   clips at zero: entry (n, q) of the result is the aggregate, at (n, q), of the messages of the transformed features. -/
import proofs.«423641_j4861902979196_1_alg».proof.Proof.RefRunP
import proofs.«423641_j4861902979196_1_alg».proof.Proof.RefReadP
import proofs.«423641_j4861902979196_1_alg».proof.Proof.LayerSpec
import proofs.«423641_j4861902979196_1_alg».proof.Proof.LibSumLemmas
import proofs.«423641_j4861902979196_1_alg».proof.Proof.RefSide.Words
import proofs.«423641_j4861902979196_1_alg».proof.Proof.RefSide.ScatterRead
import proofs.«423641_j4861902979196_1_alg».proof.Proof.RefSide.GatherRead

noncomputable section

open scoped BigOperators

namespace Cert.RefSide

open Idealize.ShloMosaic Idealize.ShloMosaic.ValueIdx Cert.ReferenceIdeal Cert.ReferenceIdeal.Gen Cert.ReferenceIdeal.ReadP
open Idealize.ShloMosaic.TcCoe Idealize.SL.Sem

/-- The per-edge coefficient, as a [1, 1700000] row: the product of the two gathered inverse square roots of the
    degrees, as the program computes it from the edge array. -/
def coefRow (ei : (⟨2, ![2, 1600000]⟩ : Shape).Idx → BitVec 32) : (⟨2, ![1, 1700000]⟩ : Shape).Idx → EReal :=
  fun i => Cert.ReferenceIdeal.ReadP.val_main_v32 (F := Ideal) ei (ix1 (i 1 : Fin 1700000))

theorem coefRow_apply (ei : (⟨2, ![2, 1600000]⟩ : Shape).Idx → BitVec 32) (e : Fin 1700000) :
    coefRow ei (ix2 0 e) = Cert.ReferenceIdeal.ReadP.val_main_v32 (F := Ideal) ei (ix1 e) := rfl

/-- The edge list with the self loops appended, read at edge e: row a of the edge array, then 0, 1, …, 99999. -/
theorem edgeRow_read (a : Fin 2) (ei : (⟨2, ![2, 1600000]⟩ : Shape).Idx → BitVec 32) (e : Fin 1700000) :
    Cert.Layer.edgeRow (Ec := 1600000) (R := 100000) a ei (ix2 0 e)
      = if h : e.val < 1600000 then ei (ix2 a ⟨e.val, h⟩) else BitVec.ofNat 32 (e.val - 1600000) := rfl

section Reads
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))

/-! ## The two index rows -/

/-- Row 0 of the edge array, flattened. -/
theorem v1_read (e : Fin 1600000) : val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

/-- Row 1 of the edge array, flattened. -/
theorem v3_read (e : Fin 1600000) : val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- The source words with the self loops appended. -/
theorem v5_read (e : Fin 1700000) :
    val_main_v5 (F := Ideal) x1 (ix1 e) = Cert.Layer.edgeRow (Ec := 1600000) (R := 100000) 0 x1 (ix2 0 e) := by
  rw [edgeRow_read]
  unfold val_main_v5
  by_cases h : e.val < 1600000
  · rw [dif_pos h]
    refine (concatenate_pair_apply_left (t := S1700000) (s₁ := S1600000) (s₂ := S100000) (0 : Fin 1) (val_main_v1 (F := Ideal) x1) (val_main_v4 (F := Ideal))
      concatenates_S1600000_S100000_S1700000_d0 (ix1 e) rfl (ix1 ⟨e.val, h⟩) (fun b => by
        match b with
        | ⟨0, _⟩ => rfl)).trans ?_
    exact v1_read x1 ⟨e.val, h⟩
  · rw [dif_neg h]
    refine (concatenate_pair_apply_right (t := S1700000) (s₁ := S1600000) (s₂ := S100000) (0 : Fin 1) (val_main_v1 (F := Ideal) x1) (val_main_v4 (F := Ideal))
      concatenates_S1600000_S100000_S1700000_d0 (ix1 e) rfl rfl (ix1 ⟨e.val - 1600000, by have := e.isLt; omega⟩)
      (fun b hb => absurd (Subsingleton.elim _ _) hb) (by show e.val - 1600000 + 1600000 = e.val; omega)).trans ?_
    rfl

/-- The target words with the self loops appended. -/
theorem v6_read (e : Fin 1700000) :
    val_main_v6 (F := Ideal) x1 (ix1 e) = Cert.Layer.edgeRow (Ec := 1600000) (R := 100000) 1 x1 (ix2 0 e) := by
  rw [edgeRow_read]
  unfold val_main_v6
  by_cases h : e.val < 1600000
  · rw [dif_pos h]
    refine (concatenate_pair_apply_left (t := S1700000) (s₁ := S1600000) (s₂ := S100000) (0 : Fin 1) (val_main_v3 (F := Ideal) x1) (val_main_v4 (F := Ideal))
      concatenates_S1600000_S100000_S1700000_d0 (ix1 e) rfl (ix1 ⟨e.val, h⟩) (fun b => by
        match b with
        | ⟨0, _⟩ => rfl)).trans ?_
    exact v3_read x1 ⟨e.val, h⟩
  · rw [dif_neg h]
    refine (concatenate_pair_apply_right (t := S1700000) (s₁ := S1600000) (s₂ := S100000) (0 : Fin 1) (val_main_v3 (F := Ideal) x1) (val_main_v4 (F := Ideal))
      concatenates_S1600000_S100000_S1700000_d0 (ix1 e) rfl rfl (ix1 ⟨e.val - 1600000, by have := e.isLt; omega⟩)
      (fun b hb => absurd (Subsingleton.elim _ _) hb) (by show e.val - 1600000 + 1600000 = e.val; omega)).trans ?_
    rfl

/-- Every source word names a row when the edge array's do: a self loop's word is its node. -/
theorem src_small (hsrc : ∀ e : Fin 1600000, (x1 (ix2 (0 : Fin 2) e)).toNat < 100000) (e : Fin 1700000) :
    (Cert.Layer.edgeRow (Ec := 1600000) (R := 100000) 0 x1 (ix2 0 e)).toNat < 100000 := by
  rw [edgeRow_read]
  split
  · next h => exact hsrc ⟨e.val, h⟩
  · next h => rw [BitVec.toNat_ofNat]; have := e.isLt; omega

/-- The wrap of negative indices keeps a source word that names a row. -/
theorem v39_read (hsrc : ∀ e : Fin 1600000, (x1 (ix2 (0 : Fin 2) e)).toNat < 100000) (e : Fin 1700000) :
    val_main_v39 (F := Ideal) x1 (ix1 e) = Cert.Layer.edgeRow (Ec := 1600000) (R := 100000) 0 x1 (ix2 0 e) := by
  rw [val_main_v39_apply, val_main_v36_apply, val_main_v35_apply, val_main_c_7_apply, v5_read]
  exact select_wrap_of_small (by have := src_small x1 hsrc e; omega) _

theorem idx_v40 (e : Fin 1700000) : idx_main_v40 (ix2 e (0 : Fin 1)) = ix1 e := by
  funext a
  match a with
  | ⟨0, _⟩ => rfl

theorem idx_v46 (e : Fin 1700000) : idx_main_v46 (ix2 e (0 : Fin 1)) = ix1 e := by
  funext a
  match a with
  | ⟨0, _⟩ => rfl

/-- The gather's start indices: the source words as a column. -/
theorem v40_read (hsrc : ∀ e : Fin 1600000, (x1 (ix2 (0 : Fin 2) e)).toNat < 100000) (e : Fin 1700000) :
    val_main_v40 (F := Ideal) x1 (ix2 e (0 : Fin 1)) = Cert.Layer.edgeRow (Ec := 1600000) (R := 100000) 0 x1 (ix2 0 e) := by
  rw [val_main_v40_apply, idx_v40, v39_read x1 hsrc]

/-- The scatter's indices: the target words as a column. -/
theorem v46_read (e : Fin 1700000) :
    val_main_v46 (F := Ideal) x1 (ix2 e (0 : Fin 1)) = Cert.Layer.edgeRow (Ec := 1600000) (R := 100000) 1 x1 (ix2 0 e) := by
  rw [val_main_v46_apply, idx_v46, v6_read]

/-! ## The transformed features, the messages -/

/-- The product of the features with the transposed weights is the transformed features. -/
theorem v34_read (r : Fin 100000) (q : Fin 128) :
    val_main_v34 (F := Ideal) x0 x2 (ix2 r q) = Cert.Layer.feat (R := 100000) x0 x2 (ix2 r q) := by
  rw [val_main_v34_apply, Cert.Layer.feat_apply]
  refine Finset.sum_congr rfl fun k _ => ?_
  rw [val_main_v33_apply]
  have hl : lidx_main_v34 (ix2 r q) k = ix2 r k := by
    funext a
    match a with
    | ⟨0, _⟩ => rfl
    | ⟨1, _⟩ => rfl
  have hr : idx_main_v33 (ridx_main_v34 (ix2 r q) k) = ix2 q k := by
    funext a
    match a with
    | ⟨0, _⟩ => rfl
    | ⟨1, _⟩ => rfl
  rw [hl, hr]

/-- The gathered row of edge e is the product's row its start index names, read signed and clamped. -/
theorem v41_gather (e : Fin 1700000) (q : Fin 128) :
    val_main_v41 (F := Ideal) x0 x1 x2 (ix2 e q)
      = val_main_v34 (F := Ideal) x0 x2
          (ix2 ⟨min (val_main_v40 (F := Ideal) x1 (ix2 e (0 : Fin 1))).toInt.toNat (100000 - 1), by omega⟩ q) := by
  unfold val_main_v41
  exact gather_rows_apply gather_S100000x128_S1700000x1_S1700000x128_1_0_n_n_0_1_1128_wf (by omega)
    (val_main_v34 (F := Ideal) x0 x2) (val_main_v40 (F := Ideal) x1) e q

/-- A source word that names a row is its own clamp. -/
theorem v40_clamp (hsrc : ∀ e : Fin 1600000, (x1 (ix2 (0 : Fin 2) e)).toNat < 100000) (e : Fin 1700000) :
    min (val_main_v40 (F := Ideal) x1 (ix2 e (0 : Fin 1))).toInt.toNat (100000 - 1)
      = (Cert.Layer.edgeRow (Ec := 1600000) (R := 100000) 0 x1 (ix2 0 e)).toNat := by
  rw [v40_read x1 hsrc]
  exact clamp_row_of_lt (by omega) (src_small x1 hsrc e)

/-- The gathered row of edge e is the transformed row its source word names. -/
theorem v41_read (hsrc : ∀ e : Fin 1600000, (x1 (ix2 (0 : Fin 2) e)).toNat < 100000) (e : Fin 1700000) (q : Fin 128) :
    val_main_v41 (F := Ideal) x0 x1 x2 (ix2 e q)
      = Cert.Layer.rowAt (Cert.Layer.feat (R := 100000) x0 x2) (Cert.Layer.edgeRow (Ec := 1600000) (R := 100000) 0 x1 (ix2 0 e)) q := by
  have hs := src_small x1 hsrc e
  have hr : (⟨min (val_main_v40 (F := Ideal) x1 (ix2 e (0 : Fin 1))).toInt.toNat (100000 - 1), by omega⟩ : Fin 100000)
      = ⟨(Cert.Layer.edgeRow (Ec := 1600000) (R := 100000) 0 x1 (ix2 0 e)).toNat, hs⟩ := Fin.ext (v40_clamp x1 hsrc e)
  unfold Cert.Layer.rowAt
  rw [dif_pos hs]
  refine (v41_gather x0 x1 x2 e q).trans ?_
  refine (congrArg (fun r : Fin 100000 => val_main_v34 (F := Ideal) x0 x2 (ix2 r q)) hr).trans ?_
  exact v34_read x0 x2 _ q

/-- The coefficient broadcast along the rows. -/
theorem v43_read (e : Fin 1700000) (q : Fin 128) : val_main_v43 (F := Ideal) x1 (ix2 e q) = coefRow x1 (ix2 0 e) := by
  rw [val_main_v43_apply, val_main_v42_apply, coefRow_apply]
  congr 1
  funext a
  match a with
  | ⟨0, _⟩ => rfl

/-- The scaled gathered rows are the messages. -/
theorem v44_read (hsrc : ∀ e : Fin 1600000, (x1 (ix2 (0 : Fin 2) e)).toNat < 100000) (e : Fin 1700000) (q : Fin 128) :
    val_main_v44 (F := Ideal) x0 x1 x2 (ix2 e q)
      = Cert.Layer.msgs (Cert.Layer.feat (R := 100000) x0 x2) (Cert.Layer.edgeRow (Ec := 1600000) (R := 100000) 0 x1)
          (coefRow x1) (ix2 e q) := by
  rw [val_main_v44_apply, Cert.Layer.msgs_apply, v41_read x0 x1 x2 hsrc, v43_read]
  rfl

/-! ## The aggregate -/

/-- The scatter's dimension numbers are those of a scatter of rows. -/
theorem scatter_eq_rows : scatter_S100000x128_S1700000x1_S1700000x128_1_0_0_1
    = rowsScatter 100000 1700000 128 scatter_S100000x128_S1700000x1_S1700000x128_1_0_0_1_wf := rfl

/-- The scatter-add is the ideal one at the dimension numbers of a scatter of rows. -/
theorem v47_eq : val_main_v47 (F := Ideal) x0 x1 x2
    = Ideal.hostScatterAdd (rowsScatter 100000 1700000 128 scatter_S100000x128_S1700000x1_S1700000x128_1_0_0_1_wf)
        (val_main_v45 (F := Ideal)) (val_main_v46 (F := Ideal) x1) (val_main_v44 (F := Ideal) x0 x1 x2) := by
  unfold val_main_v47 Host.scatterAdd
  rw [Ideal.hostScatterAdd_def, scatter_eq_rows]

/-- The scatter-add at (n, q): the operand there plus the sum, over the edges whose index word read signed is n, of
    the update at column q. -/
theorem v47_scatter (n : Fin 100000) (q : Fin 128) :
    val_main_v47 (F := Ideal) x0 x1 x2 (ix2 n q)
      = val_main_v45 (F := Ideal) (ix2 n q) + ∑ e : Fin 1700000,
          if (val_main_v46 (F := Ideal) x1 (ix2 e (0 : Fin 1))).toInt = (n.val : Int)
            then val_main_v44 (F := Ideal) x0 x1 x2 (ix2 e q) else 0 :=
  (congrFun (v47_eq x0 x1 x2) (ix2 n q)).trans
    (hostScatterAdd_rows_apply scatter_S100000x128_S1700000x1_S1700000x128_1_0_0_1_wf (val_main_v45 (F := Ideal))
      (val_main_v46 (F := Ideal) x1) (val_main_v44 (F := Ideal) x0 x1 x2) n q)

/-- The scatter-add from zero: at (n, q), the sum of the messages of the edges whose target word names n. -/
theorem v47_read (hsrc : ∀ e : Fin 1600000, (x1 (ix2 (0 : Fin 2) e)).toNat < 100000) (n : Fin 100000) (q : Fin 128) :
    val_main_v47 (F := Ideal) x0 x1 x2 (ix2 n q)
      = ∑ e : Fin 1700000, if (Cert.Layer.edgeRow (Ec := 1600000) (R := 100000) 1 x1 (ix2 0 e)).toNat = n.val
          then Cert.Layer.msgs (Cert.Layer.feat (R := 100000) x0 x2) (Cert.Layer.edgeRow (Ec := 1600000) (R := 100000) 0 x1)
            (coefRow x1) (ix2 e q) else 0 := by
  rw [v47_scatter, val_main_v45_apply, val_main_cst_9_apply, Ideal.ofBits_def, Ideal.ofBits_zero_f32, zero_add]
  refine Finset.sum_congr rfl fun e _ => ?_
  rw [v46_read, v44_read x0 x1 x2 hsrc]
  exact if_congr (toInt_eq_natCast_iff _ (by have := n.isLt; omega)) rfl rfl

/-- The bias broadcast along the rows. -/
theorem v49_read (n : Fin 100000) (q : Fin 128) : val_main_v49 (F := Ideal) x3 (ix2 n q) = Cert.Layer.biasRow x3 (ix2 0 q) := by
  rw [val_main_v49_apply, val_main_v48_apply, Cert.Layer.biasRow_apply]
  congr 1
  funext a
  match a with
  | ⟨0, _⟩ => rfl

/-- The program's last value is the aggregate of the messages. -/
theorem v51_read (hsrc : ∀ e : Fin 1600000, (x1 (ix2 (0 : Fin 2) e)).toNat < 100000) (n : Fin 100000) (q : Fin 128) :
    val_main_v51 (F := Ideal) x0 x1 x2 x3 (ix2 n q)
      = Cert.Layer.aggr (R := 100000)
          (Cert.Layer.msgs (Cert.Layer.feat (R := 100000) x0 x2) (Cert.Layer.edgeRow (Ec := 1600000) (R := 100000) 0 x1) (coefRow x1))
          (Cert.Layer.edgeRow (Ec := 1600000) (R := 100000) 1 x1) (Cert.Layer.biasRow x3) (ix2 n q) := by
  rw [val_main_v51_apply, val_main_v50_apply, val_main_call1_v0_apply, val_main_call1_cst_apply,
    Ideal.maximumf_def, Ideal.addf_def, Ideal.ofBits_def, Ideal.ofBits_zero_f32,
    v47_read x0 x1 x2 hsrc, v49_read, Cert.Layer.aggr_apply]

end Reads

/-- THE REFERENCE'S RESULT at (n, q), when every source word of the edge array names a row: the aggregate, over the
    edges with the self loops appended, of the messages of the transformed features. -/
theorem ref_value (m : (ℓ : Loc nD τ sig) → Buf (Elt Ideal) ℓ) (c : Dev nD)
    (hsrc : ∀ e : Fin 1600000, ((m ((c.tc : Thread nD τ).loc main_arg1)) (ix2 (0 : Fin 2) e)).toNat < 100000)
    (n : Fin 100000) (q : Fin 128) :
    Cert.ReferenceIdeal.ValueP.res_main_v51 (F := Ideal) m c (ix2 n q)
      = Cert.Layer.aggr (R := 100000)
          (Cert.Layer.msgs (Cert.Layer.feat (m ((c.tc : Thread nD τ).loc main_arg0)) (m ((c.tc : Thread nD τ).loc main_arg2)))
            (Cert.Layer.edgeRow (Ec := 1600000) (R := 100000) 0 (m ((c.tc : Thread nD τ).loc main_arg1)))
            (coefRow (m ((c.tc : Thread nD τ).loc main_arg1))))
          (Cert.Layer.edgeRow (Ec := 1600000) (R := 100000) 1 (m ((c.tc : Thread nD τ).loc main_arg1)))
          (Cert.Layer.biasRow (m ((c.tc : Thread nD τ).loc main_arg3))) (ix2 n q) := by
  rw [val_main_v51_eq]
  exact v51_read _ _ _ _ hsrc n q

end Cert.RefSide

end
-- ==== Proof.PreDecode.lean ====
/-
  The precondition decoded at one entry. The printed predicate is a conjunction of five bits: three finiteness
  tests (not opened here) and, over the 1600000 entries of the first row of the [2 × 1600000] word array, the
  conjunction of "entry ≥ 0" and the conjunction of "entry < 100000", both signed. If the predicate is 1 then each
  conjunct is 1, so each comparison is 1 at every entry; entry e of the flattened first row is the array at (0, e);
  and a 32-bit word in [0, 100000) signed is below 100000 unsigned.
-/
import proofs.«423641_j4861902979196_1_alg».proof.Pre_finite_inputs
import Idealize.ShloMosaic.Lib.ReduceAll
import Idealize.ShloMosaic.Lib.StableHlo.Predicate
import Idealize.ShloMosaic.Lib.ValueIdx
import Idealize.ShloMosaic.Lib.Pipeline.Value
noncomputable section
namespace Cert.PreDecode
open Idealize.ShloMosaic Idealize.ShloMosaic.ValueIdx Cert.Pre_finite_inputs

/-- A 32-bit word that is at least 0 and below 100000 as a signed integer is below 100000 as a natural number. -/
theorem toNat_lt_of_signed (w : BitVec 32) (h0 : IntOp.cmpi .sge w 0#32 = 1#1) (h1 : IntOp.cmpi .slt w 100000#32 = 1#1) :
    w.toNat < 100000 := by
  unfold IntOp.cmpi at h0 h1
  rw [StableHlo.Predicate.ofBool_eq_one_iff] at h0 h1
  simp only [BitVec.sle, BitVec.slt, decide_eq_true_eq] at h0 h1
  rw [show (0#32 : BitVec 32).toInt = 0 from by decide] at h0
  rw [StableHlo.Predicate.toInt_ofNat_small 100000 (by norm_num)] at h1
  rw [BitVec.toInt_eq_toNat_cond] at h0 h1
  have hw := w.isLt
  split at h0 <;> omega

/-- Entry e of the flattened first row of the [2 × 1600000] array is the array at (0, e). -/
theorem row_apply [Cert.Pre_finite_inputs.Facts] (ei : IVec S2x1600000 32) (e : Fin 1600000) :
    shapeCast S1600000 (extractStridedSlice S1x1600000 ![0, 0] ei Facts.slices_S2x1600000_S1x1600000_0_0)
        Facts.shapeCasts_S1x1600000_S1600000 (ix1 e) = ei (ix2 (0 : Fin 2) e) := by
  refine (shapeCast_apply _ _ (ix1 e) (ix2 (0 : Fin 1) e) ?_).trans ?_
  · rw [Shape.rowMajor_val_two, Shape.rowMajor_val_one]
    show 0 * 1600000 + e.val = e.val
    omega
  · refine extractStridedSlice_apply _ _ _ _ (ix2 (0 : Fin 2) e) fun a => ?_
    match a with
    | ⟨0, _⟩ => rfl
    | ⟨1, _⟩ => show e.val = 0 + e.val; omega

/-- A scalar constant broadcast along the row reads the constant at every entry. -/
theorem const_apply [Cert.Pre_finite_inputs.Facts] (c : BitVec 32) (e : Fin 1600000) :
    broadcastInDim S1600000 ![] Facts.bcast_S_S1600000 (constantI S_ 32 c) (ix1 e) = c :=
  StableHlo.Predicate.bcast_scalar Facts.bcast_S_S1600000 Facts.h_S_ _ _

/-- Under the precondition every word of the edge array's first row, read unsigned, is below 100000. -/
theorem src_in_range {F : FTy → Type} [FloatOps F] [Cert.Pre_finite_inputs.Facts]
    (x : FVec F S100000x128 .f32) (ei : IVec S2x1600000 32) (W : FVec F S128x128 .f32) (b : FVec F S128 .f32)
    (h : Cert.Pre_finite_inputs.fn (F := F) x ei W b = fun _ => 1#1) (e : Fin 1600000) :
    (ei (ix2 (0 : Fin 2) e)).toNat < 100000 := by
  haveI : Subsingleton S_.Idx := ⟨fun a b => funext fun d => d.elim0⟩
  have e0 := congrFun h ValueIdx.ix0
  dsimp only [fn, fn_part1] at e0
  obtain ⟨h1, h24⟩ := IntOp.andi_eq_one.1 e0
  obtain ⟨-, h18⟩ := IntOp.andi_eq_one.1 h1
  have g0 := Host.reduce_andi_all _ _ _ _ _ h18 (ix1 e)
  have g1 := Host.reduce_andi_all _ _ _ _ _ h24 (ix1 e)
  simp only [cmpi] at g0 g1
  rw [row_apply, const_apply] at g0 g1
  exact toNat_lt_of_signed _ g0 g1

end Cert.PreDecode
end
-- ==== Proof.lean ====
/- One graph-convolution layer over 100000 nodes with 128 features, 1600000 edges given as a [2 × 1600000] array of
   32-bit words (row 0 the source of each edge, row 1 its target), a 128 × 128 weight matrix and a bias of 128.
   The edge list is extended by one self loop per node (1700000 edges in all). Every edge carries a coefficient,
   the product of the inverse square roots of the degrees of its two ends; both programs compute the coefficients
   from the edge array by the same chain of host operations. The layer is then three stages:

     transformed features   h (r, q)   = Σ_k  x (r, k) · w (q, k)
     messages               msg (e, q) = h (source e, q) · coefficient e
     result                 out (n, q) = max (Σ_{e : target e = n} msg (e, q) + bias q, 0).

   The reference computes the stages by a matrix product, a gather and a scatter-add on the host. The kernel
   program pads the nodes to 100352 = 49 · 2048 rows of zeros and the edges to 1701888 = 831 · 2048 with
   coefficient zero, runs one kernel region per stage, and slices the result back to the first 100000 rows.

   Region 0, one grid point per block of 2048 rows: the block of the padded features times the transposed weights.
   The 49 blocks tile the array, so the region leaves h of the padded features.

   Region 1, a point per (block of 2048 edges, block of 2048 rows): the point builds the 2048 × 2048 matrix whose
   (e, r) entry is 1 when edge e's source word, less the block's first row, equals r, else 0, multiplies it with the
   block of h and adds the product into an accumulator that is zeroed at the first row block and scaled by the
   coefficients and written back at the last. A row of that matrix has at most one 1, in the one row block that
   holds the source row, so over the 49 row blocks the accumulator gathers exactly h (source e, ·): one term 1 · h,
   every other term 0 · h = 0, also where h is infinite. When the source word names no row of the padded range every
   term is zero.

   Region 2, a point per (block of 2048 nodes, block of 2048 edges): the same with the roles exchanged. The
   (n, e) entry is 1 when edge e's target word names node n, the products with the blocks of messages are accumulated
   over the 831 edge blocks, and at the last the bias is added and the maximum with zero taken. The accumulator ends
   at the sum of the messages of exactly the edges whose target is n: a scatter-add.

   At the extended reals the narrowings to 16-bit floats on the way into the matrix unit are the identity, so the three
   regions leave the three stages over the padded arrays. Padding changes no entry of the result at a node below
   100000: a padded edge's message is its source row times zero; an edge of the list reads the same features in
   both, provided its source word names a row below 100000. For the appended self loops it does (the words are
   0 … 99999); for the edges of the array that is what the precondition states of its first row, besides
   finiteness: every word at least 0 and below 100000 as a signed number. Where a source word named no row, the
   kernel program's message would be zero whatever the reference's gather reads, and the two sides need not agree.
   No such condition is needed of the target words: an edge whose target names no node contributes to no entry below
   100000 on either side.

   So both results are, entry by entry, the same expression in the four arguments, on which the two memories agree.
   Nothing was rewritten between the word-level kernel program and its reading at the extended reals, and each
   program runs to its end leaving its arguments as they were. -/
import proofs.«423641_j4861902979196_1_alg».proof.Defs
import proofs.«423641_j4861902979196_1_alg».proof.Proof.Gen.Kernel
import proofs.«423641_j4861902979196_1_alg».proof.Proof.Gen.KernelIdeal
import proofs.«423641_j4861902979196_1_alg».proof.Proof.Gen.ReferenceIdeal
import proofs.«423641_j4861902979196_1_alg».proof.Proof.Gen.Pre_finite_inputs
import proofs.«423641_j4861902979196_1_alg».proof.Proof.FrameK.Run
import proofs.«423641_j4861902979196_1_alg».proof.Proof.FrameKI.Run
import proofs.«423641_j4861902979196_1_alg».proof.Proof.AssembleKI
import proofs.«423641_j4861902979196_1_alg».proof.Proof.RefSide
import proofs.«423641_j4861902979196_1_alg».proof.Proof.RefRunP
import proofs.«423641_j4861902979196_1_alg».proof.Proof.PreDecode
import Idealize.ShloMosaic.Adequacy
import Idealize.ShloMosaic.Init

noncomputable section

namespace Cert.Proof

open Idealize.ShloMosaic Idealize.SL.Sem Idealize.ShloMosaic.ValueIdx Idealize.ShloMosaic.TcCoe

/-- The word-level kernel program runs to its end and leaves its four arguments as launched. -/
theorem frame_k : Cert.frame_Kernel := fun m ρ _ => Cert.Kernel.Hand.frame_run m ρ

/-- So does the kernel program at the extended reals. -/
theorem frame_ki : Cert.frame_KernelIdeal := fun m ρ _ => Cert.KernelIdeal.Hand.frame_run m ρ

/-- So does the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs run; the kernel program's result and the reference's are, entry by entry, the same aggregate of the
    same messages of the same transformed features of the arguments, on which the two memories agree. The
    precondition gives that every source word of the edge array names a row. -/
theorem algebraic : Cert.algebraic_KernelIdeal_ReferenceIdeal := by
  intro m ρ m' ρ' hpre hagree
  refine ⟨fun c => Cert.KernelIdeal.Gen.V16 m (Cert.KernelIdeal.Hand.outs m) c Cert.KernelIdeal.main_v43,
    Cert.KernelIdeal.Hand.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3⟩ := hagree c
  have hs : ∀ e : Fin 1600000, ((m ((c.tc : Thread Cert.KernelIdeal.nD Cert.KernelIdeal.τ).loc Cert.KernelIdeal.main_arg1)) (ix2 (0 : Fin 2) e)).toNat < 100000 :=
    Cert.PreDecode.src_in_range _ _ _ _ (hpre c)
  funext i
  obtain ⟨n, q, rfl⟩ : ∃ (n : Fin 100000) (q : Fin 128), i = ix2 n q := ⟨i 0, i 1, eq_ix2 i⟩
  refine (Cert.RefSide.ref_value m' c (by rw [a1]; exact hs) n q).trans ?_
  rw [a0, a1, a2, a3]
  exact (Cert.KernelIdeal.Hand.kernel_value m c hs n q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
